-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256 : Shape := ⟨2, ![8, 256]⟩
abbrev S50000x256 : Shape := ⟨2, ![50000, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S8x256 : S_.BroadcastsInDim S8x256 (![] : Fin 0 → Fin S8x256.rank)
  reducesTo_S8x256_S_d0_1 : S8x256.ReducesTo [0, 1] S_

variable [Facts]

def fn {F : FTy → Type} [FloatOps F] (main_arg0 : IVec S8x256 32) (main_arg1 : FVec F S50000x256 .f32) : IVec S_ 1 :=
  let main_v0 : FVec F S50000x256 .f32 := Host.absf main_arg1
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_c_0 : IVec S_ 32 := constantI S_ 32 0#32
  let main_v4 : IVec S8x256 32 := broadcastInDim S8x256 ![] bcast_S_S8x256 main_c_0
  let main_v5 : IVec S8x256 1 := cmpi .sge main_arg0 main_v4
  let main_c_1 : IVec S_ 32 := constantI S_ 32 50000#32
  let main_v6 : IVec S8x256 32 := broadcastInDim S8x256 ![] bcast_S_S8x256 main_c_1
  let main_v7 : IVec S8x256 1 := cmpi .slt main_arg0 main_v6
  let main_v8 : IVec S8x256 1 := andi main_v5 main_v7
  let main_c_2 : IVec S_ 1 := constantI S_ 1 1#1
  let main_v9 : IVec S_ 1 := (fun x v => Host.reduce IntOp.andi x v reducesTo_S8x256_S_d0_1 h_S_) main_v8 main_c_2
  let main_v10 : IVec S_ 1 := andi main_v3 main_v9
  main_v10
-- ==== Kernel.lean ====
abbrev S8x256 : Shape := ⟨2, ![8, 256]⟩
abbrev S50000x256 : Shape := ⟨2, ![50000, 256]⟩
abbrev S2048 : Shape := ⟨1, ![2048]⟩
abbrev S2048x1x256 : Shape := ⟨3, ![2048, 1, 256]⟩
abbrev S32x1x256 : Shape := ⟨3, ![32, 1, 256]⟩
abbrev S32x256 : Shape := ⟨2, ![32, 256]⟩
abbrev S32 : Shape := ⟨1, ![32]⟩
abbrev S1 : Shape := ⟨1, ![1]⟩
abbrev S_ : Shape := ⟨0, ![]⟩
abbrev S1x256 : Shape := ⟨2, ![1, 256]⟩
abbrev S256 : Shape := ⟨1, ![256]⟩
abbrev S2048x256 : Shape := ⟨2, ![2048, 256]⟩
abbrev S8x256x256 : Shape := ⟨3, ![8, 256, 256]⟩

abbrev nBuf : Space → Nat
  | .hbm => 5
  | .vmem => 3
  | .smem => 1
  | _ => 0

abbrev bufTy : (tb : Table) → Fin (tcTables nBuf tb) → BufTy
  | .hbm, ⟨0, _⟩ => ⟨S8x256, .i32⟩
  | .hbm, ⟨1, _⟩ => ⟨S50000x256, .f32⟩
  | .hbm, ⟨2, _⟩ => ⟨S2048x1x256, .f32⟩
  | .hbm, ⟨3, _⟩ => ⟨S2048x256, .f32⟩
  | .hbm, ⟨4, _⟩ => ⟨S8x256x256, .f32⟩
  | .local _ .vmem, ⟨0, _⟩ => ⟨S32x1x256, .f32⟩
  | .local _ .vmem, ⟨1, _⟩ => ⟨S32x1x256, .f32⟩
  | .local _ .vmem, ⟨2, _⟩ => ⟨S32x256, .f32⟩
  | .local _ .smem, ⟨0, _⟩ => ⟨S2048, .i32⟩
  | _, _ => ⟨S8x256, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c32_i32 : BitVec 32 := 32#32
  let v0 : BitVec 32 := Scalar.muli arg0 c32_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c32_i32 : BitVec 32 := 32#32
  let v0 : BitVec 32 := Scalar.muli arg0 c32_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c32_i32 : BitVec 32 := 32#32
  let v0 : BitVec 32 := Scalar.muli arg0 c32_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c32_i32 : BitVec 32 := 32#32
  let v0 : BitVec 32 := Scalar.muli arg0 c32_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c32_i32 : BitVec 32 := 32#32
  let v0 : BitVec 32 := Scalar.muli arg0 c32_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c32_i32 : BitVec 32 := 32#32
  let v0 : BitVec 32 := Scalar.muli arg0 c32_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c32_i32 : BitVec 32 := 32#32
  let v0 : BitVec 32 := Scalar.muli arg0 c32_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_off17 (i : grid0.Coords) : Fin 1 → Nat :=
  let arg0 : BitVec 32 := BitVec.ofNat 32 (i 0).val
  let c32_i32 : BitVec 32 := 32#32
  let v0 : BitVec 32 := Scalar.muli arg0 c32_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_off19 (i : grid0.Coords) : Fin 1 → Nat :=
  let arg0 : BitVec 32 := BitVec.ofNat 32 (i 0).val
  let c32_i32 : BitVec 32 := 32#32
  let v0 : BitVec 32 := Scalar.muli arg0 c32_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_off21 (i : grid0.Coords) : Fin 1 → Nat :=
  let arg0 : BitVec 32 := BitVec.ofNat 32 (i 0).val
  let c32_i32 : BitVec 32 := 32#32
  let v0 : BitVec 32 := Scalar.muli arg0 c32_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_off23 (i : grid0.Coords) : Fin 1 → Nat :=
  let arg0 : BitVec 32 := BitVec.ofNat 32 (i 0).val
  let c32_i32 : BitVec 32 := 32#32
  let v0 : BitVec 32 := Scalar.muli arg0 c32_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_off25 (i : grid0.Coords) : Fin 1 → Nat :=
  let arg0 : BitVec 32 := BitVec.ofNat 32 (i 0).val
  let c32_i32 : BitVec 32 := 32#32
  let v0 : BitVec 32 := Scalar.muli arg0 c32_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_off27 (i : grid0.Coords) : Fin 1 → Nat :=
  let arg0 : BitVec 32 := BitVec.ofNat 32 (i 0).val
  let c32_i32 : BitVec 32 := 32#32
  let v0 : BitVec 32 := Scalar.muli arg0 c32_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_off29 (i : grid0.Coords) : Fin 1 → Nat :=
  let arg0 : BitVec 32 := BitVec.ofNat 32 (i 0).val
  let c32_i32 : BitVec 32 := 32#32
  let v0 : BitVec 32 := Scalar.muli arg0 c32_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_off31 (i : grid0.Coords) : Fin 1 → Nat :=
  let arg0 : BitVec 32 := BitVec.ofNat 32 (i 0).val
  let c32_i32 : BitVec 32 := 32#32
  let v0 : BitVec 32 := Scalar.muli arg0 c32_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_off33 (i : grid0.Coords) : Fin 1 → Nat :=
  let arg0 : BitVec 32 := BitVec.ofNat 32 (i 0).val
  let c32_i32 : BitVec 32 := 32#32
  let v0 : BitVec 32 := Scalar.muli arg0 c32_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_off35 (i : grid0.Coords) : Fin 1 → Nat :=
  let arg0 : BitVec 32 := BitVec.ofNat 32 (i 0).val
  let c32_i32 : BitVec 32 := 32#32
  let v0 : BitVec 32 := Scalar.muli arg0 c32_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_off37 (i : grid0.Coords) : Fin 1 → Nat :=
  let arg0 : BitVec 32 := BitVec.ofNat 32 (i 0).val
  let c32_i32 : BitVec 32 := 32#32
  let v0 : BitVec 32 := Scalar.muli arg0 c32_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_off39 (i : grid0.Coords) : Fin 1 → Nat :=
  let arg0 : BitVec 32 := BitVec.ofNat 32 (i 0).val
  let c32_i32 : BitVec 32 := 32#32
  let v0 : BitVec 32 := Scalar.muli arg0 c32_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_off41 (i : grid0.Coords) : Fin 1 → Nat :=
  let arg0 : BitVec 32 := BitVec.ofNat 32 (i 0).val
  let c32_i32 : BitVec 32 := 32#32
  let v0 : BitVec 32 := Scalar.muli arg0 c32_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_off43 (i : grid0.Coords) : Fin 1 → Nat :=
  let arg0 : BitVec 32 := BitVec.ofNat 32 (i 0).val
  let c32_i32 : BitVec 32 := 32#32
  let v0 : BitVec 32 := Scalar.muli arg0 c32_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_off45 (i : grid0.Coords) : Fin 1 → Nat :=
  let arg0 : BitVec 32 := BitVec.ofNat 32 (i 0).val
  let c32_i32 : BitVec 32 := 32#32
  let v0 : BitVec 32 := Scalar.muli arg0 c32_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_off47 (i : grid0.Coords) : Fin 1 → Nat :=
  let arg0 : BitVec 32 := BitVec.ofNat 32 (i 0).val
  let c32_i32 : BitVec 32 := 32#32
  let v0 : BitVec 32 := Scalar.muli arg0 c32_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_off49 (i : grid0.Coords) : Fin 1 → Nat :=
  let arg0 : BitVec 32 := BitVec.ofNat 32 (i 0).val
  let c32_i32 : BitVec 32 := 32#32
  let v0 : BitVec 32 := Scalar.muli arg0 c32_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_off51 (i : grid0.Coords) : Fin 1 → Nat :=
  let arg0 : BitVec 32 := BitVec.ofNat 32 (i 0).val
  let c32_i32 : BitVec 32 := 32#32
  let v0 : BitVec 32 := Scalar.muli arg0 c32_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_off53 (i : grid0.Coords) : Fin 1 → Nat :=
  let arg0 : BitVec 32 := BitVec.ofNat 32 (i 0).val
  let c32_i32 : BitVec 32 := 32#32
  let v0 : BitVec 32 := Scalar.muli arg0 c32_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_off55 (i : grid0.Coords) : Fin 1 → Nat :=
  let arg0 : BitVec 32 := BitVec.ofNat 32 (i 0).val
  let c32_i32 : BitVec 32 := 32#32
  let v0 : BitVec 32 := Scalar.muli arg0 c32_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_off57 (i : grid0.Coords) : Fin 1 → Nat :=
  let arg0 : BitVec 32 := BitVec.ofNat 32 (i 0).val
  let c32_i32 : BitVec 32 := 32#32
  let v0 : BitVec 32 := Scalar.muli arg0 c32_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_off59 (i : grid0.Coords) : Fin 1 → Nat :=
  let arg0 : BitVec 32 := BitVec.ofNat 32 (i 0).val
  let c32_i32 : BitVec 32 := 32#32
  let v0 : BitVec 32 := Scalar.muli arg0 c32_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_off61 (i : grid0.Coords) : Fin 1 → Nat :=
  let arg0 : BitVec 32 := BitVec.ofNat 32 (i 0).val
  let c32_i32 : BitVec 32 := 32#32
  let v0 : BitVec 32 := Scalar.muli arg0 c32_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_off63 (i : grid0.Coords) : Fin 1 → Nat :=
  let arg0 : BitVec 32 := BitVec.ofNat 32 (i 0).val
  let c32_i32 : BitVec 32 := 32#32
  let v0 : BitVec 32 := Scalar.muli arg0 c32_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_chk32 (v282 : BitVec 32) : Prop :=
  (∀ a, (k0_off64 v282) a + S1x256.size a ≤ S50000x256.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x256.size a ≤ S50000x256.size a := fun v282 k0_hw32 => k0_hw32

def k0_off65 (v3 : BitVec 32) : Fin 2 → Nat :=
  let c0_i32_131 : BitVec 32 := 0#32
  ![v3.toNat, 0]

def k0_chk1 (v3 : BitVec 32) : Prop :=
  (∀ a, (k0_off2 v3) a + S1x256.size a ≤ S50000x256.size a) ∧
  (∀ a, (k0_off65 v3) a + S1x256.size a ≤ S50000x256.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x256.size a ≤ S50000x256.size a := fun v3 k0_hw1 => k0_hw1.1
theorem k0_off65_inb : ∀ (v3 : BitVec 32) (k0_hw1 : k0_chk1 v3), ∀ a, (k0_off65 v3) a + S1x256.size a ≤ S50000x256.size a := fun v3 k0_hw1 => k0_hw1.2

def k0_off66 (v12 : BitVec 32) : Fin 2 → Nat :=
  let c0_i32_135 : BitVec 32 := 0#32
  ![v12.toNat, 0]

def k0_chk2 (v12 : BitVec 32) : Prop :=
  (∀ a, (k0_off4 v12) a + S1x256.size a ≤ S50000x256.size a) ∧
  (∀ a, (k0_off66 v12) a + S1x256.size a ≤ S50000x256.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x256.size a ≤ S50000x256.size a := fun v12 k0_hw2 => k0_hw2.1
theorem k0_off66_inb : ∀ (v12 : BitVec 32) (k0_hw2 : k0_chk2 v12), ∀ a, (k0_off66 v12) a + S1x256.size a ≤ S50000x256.size a := fun v12 k0_hw2 => k0_hw2.2

def k0_off67 (v21 : BitVec 32) : Fin 2 → Nat :=
  let c0_i32_139 : BitVec 32 := 0#32
  ![v21.toNat, 0]

def k0_chk3 (v21 : BitVec 32) : Prop :=
  (∀ a, (k0_off6 v21) a + S1x256.size a ≤ S50000x256.size a) ∧
  (∀ a, (k0_off67 v21) a + S1x256.size a ≤ S50000x256.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x256.size a ≤ S50000x256.size a := fun v21 k0_hw3 => k0_hw3.1
theorem k0_off67_inb : ∀ (v21 : BitVec 32) (k0_hw3 : k0_chk3 v21), ∀ a, (k0_off67 v21) a + S1x256.size a ≤ S50000x256.size a := fun v21 k0_hw3 => k0_hw3.2

def k0_off68 (v30 : BitVec 32) : Fin 2 → Nat :=
  let c0_i32_143 : BitVec 32 := 0#32
  ![v30.toNat, 0]

def k0_chk4 (v30 : BitVec 32) : Prop :=
  (∀ a, (k0_off8 v30) a + S1x256.size a ≤ S50000x256.size a) ∧
  (∀ a, (k0_off68 v30) a + S1x256.size a ≤ S50000x256.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x256.size a ≤ S50000x256.size a := fun v30 k0_hw4 => k0_hw4.1
theorem k0_off68_inb : ∀ (v30 : BitVec 32) (k0_hw4 : k0_chk4 v30), ∀ a, (k0_off68 v30) a + S1x256.size a ≤ S50000x256.size a := fun v30 k0_hw4 => k0_hw4.2

def k0_off69 (v39 : BitVec 32) : Fin 2 → Nat :=
  let c0_i32_147 : BitVec 32 := 0#32
  ![v39.toNat, 0]

def k0_chk5 (v39 : BitVec 32) : Prop :=
  (∀ a, (k0_off10 v39) a + S1x256.size a ≤ S50000x256.size a) ∧
  (∀ a, (k0_off69 v39) a + S1x256.size a ≤ S50000x256.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x256.size a ≤ S50000x256.size a := fun v39 k0_hw5 => k0_hw5.1
theorem k0_off69_inb : ∀ (v39 : BitVec 32) (k0_hw5 : k0_chk5 v39), ∀ a, (k0_off69 v39) a + S1x256.size a ≤ S50000x256.size a := fun v39 k0_hw5 => k0_hw5.2

def k0_off70 (v48 : BitVec 32) : Fin 2 → Nat :=
  let c0_i32_151 : BitVec 32 := 0#32
  ![v48.toNat, 0]

def k0_chk6 (v48 : BitVec 32) : Prop :=
  (∀ a, (k0_off12 v48) a + S1x256.size a ≤ S50000x256.size a) ∧
  (∀ a, (k0_off70 v48) a + S1x256.size a ≤ S50000x256.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x256.size a ≤ S50000x256.size a := fun v48 k0_hw6 => k0_hw6.1
theorem k0_off70_inb : ∀ (v48 : BitVec 32) (k0_hw6 : k0_chk6 v48), ∀ a, (k0_off70 v48) a + S1x256.size a ≤ S50000x256.size a := fun v48 k0_hw6 => k0_hw6.2

def k0_off71 (v57 : BitVec 32) : Fin 2 → Nat :=
  let c0_i32_155 : BitVec 32 := 0#32
  ![v57.toNat, 0]

def k0_chk7 (v57 : BitVec 32) : Prop :=
  (∀ a, (k0_off14 v57) a + S1x256.size a ≤ S50000x256.size a) ∧
  (∀ a, (k0_off71 v57) a + S1x256.size a ≤ S50000x256.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x256.size a ≤ S50000x256.size a := fun v57 k0_hw7 => k0_hw7.1
theorem k0_off71_inb : ∀ (v57 : BitVec 32) (k0_hw7 : k0_chk7 v57), ∀ a, (k0_off71 v57) a + S1x256.size a ≤ S50000x256.size a := fun v57 k0_hw7 => k0_hw7.2

def k0_off72 (v66 : BitVec 32) : Fin 2 → Nat :=
  let c0_i32_159 : BitVec 32 := 0#32
  ![v66.toNat, 0]

def k0_chk8 (v66 : BitVec 32) : Prop :=
  (∀ a, (k0_off16 v66) a + S1x256.size a ≤ S50000x256.size a) ∧
  (∀ a, (k0_off72 v66) a + S1x256.size a ≤ S50000x256.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x256.size a ≤ S50000x256.size a := fun v66 k0_hw8 => k0_hw8.1
theorem k0_off72_inb : ∀ (v66 : BitVec 32) (k0_hw8 : k0_chk8 v66), ∀ a, (k0_off72 v66) a + S1x256.size a ≤ S50000x256.size a := fun v66 k0_hw8 => k0_hw8.2

def k0_off73 (v75 : BitVec 32) : Fin 2 → Nat :=
  let c0_i32_163 : BitVec 32 := 0#32
  ![v75.toNat, 0]

def k0_chk9 (v75 : BitVec 32) : Prop :=
  (∀ a, (k0_off18 v75) a + S1x256.size a ≤ S50000x256.size a) ∧
  (∀ a, (k0_off73 v75) a + S1x256.size a ≤ S50000x256.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x256.size a ≤ S50000x256.size a := fun v75 k0_hw9 => k0_hw9.1
theorem k0_off73_inb : ∀ (v75 : BitVec 32) (k0_hw9 : k0_chk9 v75), ∀ a, (k0_off73 v75) a + S1x256.size a ≤ S50000x256.size a := fun v75 k0_hw9 => k0_hw9.2

def k0_off74 (v84 : BitVec 32) : Fin 2 → Nat :=
  let c0_i32_167 : BitVec 32 := 0#32
  ![v84.toNat, 0]

def k0_chk10 (v84 : BitVec 32) : Prop :=
  (∀ a, (k0_off20 v84) a + S1x256.size a ≤ S50000x256.size a) ∧
  (∀ a, (k0_off74 v84) a + S1x256.size a ≤ S50000x256.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x256.size a ≤ S50000x256.size a := fun v84 k0_hw10 => k0_hw10.1
theorem k0_off74_inb : ∀ (v84 : BitVec 32) (k0_hw10 : k0_chk10 v84), ∀ a, (k0_off74 v84) a + S1x256.size a ≤ S50000x256.size a := fun v84 k0_hw10 => k0_hw10.2

def k0_off75 (v93 : BitVec 32) : Fin 2 → Nat :=
  let c0_i32_171 : BitVec 32 := 0#32
  ![v93.toNat, 0]

def k0_chk11 (v93 : BitVec 32) : Prop :=
  (∀ a, (k0_off22 v93) a + S1x256.size a ≤ S50000x256.size a) ∧
  (∀ a, (k0_off75 v93) a + S1x256.size a ≤ S50000x256.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x256.size a ≤ S50000x256.size a := fun v93 k0_hw11 => k0_hw11.1
theorem k0_off75_inb : ∀ (v93 : BitVec 32) (k0_hw11 : k0_chk11 v93), ∀ a, (k0_off75 v93) a + S1x256.size a ≤ S50000x256.size a := fun v93 k0_hw11 => k0_hw11.2

def k0_off76 (v102 : BitVec 32) : Fin 2 → Nat :=
  let c0_i32_175 : BitVec 32 := 0#32
  ![v102.toNat, 0]

def k0_chk12 (v102 : BitVec 32) : Prop :=
  (∀ a, (k0_off24 v102) a + S1x256.size a ≤ S50000x256.size a) ∧
  (∀ a, (k0_off76 v102) a + S1x256.size a ≤ S50000x256.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x256.size a ≤ S50000x256.size a := fun v102 k0_hw12 => k0_hw12.1
theorem k0_off76_inb : ∀ (v102 : BitVec 32) (k0_hw12 : k0_chk12 v102), ∀ a, (k0_off76 v102) a + S1x256.size a ≤ S50000x256.size a := fun v102 k0_hw12 => k0_hw12.2

def k0_off77 (v111 : BitVec 32) : Fin 2 → Nat :=
  let c0_i32_179 : BitVec 32 := 0#32
  ![v111.toNat, 0]

def k0_chk13 (v111 : BitVec 32) : Prop :=
  (∀ a, (k0_off26 v111) a + S1x256.size a ≤ S50000x256.size a) ∧
  (∀ a, (k0_off77 v111) a + S1x256.size a ≤ S50000x256.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x256.size a ≤ S50000x256.size a := fun v111 k0_hw13 => k0_hw13.1
theorem k0_off77_inb : ∀ (v111 : BitVec 32) (k0_hw13 : k0_chk13 v111), ∀ a, (k0_off77 v111) a + S1x256.size a ≤ S50000x256.size a := fun v111 k0_hw13 => k0_hw13.2

def k0_off78 (v120 : BitVec 32) : Fin 2 → Nat :=
  let c0_i32_183 : BitVec 32 := 0#32
  ![v120.toNat, 0]

def k0_chk14 (v120 : BitVec 32) : Prop :=
  (∀ a, (k0_off28 v120) a + S1x256.size a ≤ S50000x256.size a) ∧
  (∀ a, (k0_off78 v120) a + S1x256.size a ≤ S50000x256.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x256.size a ≤ S50000x256.size a := fun v120 k0_hw14 => k0_hw14.1
theorem k0_off78_inb : ∀ (v120 : BitVec 32) (k0_hw14 : k0_chk14 v120), ∀ a, (k0_off78 v120) a + S1x256.size a ≤ S50000x256.size a := fun v120 k0_hw14 => k0_hw14.2

def k0_off79 (v129 : BitVec 32) : Fin 2 → Nat :=
  let c0_i32_187 : BitVec 32 := 0#32
  ![v129.toNat, 0]

def k0_chk15 (v129 : BitVec 32) : Prop :=
  (∀ a, (k0_off30 v129) a + S1x256.size a ≤ S50000x256.size a) ∧
  (∀ a, (k0_off79 v129) a + S1x256.size a ≤ S50000x256.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x256.size a ≤ S50000x256.size a := fun v129 k0_hw15 => k0_hw15.1
theorem k0_off79_inb : ∀ (v129 : BitVec 32) (k0_hw15 : k0_chk15 v129), ∀ a, (k0_off79 v129) a + S1x256.size a ≤ S50000x256.size a := fun v129 k0_hw15 => k0_hw15.2

def k0_off80 (v138 : BitVec 32) : Fin 2 → Nat :=
  let c0_i32_191 : BitVec 32 := 0#32
  ![v138.toNat, 0]

def k0_chk16 (v138 : BitVec 32) : Prop :=
  (∀ a, (k0_off32 v138) a + S1x256.size a ≤ S50000x256.size a) ∧
  (∀ a, (k0_off80 v138) a + S1x256.size a ≤ S50000x256.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x256.size a ≤ S50000x256.size a := fun v138 k0_hw16 => k0_hw16.1
theorem k0_off80_inb : ∀ (v138 : BitVec 32) (k0_hw16 : k0_chk16 v138), ∀ a, (k0_off80 v138) a + S1x256.size a ≤ S50000x256.size a := fun v138 k0_hw16 => k0_hw16.2

def k0_off81 (v147 : BitVec 32) : Fin 2 → Nat :=
  let c0_i32_195 : BitVec 32 := 0#32
  ![v147.toNat, 0]

def k0_chk17 (v147 : BitVec 32) : Prop :=
  (∀ a, (k0_off34 v147) a + S1x256.size a ≤ S50000x256.size a) ∧
  (∀ a, (k0_off81 v147) a + S1x256.size a ≤ S50000x256.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x256.size a ≤ S50000x256.size a := fun v147 k0_hw17 => k0_hw17.1
theorem k0_off81_inb : ∀ (v147 : BitVec 32) (k0_hw17 : k0_chk17 v147), ∀ a, (k0_off81 v147) a + S1x256.size a ≤ S50000x256.size a := fun v147 k0_hw17 => k0_hw17.2

def k0_off82 (v156 : BitVec 32) : Fin 2 → Nat :=
  let c0_i32_199 : BitVec 32 := 0#32
  ![v156.toNat, 0]

def k0_chk18 (v156 : BitVec 32) : Prop :=
  (∀ a, (k0_off36 v156) a + S1x256.size a ≤ S50000x256.size a) ∧
  (∀ a, (k0_off82 v156) a + S1x256.size a ≤ S50000x256.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x256.size a ≤ S50000x256.size a := fun v156 k0_hw18 => k0_hw18.1
theorem k0_off82_inb : ∀ (v156 : BitVec 32) (k0_hw18 : k0_chk18 v156), ∀ a, (k0_off82 v156) a + S1x256.size a ≤ S50000x256.size a := fun v156 k0_hw18 => k0_hw18.2

def k0_off83 (v165 : BitVec 32) : Fin 2 → Nat :=
  let c0_i32_203 : BitVec 32 := 0#32
  ![v165.toNat, 0]

def k0_chk19 (v165 : BitVec 32) : Prop :=
  (∀ a, (k0_off38 v165) a + S1x256.size a ≤ S50000x256.size a) ∧
  (∀ a, (k0_off83 v165) a + S1x256.size a ≤ S50000x256.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x256.size a ≤ S50000x256.size a := fun v165 k0_hw19 => k0_hw19.1
theorem k0_off83_inb : ∀ (v165 : BitVec 32) (k0_hw19 : k0_chk19 v165), ∀ a, (k0_off83 v165) a + S1x256.size a ≤ S50000x256.size a := fun v165 k0_hw19 => k0_hw19.2

def k0_off84 (v174 : BitVec 32) : Fin 2 → Nat :=
  let c0_i32_207 : BitVec 32 := 0#32
  ![v174.toNat, 0]

def k0_chk20 (v174 : BitVec 32) : Prop :=
  (∀ a, (k0_off40 v174) a + S1x256.size a ≤ S50000x256.size a) ∧
  (∀ a, (k0_off84 v174) a + S1x256.size a ≤ S50000x256.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x256.size a ≤ S50000x256.size a := fun v174 k0_hw20 => k0_hw20.1
theorem k0_off84_inb : ∀ (v174 : BitVec 32) (k0_hw20 : k0_chk20 v174), ∀ a, (k0_off84 v174) a + S1x256.size a ≤ S50000x256.size a := fun v174 k0_hw20 => k0_hw20.2

def k0_off85 (v183 : BitVec 32) : Fin 2 → Nat :=
  let c0_i32_211 : BitVec 32 := 0#32
  ![v183.toNat, 0]

def k0_chk21 (v183 : BitVec 32) : Prop :=
  (∀ a, (k0_off42 v183) a + S1x256.size a ≤ S50000x256.size a) ∧
  (∀ a, (k0_off85 v183) a + S1x256.size a ≤ S50000x256.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x256.size a ≤ S50000x256.size a := fun v183 k0_hw21 => k0_hw21.1
theorem k0_off85_inb : ∀ (v183 : BitVec 32) (k0_hw21 : k0_chk21 v183), ∀ a, (k0_off85 v183) a + S1x256.size a ≤ S50000x256.size a := fun v183 k0_hw21 => k0_hw21.2

def k0_off86 (v192 : BitVec 32) : Fin 2 → Nat :=
  let c0_i32_215 : BitVec 32 := 0#32
  ![v192.toNat, 0]

def k0_chk22 (v192 : BitVec 32) : Prop :=
  (∀ a, (k0_off44 v192) a + S1x256.size a ≤ S50000x256.size a) ∧
  (∀ a, (k0_off86 v192) a + S1x256.size a ≤ S50000x256.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x256.size a ≤ S50000x256.size a := fun v192 k0_hw22 => k0_hw22.1
theorem k0_off86_inb : ∀ (v192 : BitVec 32) (k0_hw22 : k0_chk22 v192), ∀ a, (k0_off86 v192) a + S1x256.size a ≤ S50000x256.size a := fun v192 k0_hw22 => k0_hw22.2

def k0_off87 (v201 : BitVec 32) : Fin 2 → Nat :=
  let c0_i32_219 : BitVec 32 := 0#32
  ![v201.toNat, 0]

def k0_chk23 (v201 : BitVec 32) : Prop :=
  (∀ a, (k0_off46 v201) a + S1x256.size a ≤ S50000x256.size a) ∧
  (∀ a, (k0_off87 v201) a + S1x256.size a ≤ S50000x256.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x256.size a ≤ S50000x256.size a := fun v201 k0_hw23 => k0_hw23.1
theorem k0_off87_inb : ∀ (v201 : BitVec 32) (k0_hw23 : k0_chk23 v201), ∀ a, (k0_off87 v201) a + S1x256.size a ≤ S50000x256.size a := fun v201 k0_hw23 => k0_hw23.2

def k0_off88 (v210 : BitVec 32) : Fin 2 → Nat :=
  let c0_i32_223 : BitVec 32 := 0#32
  ![v210.toNat, 0]

def k0_chk24 (v210 : BitVec 32) : Prop :=
  (∀ a, (k0_off48 v210) a + S1x256.size a ≤ S50000x256.size a) ∧
  (∀ a, (k0_off88 v210) a + S1x256.size a ≤ S50000x256.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x256.size a ≤ S50000x256.size a := fun v210 k0_hw24 => k0_hw24.1
theorem k0_off88_inb : ∀ (v210 : BitVec 32) (k0_hw24 : k0_chk24 v210), ∀ a, (k0_off88 v210) a + S1x256.size a ≤ S50000x256.size a := fun v210 k0_hw24 => k0_hw24.2

def k0_off89 (v219 : BitVec 32) : Fin 2 → Nat :=
  let c0_i32_227 : BitVec 32 := 0#32
  ![v219.toNat, 0]

def k0_chk25 (v219 : BitVec 32) : Prop :=
  (∀ a, (k0_off50 v219) a + S1x256.size a ≤ S50000x256.size a) ∧
  (∀ a, (k0_off89 v219) a + S1x256.size a ≤ S50000x256.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x256.size a ≤ S50000x256.size a := fun v219 k0_hw25 => k0_hw25.1
theorem k0_off89_inb : ∀ (v219 : BitVec 32) (k0_hw25 : k0_chk25 v219), ∀ a, (k0_off89 v219) a + S1x256.size a ≤ S50000x256.size a := fun v219 k0_hw25 => k0_hw25.2

def k0_off90 (v228 : BitVec 32) : Fin 2 → Nat :=
  let c0_i32_231 : BitVec 32 := 0#32
  ![v228.toNat, 0]

def k0_chk26 (v228 : BitVec 32) : Prop :=
  (∀ a, (k0_off52 v228) a + S1x256.size a ≤ S50000x256.size a) ∧
  (∀ a, (k0_off90 v228) a + S1x256.size a ≤ S50000x256.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x256.size a ≤ S50000x256.size a := fun v228 k0_hw26 => k0_hw26.1
theorem k0_off90_inb : ∀ (v228 : BitVec 32) (k0_hw26 : k0_chk26 v228), ∀ a, (k0_off90 v228) a + S1x256.size a ≤ S50000x256.size a := fun v228 k0_hw26 => k0_hw26.2

def k0_off91 (v237 : BitVec 32) : Fin 2 → Nat :=
  let c0_i32_235 : BitVec 32 := 0#32
  ![v237.toNat, 0]

def k0_chk27 (v237 : BitVec 32) : Prop :=
  (∀ a, (k0_off54 v237) a + S1x256.size a ≤ S50000x256.size a) ∧
  (∀ a, (k0_off91 v237) a + S1x256.size a ≤ S50000x256.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x256.size a ≤ S50000x256.size a := fun v237 k0_hw27 => k0_hw27.1
theorem k0_off91_inb : ∀ (v237 : BitVec 32) (k0_hw27 : k0_chk27 v237), ∀ a, (k0_off91 v237) a + S1x256.size a ≤ S50000x256.size a := fun v237 k0_hw27 => k0_hw27.2

def k0_off92 (v246 : BitVec 32) : Fin 2 → Nat :=
  let c0_i32_239 : BitVec 32 := 0#32
  ![v246.toNat, 0]

def k0_chk28 (v246 : BitVec 32) : Prop :=
  (∀ a, (k0_off56 v246) a + S1x256.size a ≤ S50000x256.size a) ∧
  (∀ a, (k0_off92 v246) a + S1x256.size a ≤ S50000x256.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x256.size a ≤ S50000x256.size a := fun v246 k0_hw28 => k0_hw28.1
theorem k0_off92_inb : ∀ (v246 : BitVec 32) (k0_hw28 : k0_chk28 v246), ∀ a, (k0_off92 v246) a + S1x256.size a ≤ S50000x256.size a := fun v246 k0_hw28 => k0_hw28.2

def k0_off93 (v255 : BitVec 32) : Fin 2 → Nat :=
  let c0_i32_243 : BitVec 32 := 0#32
  ![v255.toNat, 0]

def k0_chk29 (v255 : BitVec 32) : Prop :=
  (∀ a, (k0_off58 v255) a + S1x256.size a ≤ S50000x256.size a) ∧
  (∀ a, (k0_off93 v255) a + S1x256.size a ≤ S50000x256.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x256.size a ≤ S50000x256.size a := fun v255 k0_hw29 => k0_hw29.1
theorem k0_off93_inb : ∀ (v255 : BitVec 32) (k0_hw29 : k0_chk29 v255), ∀ a, (k0_off93 v255) a + S1x256.size a ≤ S50000x256.size a := fun v255 k0_hw29 => k0_hw29.2

def k0_off94 (v264 : BitVec 32) : Fin 2 → Nat :=
  let c0_i32_247 : BitVec 32 := 0#32
  ![v264.toNat, 0]

def k0_chk30 (v264 : BitVec 32) : Prop :=
  (∀ a, (k0_off60 v264) a + S1x256.size a ≤ S50000x256.size a) ∧
  (∀ a, (k0_off94 v264) a + S1x256.size a ≤ S50000x256.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x256.size a ≤ S50000x256.size a := fun v264 k0_hw30 => k0_hw30.1
theorem k0_off94_inb : ∀ (v264 : BitVec 32) (k0_hw30 : k0_chk30 v264), ∀ a, (k0_off94 v264) a + S1x256.size a ≤ S50000x256.size a := fun v264 k0_hw30 => k0_hw30.2

def k0_off95 (v273 : BitVec 32) : Fin 2 → Nat :=
  let c0_i32_251 : BitVec 32 := 0#32
  ![v273.toNat, 0]

def k0_chk31 (v273 : BitVec 32) : Prop :=
  (∀ a, (k0_off62 v273) a + S1x256.size a ≤ S50000x256.size a) ∧
  (∀ a, (k0_off95 v273) a + S1x256.size a ≤ S50000x256.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x256.size a ≤ S50000x256.size a := fun v273 k0_hw31 => k0_hw31.1
theorem k0_off95_inb : ∀ (v273 : BitVec 32) (k0_hw31 : k0_chk31 v273), ∀ a, (k0_off95 v273) a + S1x256.size a ≤ S50000x256.size a := fun v273 k0_hw31 => k0_hw31.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S8x256_S2048 : S8x256.ShapeCasts S2048
  numel1_S1 : S1.numel = 1
  inb_S32_S1_0 : ∀ a, (![0] : Fin 1 → Nat) a + S1.size a ≤ S32.size a
  squeezes_S1_S_ : S1.Squeezes S_
  inb_S32x256_S1x256_0_0 : ∀ a, (![0, 0] : Fin 2 → Nat) a + S1x256.size a ≤ S32x256.size a
  squeezes_S1x256_S256 : S1x256.Squeezes S256
  inb_S32_S1_1 : ∀ a, (![1] : Fin 1 → Nat) a + S1.size a ≤ S32.size a
  inb_S32x256_S1x256_1_0 : ∀ a, (![1, 0] : Fin 2 → Nat) a + S1x256.size a ≤ S32x256.size a
  inb_S32_S1_2 : ∀ a, (![2] : Fin 1 → Nat) a + S1.size a ≤ S32.size a
  inb_S32x256_S1x256_2_0 : ∀ a, (![2, 0] : Fin 2 → Nat) a + S1x256.size a ≤ S32x256.size a
  inb_S32_S1_3 : ∀ a, (![3] : Fin 1 → Nat) a + S1.size a ≤ S32.size a
  inb_S32x256_S1x256_3_0 : ∀ a, (![3, 0] : Fin 2 → Nat) a + S1x256.size a ≤ S32x256.size a
  inb_S32_S1_4 : ∀ a, (![4] : Fin 1 → Nat) a + S1.size a ≤ S32.size a
  inb_S32x256_S1x256_4_0 : ∀ a, (![4, 0] : Fin 2 → Nat) a + S1x256.size a ≤ S32x256.size a
  inb_S32_S1_5 : ∀ a, (![5] : Fin 1 → Nat) a + S1.size a ≤ S32.size a
  inb_S32x256_S1x256_5_0 : ∀ a, (![5, 0] : Fin 2 → Nat) a + S1x256.size a ≤ S32x256.size a
  inb_S32_S1_6 : ∀ a, (![6] : Fin 1 → Nat) a + S1.size a ≤ S32.size a
  inb_S32x256_S1x256_6_0 : ∀ a, (![6, 0] : Fin 2 → Nat) a + S1x256.size a ≤ S32x256.size a
  inb_S32_S1_7 : ∀ a, (![7] : Fin 1 → Nat) a + S1.size a ≤ S32.size a
  inb_S32x256_S1x256_7_0 : ∀ a, (![7, 0] : Fin 2 → Nat) a + S1x256.size a ≤ S32x256.size a
  inb_S32_S1_8 : ∀ a, (![8] : Fin 1 → Nat) a + S1.size a ≤ S32.size a
  inb_S32x256_S1x256_8_0 : ∀ a, (![8, 0] : Fin 2 → Nat) a + S1x256.size a ≤ S32x256.size a
  inb_S32_S1_9 : ∀ a, (![9] : Fin 1 → Nat) a + S1.size a ≤ S32.size a
  inb_S32x256_S1x256_9_0 : ∀ a, (![9, 0] : Fin 2 → Nat) a + S1x256.size a ≤ S32x256.size a
  inb_S32_S1_10 : ∀ a, (![10] : Fin 1 → Nat) a + S1.size a ≤ S32.size a
  inb_S32x256_S1x256_10_0 : ∀ a, (![10, 0] : Fin 2 → Nat) a + S1x256.size a ≤ S32x256.size a
  inb_S32_S1_11 : ∀ a, (![11] : Fin 1 → Nat) a + S1.size a ≤ S32.size a
  inb_S32x256_S1x256_11_0 : ∀ a, (![11, 0] : Fin 2 → Nat) a + S1x256.size a ≤ S32x256.size a
  inb_S32_S1_12 : ∀ a, (![12] : Fin 1 → Nat) a + S1.size a ≤ S32.size a
  inb_S32x256_S1x256_12_0 : ∀ a, (![12, 0] : Fin 2 → Nat) a + S1x256.size a ≤ S32x256.size a
  inb_S32_S1_13 : ∀ a, (![13] : Fin 1 → Nat) a + S1.size a ≤ S32.size a
  inb_S32x256_S1x256_13_0 : ∀ a, (![13, 0] : Fin 2 → Nat) a + S1x256.size a ≤ S32x256.size a
  inb_S32_S1_14 : ∀ a, (![14] : Fin 1 → Nat) a + S1.size a ≤ S32.size a
  inb_S32x256_S1x256_14_0 : ∀ a, (![14, 0] : Fin 2 → Nat) a + S1x256.size a ≤ S32x256.size a
  inb_S32_S1_15 : ∀ a, (![15] : Fin 1 → Nat) a + S1.size a ≤ S32.size a
  inb_S32x256_S1x256_15_0 : ∀ a, (![15, 0] : Fin 2 → Nat) a + S1x256.size a ≤ S32x256.size a
  inb_S32_S1_16 : ∀ a, (![16] : Fin 1 → Nat) a + S1.size a ≤ S32.size a
  inb_S32x256_S1x256_16_0 : ∀ a, (![16, 0] : Fin 2 → Nat) a + S1x256.size a ≤ S32x256.size a
  inb_S32_S1_17 : ∀ a, (![17] : Fin 1 → Nat) a + S1.size a ≤ S32.size a
  inb_S32x256_S1x256_17_0 : ∀ a, (![17, 0] : Fin 2 → Nat) a + S1x256.size a ≤ S32x256.size a
  inb_S32_S1_18 : ∀ a, (![18] : Fin 1 → Nat) a + S1.size a ≤ S32.size a
  inb_S32x256_S1x256_18_0 : ∀ a, (![18, 0] : Fin 2 → Nat) a + S1x256.size a ≤ S32x256.size a
  inb_S32_S1_19 : ∀ a, (![19] : Fin 1 → Nat) a + S1.size a ≤ S32.size a
  inb_S32x256_S1x256_19_0 : ∀ a, (![19, 0] : Fin 2 → Nat) a + S1x256.size a ≤ S32x256.size a
  inb_S32_S1_20 : ∀ a, (![20] : Fin 1 → Nat) a + S1.size a ≤ S32.size a
  inb_S32x256_S1x256_20_0 : ∀ a, (![20, 0] : Fin 2 → Nat) a + S1x256.size a ≤ S32x256.size a
  inb_S32_S1_21 : ∀ a, (![21] : Fin 1 → Nat) a + S1.size a ≤ S32.size a
  inb_S32x256_S1x256_21_0 : ∀ a, (![21, 0] : Fin 2 → Nat) a + S1x256.size a ≤ S32x256.size a
  inb_S32_S1_22 : ∀ a, (![22] : Fin 1 → Nat) a + S1.size a ≤ S32.size a
  inb_S32x256_S1x256_22_0 : ∀ a, (![22, 0] : Fin 2 → Nat) a + S1x256.size a ≤ S32x256.size a
  inb_S32_S1_23 : ∀ a, (![23] : Fin 1 → Nat) a + S1.size a ≤ S32.size a
  inb_S32x256_S1x256_23_0 : ∀ a, (![23, 0] : Fin 2 → Nat) a + S1x256.size a ≤ S32x256.size a
  inb_S32_S1_24 : ∀ a, (![24] : Fin 1 → Nat) a + S1.size a ≤ S32.size a
  inb_S32x256_S1x256_24_0 : ∀ a, (![24, 0] : Fin 2 → Nat) a + S1x256.size a ≤ S32x256.size a
  inb_S32_S1_25 : ∀ a, (![25] : Fin 1 → Nat) a + S1.size a ≤ S32.size a
  inb_S32x256_S1x256_25_0 : ∀ a, (![25, 0] : Fin 2 → Nat) a + S1x256.size a ≤ S32x256.size a
  inb_S32_S1_26 : ∀ a, (![26] : Fin 1 → Nat) a + S1.size a ≤ S32.size a
  inb_S32x256_S1x256_26_0 : ∀ a, (![26, 0] : Fin 2 → Nat) a + S1x256.size a ≤ S32x256.size a
  inb_S32_S1_27 : ∀ a, (![27] : Fin 1 → Nat) a + S1.size a ≤ S32.size a
  inb_S32x256_S1x256_27_0 : ∀ a, (![27, 0] : Fin 2 → Nat) a + S1x256.size a ≤ S32x256.size a
  inb_S32_S1_28 : ∀ a, (![28] : Fin 1 → Nat) a + S1.size a ≤ S32.size a
  inb_S32x256_S1x256_28_0 : ∀ a, (![28, 0] : Fin 2 → Nat) a + S1x256.size a ≤ S32x256.size a
  inb_S32_S1_29 : ∀ a, (![29] : Fin 1 → Nat) a + S1.size a ≤ S32.size a
  inb_S32x256_S1x256_29_0 : ∀ a, (![29, 0] : Fin 2 → Nat) a + S1x256.size a ≤ S32x256.size a
  inb_S32_S1_30 : ∀ a, (![30] : Fin 1 → Nat) a + S1.size a ≤ S32.size a
  inb_S32x256_S1x256_30_0 : ∀ a, (![30, 0] : Fin 2 → Nat) a + S1x256.size a ≤ S32x256.size a
  inb_S32_S1_31 : ∀ a, (![31] : Fin 1 → Nat) a + S1.size a ≤ S32.size a
  inb_S32x256_S1x256_31_0 : ∀ a, (![31, 0] : Fin 2 → Nat) a + S1x256.size a ≤ S32x256.size a
  inb_S32x256_S32x256_0_0 : ∀ a, (![0, 0] : Fin 2 → Nat) a + S32x256.size a ≤ S32x256.size a
  h_S32x256 : 0 < S32x256.numel
  inb_S32x1x256_S32x1x256_0_0_0 : ∀ a, (![0, 0, 0] : Fin 3 → Nat) a + S32x1x256.size a ≤ S32x1x256.size a
  h_S32x1x256 : 0 < S32x1x256.numel
  shapeCasts_S32x1x256_S32x256 : S32x1x256.ShapeCasts S32x256
  shapeCasts_S32x256_S32x1x256 : S32x256.ShapeCasts S32x1x256
  shapeCasts_S2048x1x256_S2048x256 : S2048x1x256.ShapeCasts S2048x256
  shapeCasts_S2048x256_S8x256x256 : S2048x256.ShapeCasts S8x256x256
  hcc0_scratch1 : 2 + S32.numel ≤ 34
  hrank0 : 0 < grid0.rank
  k0_off1_inb : ∀ i : grid0.Coords, ∀ a, (k0_off1 i) a + S1.size a ≤ S2048.size a
  k0_off3_inb : ∀ i : grid0.Coords, ∀ a, (k0_off3 i) a + S1.size a ≤ S2048.size a
  k0_off5_inb : ∀ i : grid0.Coords, ∀ a, (k0_off5 i) a + S1.size a ≤ S2048.size a
  k0_off7_inb : ∀ i : grid0.Coords, ∀ a, (k0_off7 i) a + S1.size a ≤ S2048.size a
  k0_off9_inb : ∀ i : grid0.Coords, ∀ a, (k0_off9 i) a + S1.size a ≤ S2048.size a
  k0_off11_inb : ∀ i : grid0.Coords, ∀ a, (k0_off11 i) a + S1.size a ≤ S2048.size a
  k0_off13_inb : ∀ i : grid0.Coords, ∀ a, (k0_off13 i) a + S1.size a ≤ S2048.size a
  k0_off15_inb : ∀ i : grid0.Coords, ∀ a, (k0_off15 i) a + S1.size a ≤ S2048.size a
  k0_off17_inb : ∀ i : grid0.Coords, ∀ a, (k0_off17 i) a + S1.size a ≤ S2048.size a
  k0_off19_inb : ∀ i : grid0.Coords, ∀ a, (k0_off19 i) a + S1.size a ≤ S2048.size a
  k0_off21_inb : ∀ i : grid0.Coords, ∀ a, (k0_off21 i) a + S1.size a ≤ S2048.size a
  k0_off23_inb : ∀ i : grid0.Coords, ∀ a, (k0_off23 i) a + S1.size a ≤ S2048.size a
  k0_off25_inb : ∀ i : grid0.Coords, ∀ a, (k0_off25 i) a + S1.size a ≤ S2048.size a
  k0_off27_inb : ∀ i : grid0.Coords, ∀ a, (k0_off27 i) a + S1.size a ≤ S2048.size a
  k0_off29_inb : ∀ i : grid0.Coords, ∀ a, (k0_off29 i) a + S1.size a ≤ S2048.size a
  k0_off31_inb : ∀ i : grid0.Coords, ∀ a, (k0_off31 i) a + S1.size a ≤ S2048.size a
  k0_off33_inb : ∀ i : grid0.Coords, ∀ a, (k0_off33 i) a + S1.size a ≤ S2048.size a
  k0_off35_inb : ∀ i : grid0.Coords, ∀ a, (k0_off35 i) a + S1.size a ≤ S2048.size a
  k0_off37_inb : ∀ i : grid0.Coords, ∀ a, (k0_off37 i) a + S1.size a ≤ S2048.size a
  k0_off39_inb : ∀ i : grid0.Coords, ∀ a, (k0_off39 i) a + S1.size a ≤ S2048.size a
  k0_off41_inb : ∀ i : grid0.Coords, ∀ a, (k0_off41 i) a + S1.size a ≤ S2048.size a
  k0_off43_inb : ∀ i : grid0.Coords, ∀ a, (k0_off43 i) a + S1.size a ≤ S2048.size a
  k0_off45_inb : ∀ i : grid0.Coords, ∀ a, (k0_off45 i) a + S1.size a ≤ S2048.size a
  k0_off47_inb : ∀ i : grid0.Coords, ∀ a, (k0_off47 i) a + S1.size a ≤ S2048.size a
  k0_off49_inb : ∀ i : grid0.Coords, ∀ a, (k0_off49 i) a + S1.size a ≤ S2048.size a
  k0_off51_inb : ∀ i : grid0.Coords, ∀ a, (k0_off51 i) a + S1.size a ≤ S2048.size a
  k0_off53_inb : ∀ i : grid0.Coords, ∀ a, (k0_off53 i) a + S1.size a ≤ S2048.size a
  k0_off55_inb : ∀ i : grid0.Coords, ∀ a, (k0_off55 i) a + S1.size a ≤ S2048.size a
  k0_off57_inb : ∀ i : grid0.Coords, ∀ a, (k0_off57 i) a + S1.size a ≤ S2048.size a
  k0_off59_inb : ∀ i : grid0.Coords, ∀ a, (k0_off59 i) a + S1.size a ≤ S2048.size a
  k0_off61_inb : ∀ i : grid0.Coords, ∀ a, (k0_off61 i) a + S1.size a ≤ S2048.size a
  k0_off63_inb : ∀ i : grid0.Coords, ∀ a, (k0_off63 i) a + S1.size a ≤ S2048.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S32x1x256.size a ≤ S2048x1x256.size a
  hwx0_0 : ∀ i : grid0.Coords, EltTy.bits .f32 = 32 ∨ (Rect.block (s := S2048x1x256) S32x1x256.size (cc0_transform_1 i) (hinb0_0 i)).WholeWords (EltTy.packing .f32)

variable [Facts₀]

abbrev cc0_scratch1 : DmaSems sig S32 := SemArray.consecutive 2 S32 hcc0_scratch1

abbrev spec0_0 : Pipeline.WinSpec sig grid0.rank :=
  Pipeline.WinSpec.ofSpec (Memref.whole main_v1) S32x1x256.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S8x256 : Shape := ⟨2, ![8, 256]⟩
abbrev S50000x256 : Shape := ⟨2, ![50000, 256]⟩
abbrev S_ : Shape := ⟨0, ![]⟩
abbrev S8x256x1 : Shape := ⟨3, ![8, 256, 1]⟩
abbrev S1 : Shape := ⟨1, ![1]⟩
abbrev S1x1x1 : Shape := ⟨3, ![1, 1, 1]⟩
abbrev S8x256x256 : Shape := ⟨3, ![8, 256, 256]⟩

abbrev nBuf : Space → Nat
  | .hbm => 25
  | .vmem => 0
  | .smem => 0
  | _ => 0

abbrev bufTy : (tb : Table) → Fin (tcTables nBuf tb) → BufTy
  | .hbm, ⟨0, _⟩ => ⟨S8x256, .i32⟩
  | .hbm, ⟨1, _⟩ => ⟨S50000x256, .f32⟩
  | .hbm, ⟨2, _⟩ => ⟨S_, .i32⟩
  | .hbm, ⟨3, _⟩ => ⟨S8x256, .i32⟩
  | .hbm, ⟨4, _⟩ => ⟨S8x256, .i1⟩
  | .hbm, ⟨5, _⟩ => ⟨S_, .i32⟩
  | .hbm, ⟨6, _⟩ => ⟨S8x256, .i32⟩
  | .hbm, ⟨7, _⟩ => ⟨S8x256, .i32⟩
  | .hbm, ⟨8, _⟩ => ⟨S8x256, .i32⟩
  | .hbm, ⟨9, _⟩ => ⟨S8x256x1, .i32⟩
  | .hbm, ⟨10, _⟩ => ⟨S1, .i32⟩
  | .hbm, ⟨11, _⟩ => ⟨S_, .i32⟩
  | .hbm, ⟨12, _⟩ => ⟨S8x256x1, .i32⟩
  | .hbm, ⟨13, _⟩ => ⟨S8x256x1, .i1⟩
  | .hbm, ⟨14, _⟩ => ⟨S1x1x1, .i32⟩
  | .hbm, ⟨15, _⟩ => ⟨S8x256x1, .i32⟩
  | .hbm, ⟨16, _⟩ => ⟨S8x256x1, .i1⟩
  | .hbm, ⟨17, _⟩ => ⟨S8x256x1, .i1⟩
  | .hbm, ⟨18, _⟩ => ⟨S_, .i1⟩
  | .hbm, ⟨19, _⟩ => ⟨S8x256, .i1⟩
  | .hbm, ⟨20, _⟩ => ⟨S8x256x256, .f32⟩
  | .hbm, ⟨21, _⟩ => ⟨S8x256x256, .i1⟩
  | .hbm, ⟨22, _⟩ => ⟨S_, .f32⟩
  | .hbm, ⟨23, _⟩ => ⟨S8x256x256, .f32⟩
  | .hbm, ⟨24, _⟩ => ⟨S8x256x256, .f32⟩
  | _, _ => ⟨S8x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S8x256 : S_.BroadcastsInDim S8x256 (![] : Fin 0 → Fin S8x256.rank)
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S1_S1x1x1_2 : S1.BroadcastsInDim S1x1x1 (![2] : Fin 1 → Fin S1x1x1.rank)
  bcast_S1x1x1_S8x256x1_0_1_2 : S1x1x1.BroadcastsInDim S8x256x1 (![0, 1, 2] : Fin 3 → Fin S8x256x1.rank)
  reducesTo_S8x256x1_S8x256_d2 : S8x256x1.ReducesTo [2] S8x256
  h_S_ : 0 < S_.numel
  bcast_S8x256_S8x256x256_0_1 : S8x256.BroadcastsInDim S8x256x256 (![0, 1] : Fin 2 → Fin S8x256x256.rank)
  bcast_S_S8x256x256 : S_.BroadcastsInDim S8x256x256 (![] : Fin 0 → Fin S8x256x256.rank)
  gather_S50000x256_S8x256x1_S8x256x256_2_0_n_n_0_2_1256_wf : GatherDims.WF S50000x256 S8x256x1 S8x256x256 [2] [0] [] [0] [] 2 ![1, 256]

variable [Facts₀]

def gather_S50000x256_S8x256x1_S8x256x256_2_0_n_n_0_2_1256 : GatherDims S50000x256 S8x256x1 S8x256x256 where
  offsetDims := [2]
  collapsedSliceDims := [0]
  operandBatchingDims := []
  startIndicesBatchingDims := []
  startIndexMap := [0]
  indexVectorDim := 2
  sliceSizes := ![1, 256]
  wf := gather_S50000x256_S8x256x1_S8x256x256_2_0_n_n_0_2_1256_wf

class Facts : Prop extends Facts₀ where

variable [Facts]
-- ==== Proof.PreDecode.lean ====
/-
  The precondition, read back at one index word. The printed predicate is the conjunction of two all-reductions:
  "every table entry is finite" and "every index word w has 0 ≤ w and w < 50000", both compares signed. Its value
  being 1 makes each conjunct 1. The second conjunct is an `and`-reduction of a bit array over every position of
  the index array into a single cell, so the bit at every position is 1; that bit is in turn the `and` of the two
  compare bits, so both compares hold at every position. The constants the word is compared with are scalars
  broadcast over the index array, so at each position they read 0 and 50000. Finally a 32-bit word whose signed
  value lies in [0, 50000) has its unsigned value equal to its signed value: were its top bit set, the signed value
  would be the unsigned one less 2³², which is negative.
-/
import proofs.«412030_j16183436772039_1_alg».proof.Pre_finite_inputs
import Idealize.ShloMosaic.Lib.ReduceAll
import Idealize.ShloMosaic.Lib.ValueIdx

namespace Cert.PreDecode

open Idealize.ShloMosaic

/-- The result of a reduction over all axes has rank 0: an index of it has no coordinate to differ in. -/
instance scalarIdx : Subsingleton Cert.Pre_finite_inputs.S_.Idx := ⟨fun _ _ => funext fun d => d.elim0⟩

/-- A 32-bit word whose signed value lies in [0, n) has unsigned value below n. The signed value is the unsigned
    one when twice the unsigned value is below 2³², and the unsigned one less 2³² otherwise; the second case gives a
    negative signed value, which the lower bound excludes. -/
private theorem toNat_lt_of_signed_range (w : BitVec 32) (n : Nat) (h0 : (0 : Int) ≤ w.toInt)
    (hn : w.toInt < (n : Int)) : w.toNat < n := by
  have hw : w.toNat < 2 ^ 32 := w.isLt
  rw [BitVec.toInt_eq_toNat_cond] at h0 hn
  split at h0
  · rw [if_pos (by assumption)] at hn; omega
  · omega

/-- Under the precondition every index word, read unsigned, is below the table's 50000 rows. -/
theorem idx_lt {F : FTy → Type} [FloatOps F] [Cert.Pre_finite_inputs.Facts]
    (idx : IVec Cert.Pre_finite_inputs.S8x256 32) (tab : FVec F Cert.Pre_finite_inputs.S50000x256 .f32)
    (h : Cert.Pre_finite_inputs.fn (F := F) idx tab = fun _ => 1#1) :
    ∀ p : Cert.Pre_finite_inputs.S8x256.Idx, (idx p).toNat < 50000 := by
  intro p
  -- the predicate's one cell is 1
  have e := congrFun h ValueIdx.ix0
  dsimp only [Cert.Pre_finite_inputs.fn] at e
  -- it is the `and` of the two all-reductions' cells: keep the one over the index array
  change IntOp.andi _ _ = 1#1 at e
  have hall := (IntOp.andi_eq_one.1 e).2
  -- an `and`-reduction into one cell that is 1 met a 1 at every position, p among them
  have hp := Host.reduce_andi_all _ _ _ _ _ hall p
  -- the bit at p is the `and` of the compare bits of the word at p with the broadcast scalars 0 and 50000
  change IntOp.andi (IntOp.cmpi .sge (idx p) 0#32) (IntOp.cmpi .slt (idx p) 50000#32) = 1#1 at hp
  obtain ⟨hge, hlt⟩ := IntOp.andi_eq_one.1 hp
  have h0 : (0 : Int) ≤ (idx p).toInt := IntOp.cmpi_sge.1 hge
  have h5 : (idx p).toInt < ((50000 : Nat) : Int) := IntOp.cmpi_slt.1 hlt
  exact toNat_lt_of_signed_range (idx p) 50000 h0 h5

end Cert.PreDecode
-- ==== Proof.Spec.lean ====
/-
  The function both programs compute, stated once over literal shapes and with no program imported:
  entry (b, s, d) of the result is entry (idx[b, s], d) of the table — a row gather. An index word names a
  row of the table when its value as a natural number is below the table's 50000 rows; the certificate's
  precondition says every index word does, and `rowOf` sends any other word to row 0 so that the function is
  total (that branch is never reached under the precondition).
-/
import Idealize.ShloMosaic.PureOps.Ideal
import Idealize.ShloMosaic.Lib.ValueIdx

namespace Cert.Spec

open Idealize.ShloMosaic Idealize.ShloMosaic.ValueIdx

/-- The index array's shape, the table's, and the result's. -/
abbrev SIdx : Shape := ⟨2, ![8, 256]⟩
abbrev STab : Shape := ⟨2, ![50000, 256]⟩
abbrev SOut : Shape := ⟨3, ![8, 256, 256]⟩

/-- The table row an index word names: its value when that is a row of the table, row 0 otherwise. -/
def rowOf (v : BitVec 32) : Fin 50000 := if h : v.toNat < 50000 then ⟨v.toNat, h⟩ else ⟨0, by decide⟩

theorem rowOf_val (v : BitVec 32) (h : v.toNat < 50000) : (rowOf v).val = v.toNat := by
  unfold rowOf; rw [dif_pos h]

/-- The row gather: `gathered idx tab (b, s, d) = tab (idx (b, s), d)`. -/
def gathered {α : Type} (idx : SIdx.Idx → BitVec 32) (tab : STab.Idx → α) : SOut.Idx → α :=
  fun j => tab (ix2 (rowOf (idx (ix2 (j 0) (j 1)))) (j 2))

theorem gathered_apply {α : Type} (idx : SIdx.Idx → BitVec 32) (tab : STab.Idx → α) (b : Fin 8) (s : Fin 256) (d : Fin 256) :
    gathered idx tab (ix3 b s d) = tab (ix2 (rowOf (idx (ix2 b s))) d) := rfl

end Cert.Spec
-- ==== Proof.RefRun.lean ====
/-
  The reference program's run, and what it leaves in its result buffer.

  @main is one call of @_take, whose body is a straight line of StableHLO operations with one call of @_where (a single
  select) inside it. With each call replaced by its body over that call's buffers, @main is a straight line of
  twenty-three operations; from any memory such a line runs to its end, and each buffer then holds the composition of
  the operations that wrote it, applied to the contents the arguments had at the start. The arguments are written by
  no operation, so they end as they began.

  The result buffer holds `taken idx tab`: the index array is normalised (a negative word has the table's 50000 rows
  added to it), given a trailing axis of size one, tested for 0 ≤ · ≤ 49999 (the test and-reduced over that trailing
  axis), used as the start indices of a gather of whole rows of the table, and the gathered value is kept where the
  test holds, a NaN constant put elsewhere. When every index word is below 50000 as a natural number, every word is
  non-negative as a signed word, so the normalisation changes nothing, the test holds everywhere, the clamp inside the
  gather changes nothing, and the result is entry `(idx (b, s), d)` of the table at `(b, s, d)`: the row gather of the
  shared specification.
-/
import proofs.«412030_j16183436772039_1_alg».proof.ReferenceIdeal
import proofs.«412030_j16183436772039_1_alg».proof.Proof.Spec
import Idealize.ShloMosaic.Lib.StableHlo.Run
import Idealize.ShloMosaic.Lib.ValueIdx

noncomputable section

namespace Cert.ReferenceIdeal.Hand

open Cert.ReferenceIdeal Idealize.ShloMosaic Idealize.ShloMosaic.TcCoe Idealize.SL.Sem Idealize.ShloMosaic.StableHlo
open Idealize.ShloMosaic.ValueIdx
open Cert.ReferenceIdeal.Facts₀

section Line

variable {F : FTy → Type} [FloatOps F] [Cert.ReferenceIdeal.Facts]

/-! ## The program as a straight line -/

/-- The straight line @main runs: the call of @_take with its body in place of the call, and inside it the call of
    @_where with its one select in place of that call — twenty-three operations over the call records' buffers. In
    @_take the table is the first argument and the index array the second, so the table is `main_arg1` and the index
    array `main_arg0`. -/
abbrev ops : List (HloOp τ sig (Elt F)) :=
  [ TRef.nullary main_call0.c (constantI S_ 32 0#32),
    TRef.unary main_call0.c main_call0.v0 (broadcastInDim S8x256 ![] bcast_S_S8x256),
    TRef.binary (.of main_arg0) main_call0.v0 main_call0.v1 (cmpi .slt),
    TRef.nullary main_call0.c_0 (constantI S_ 32 50000#32),
    TRef.unary main_call0.c_0 main_call0.v2 (broadcastInDim S8x256 ![] bcast_S_S8x256),
    TRef.binary (.of main_arg0) main_call0.v2 main_call0.v3 addi,
    TRef.ternary main_call0.v1 main_call0.v3 (.of main_arg0) main_call0.call0.v0 select,
    TRef.unary main_call0.call0.v0 main_call0.v5 (broadcastInDim S8x256x1 ![0, 1] bcast_S8x256_S8x256x1_0_1),
    TRef.nullary main_call0.c_1 (constantI S1 32 49999#32),
    TRef.nullary main_call0.c_2 (constantI S_ 32 0#32),
    TRef.unary main_call0.c_2 main_call0.v6 (broadcastInDim S8x256x1 ![] bcast_S_S8x256x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8x256x1 ![0, 1, 2] bcast_S1x1x1_S8x256x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8x256x1_S8x256_d2 h_S_),
    TRef.binary (.of main_arg1) main_call0.v5 main_call0.v13 (fun x i => Host.gather gather_S50000x256_S8x256x1_S8x256x256_2_0_n_n_0_2_1256 x i),
    TRef.unary main_call0.v12 main_call0.v14 (broadcastInDim S8x256x256 ![0, 1] bcast_S8x256_S8x256x256_0_1),
    TRef.nullary main_call0.cst (constant S_ .f32 0x7FC00000#32),
    TRef.unary main_call0.cst main_call0.v15 (broadcastInDim S8x256x256 ![] bcast_S_S8x256x256),
    TRef.ternary main_call0.v14 main_call0.v13 main_call0.v15 main_call0.v16 select ]

-- the chain of binds is re-associated once per statement
set_option maxRecDepth 1024 in
/-- @main is that line: with the two functions' bodies in place of their calls and sequencing re-associated, both
    sides are the same chain of steps. -/
theorem main_eq (c : Dev nD) : main (F := F) c = seq ops := by
  simp only [main, fn_take.body, fn_where.body, seq, bind_assoc, pure_bind]

/-- The signature scopes no buffer … -/
theorem scopedRefs_eq : (Finset.univ.filter fun b : Ref sig .tc => b.isScoped) = ∅ := by decide
/-- … and has no semaphore to scope. -/
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, and every buffer ends at the
    fold of the line's operations over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the line computes -/

/-- The index as @_take normalises it: a negative word counts from the end of the table. -/
def norm (idx : IVec S8x256 32) : IVec S8x256 32 :=
  select (cmpi .slt idx (broadcastInDim S8x256 ![] bcast_S_S8x256 (constantI S_ 32 0#32)))
    (addi idx (broadcastInDim S8x256 ![] bcast_S_S8x256 (constantI S_ 32 50000#32))) idx

/-- The gather's start indices: the normalised index with a trailing axis of size one. -/
def starts (idx : IVec S8x256 32) : IVec S8x256x1 32 :=
  broadcastInDim S8x256x1 ![0, 1] bcast_S8x256_S8x256x1_0_1 (norm idx)

/-- Where the normalised index names a row of the table: `0 ≤ ·` and `· ≤ 49999`, and-reduced over the trailing axis. -/
def inRange (idx : IVec S8x256 32) : IVec S8x256 1 :=
  Host.reduce IntOp.andi
    (andi (cmpi .sge (starts idx) (broadcastInDim S8x256x1 ![] bcast_S_S8x256x1 (constantI S_ 32 0#32)))
      (cmpi .sle (starts idx) (broadcastInDim S8x256x1 ![0, 1, 2] bcast_S1x1x1_S8x256x1_0_1_2
        (broadcastInDim S1x1x1 ![2] bcast_S1_S1x1x1_2 (constantI S1 32 49999#32)))))
    (constantI S_ 1 1#1) reducesTo_S8x256x1_S8x256_d2 h_S_

/-- What @main leaves in its result buffer, as a function of the two arguments' contents: the gathered rows where the
    index is in range, a NaN constant elsewhere. -/
def taken (idx : IVec S8x256 32) (tab : FVec F S50000x256 .f32) : FVec F S8x256x256 .f32 :=
  select (broadcastInDim S8x256x256 ![0, 1] bcast_S8x256_S8x256x256_0_1 (inRange idx))
    (Host.gather gather_S50000x256_S8x256x1_S8x256x256_2_0_n_n_0_2_1256 tab (starts idx))
    (broadcastInDim S8x256x256 ![] bcast_S_S8x256x256 (constant S_ .f32 0x7FC00000#32))

-- the reduction and the gather are never looked into here: the equation is between two spellings of one composition
attribute [local irreducible] Host.reduce Host.gather in
set_option maxRecDepth 8192 in
/-- The fold at the result buffer is `taken` of the arguments' contents: each operation's result is read at its own
    buffer and every other buffer is passed through; a typed reference's transport of contents is the identity at a
    literal reference. -/
theorem out_eq (V : Valuation τ sig (Elt F)) :
    after ops V (main_v0 : DevRef τ sig) = taken (V (main_arg0 : DevRef τ sig)) (V (main_arg1 : DevRef τ sig)) := by
  after_results
  rfl

/-- No operation writes the index array … -/
theorem arg0_eq (V : Valuation τ sig (Elt F)) :
    after ops V (main_arg0 : DevRef τ sig) = V (main_arg0 : DevRef τ sig) := by
  simp only [after_cons, after_nil]
  rfl

/-- … nor the table. -/
theorem arg1_eq (V : Valuation τ sig (Elt F)) :
    after ops V (main_arg1 : DevRef τ sig) = V (main_arg1 : DevRef τ sig) := by
  simp only [after_cons, after_nil]
  rfl

/-! ## Words below 50000 -/

/-- A word below 50000 reads the same signed and unsigned: its top bit is clear. -/
theorem word_toInt (v : BitVec 32) (h : v.toNat < 50000) : v.toInt = (v.toNat : Int) :=
  BitVec.toInt_eq_toNat_of_lt (by omega)

/-- It is not negative … -/
theorem word_not_neg (v : BitVec 32) (h : v.toNat < 50000) : IntOp.cmpi .slt v 0#32 = 0#1 := by
  have hv := word_toInt v h
  have h0 : (0#32 : BitVec 32).toInt = 0 := by decide
  show BitVec.ofBool (v.slt 0#32) = 0#1
  rw [BitVec.slt_eq_decide, hv, h0, decide_eq_false (by omega)]
  rfl

/-- … and it passes both halves of the range test. -/
theorem word_in_range (v : BitVec 32) (h : v.toNat < 50000) :
    IntOp.andi (IntOp.cmpi .sge v 0#32) (IntOp.cmpi .sle v 49999#32) = 1#1 := by
  have hv := word_toInt v h
  have h0 : (0#32 : BitVec 32).toInt = 0 := by decide
  have hc : (49999#32 : BitVec 32).toInt = 49999 := by decide
  show IntOp.andi (BitVec.ofBool ((0#32 : BitVec 32).sle v)) (BitVec.ofBool (v.sle 49999#32)) = 1#1
  rw [BitVec.sle_eq_decide, BitVec.sle_eq_decide, hv, h0, hc, decide_eq_true (by omega), decide_eq_true (by omega)]
  rfl

/-- A conjunction of ones, from one, is one, however many there are. -/
theorem foldl_andi_one {β : Type} (f : β → BitVec 1) (hf : ∀ n, f n = 1#1) (l : List β) :
    l.foldl (fun r n => IntOp.andi r (f n)) 1#1 = 1#1 := by
  have e : IntOp.andi 1#1 1#1 = 1#1 := by decide
  induction l with
  | nil => rfl
  | cons n l ih => rw [List.foldl_cons, hf n, e]; exact ih

/-! ## The stages at an index, every index word below 50000 -/

section Stages

variable (idx : IVec S8x256 32) (hidx : ∀ p : S8x256.Idx, (idx p).toNat < 50000)
include hidx

/-- Normalising an in-range index leaves it: the word is not negative, so the select takes its third operand. -/
theorem norm_apply (p : S8x256.Idx) : norm idx p = idx p := by
  show Scalar.select (IntOp.cmpi .slt (idx p) 0#32) (IntOp.addi (idx p) 50000#32) (idx p) = idx p
  rw [word_not_neg _ (hidx p), select_zero]

omit hidx in
/-- The start index at `(b, s, 0)` is the normalised index at `(b, s)`. -/
theorem starts_apply (b : Fin 8) (s : Fin 256) (z : Fin 1) : starts idx (ix3 b s z) = norm idx (ix2 b s) := by
  show norm idx _ = norm idx _
  refine congrArg (norm idx) ?_
  funext a
  match a with
  | ⟨0, _⟩ => rfl
  | ⟨1, _⟩ => rfl

/-- Every start index is an in-range word. -/
theorem starts_lt (k : S8x256x1.Idx) : (starts idx k).toNat < 50000 := by
  show (norm idx _).toNat < 50000
  rw [norm_apply idx hidx]; exact hidx _

/-- The range mask is one everywhere: the reduction folds the conjunction, from one, over words that all pass the test. -/
theorem inRange_apply (p : S8x256.Idx) : inRange idx p = 1#1 := by
  unfold inRange Host.reduce
  exact foldl_andi_one _ (fun n => word_in_range _ (starts_lt idx hidx _)) _

/-- The gather's dimension numbers, under a short name. -/
abbrev gd : GatherDims S50000x256 S8x256x1 S8x256x256 := gather_S50000x256_S8x256x1_S8x256x256_2_0_n_n_0_2_1256

/-- The gather at `(b, s, d)` reads row `idx (b, s)` of the table at column `d`: on the table's row axis — collapsed,
    and the one the start index names — the operand coordinate is the start index read signed and clamped to the last
    row, which for an in-range word is the word; on the column axis — the offset axis — it is the result's last
    coordinate. -/
theorem gather_apply {α : Type} (tab : S50000x256.Idx → α) (b : Fin 8) (s : Fin 256) (d : Fin 256) :
    Host.gather gd tab (starts idx) (ix3 b s d) = tab (ix2 (Cert.Spec.rowOf (idx (ix2 b s))) d) := by
  unfold Host.gather
  refine congrArg tab ?_
  funext a
  refine Fin.ext ?_
  match a with
  | ⟨0, _⟩ =>
    show gd.start (ix3 b s d) (starts idx) 0 + gd.batchCoord (ix3 b s d) 0 + gd.offCoord (ix3 b s d) 0
      = (Cert.Spec.rowOf (idx (ix2 b s))).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix3 b s d) ⟨List.idxOf (0 : Fin 2) gd.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, starts_apply, norm_apply idx hidx, Cert.Spec.rowOf_val _ (hidx _), word_toInt _ (hidx _), Int.toNat_natCast]
    have := hidx (ix2 b s)
    exact Nat.min_eq_left (show _ ≤ 50000 - 1 by omega)
  | ⟨1, _⟩ =>
    show gd.start (ix3 b s d) (starts idx) 1 + gd.batchCoord (ix3 b s d) 1 + gd.offCoord (ix3 b s d) 1 = d.val
    rw [GatherDims.batchCoord_eq_zero _ _ _ List.not_mem_nil]
    unfold GatherDims.start GatherDims.offCoord
    have h10 : ¬ ((1 : Fin 2) = 0) := by decide
    rw [dif_neg (show (1 : Fin 2) ∉ gd.startIndexMap from fun h => h10 (List.mem_singleton.mp h)),
      dif_pos (show (1 : Fin 2) ∈ gd.sKept from
        (GatherDims.mem_sKept _ _).mpr ⟨fun h => h10 (List.mem_singleton.mp h), List.not_mem_nil⟩)]
    simp only [Nat.zero_add, Nat.add_zero]
    rfl

/-- The result: the select keeps the gathered value everywhere, and that is the row gather. -/
theorem taken_eq (tab : FVec F S50000x256 .f32) : taken idx tab = Cert.Spec.gathered idx tab := by
  funext j
  obtain ⟨b, s, d, rfl⟩ : ∃ b s d, j = ix3 b s d := ⟨j 0, j 1, j 2, eq_ix3 j⟩
  show Scalar.select (inRange idx _) (Host.gather gd tab (starts idx) (ix3 b s d)) _ = _
  rw [inRange_apply idx hidx, select_one, gather_apply idx hidx, Cert.Spec.gathered_apply]

end Stages

end Line

/-! ## The run -/

/-- From any memory whose index words are all below 50000 the reference runs to its end, leaves its two arguments as
    they were, and ends with its result buffer at the row gather of the arguments. -/
theorem run [Cert.ReferenceIdeal.Facts] (m : (ℓ : Loc nD τ sig) → Buf (Elt Ideal) ℓ) (g : Dev nD → PrngReg)
    (hidx : ∀ (c : Dev nD) (p : S8x256.Idx), (m ((c.tc : Thread nD τ).loc main_arg0) p).toNat < 50000) :
    θ_run (defs (F := Ideal)) (onTc (τ := τ) (main (F := Ideal))) ⟨m, fun _ => 0, g⟩ (fun r => ∀ c : Dev nD,
      r.2.mem ((c.tc : Thread nD τ).loc main_v0) = Cert.Spec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v0).trans ((out_eq (launchContents m c)).trans (taken_eq _ (hidx c) _)),
        (h c main_arg0).trans (arg0_eq (launchContents m c)),
        (h c main_arg1).trans (arg1_eq (launchContents m c))⟩)
    (run_main m g)

end Cert.ReferenceIdeal.Hand

end
-- ==== Proof.Halves.lean ====
/-
  A 32 × 256 buffer cut into its upper and lower sixteen rows. The two row blocks are literal rectangles;
  every index lies in exactly one of them (by its row), so under any view's embedding of the indices their
  images are disjoint and together are the view's whole element set. This is what lets a points-to of the
  whole buffer be held as two points-tos, one per block, and joined again.
-/
import Idealize.ShloMosaic.Signature.View

namespace Cert.Halves

open Idealize.ShloMosaic

/-- The buffer's shape. -/
abbrev S : Shape := ⟨2, ![32, 256]⟩

/-- Rows 0 to 15, all columns; rows 16 to 31, all columns. -/
abbrev lo : Rect S := Rect.unit (s := S) ![0, 0] ![16, 256] (by decide)
abbrev hi : Rect S := Rect.unit (s := S) ![16, 0] ![16, 256] (by decide)

/-- An index is in the upper block exactly when its row is below 16. -/
theorem mem_lo (i : S.Idx) : i ∈ lo.set ↔ (i 0).val < 16 := by
  rw [Rect.mem_set_unit]
  constructor
  · intro h
    have h0 : (![0, 0] : Fin 2 → Nat) 0 ≤ (i 0).val ∧ (i 0).val < (![0, 0] : Fin 2 → Nat) 0 + (![16, 256] : Fin 2 → Nat) 0 := h 0
    have e : (i 0).val < 0 + 16 := h0.2
    omega
  · intro h a
    match a with
    | ⟨0, h0⟩ =>
      have h' : (i ⟨0, h0⟩).val < 16 := h
      exact ⟨Nat.zero_le _, by show (i ⟨0, h0⟩).val < 0 + 16; omega⟩
    | ⟨1, h1⟩ =>
      have hlt : (i ⟨1, h1⟩).val < 256 := (i ⟨1, h1⟩).isLt
      exact ⟨Nat.zero_le _, by show (i ⟨1, h1⟩).val < 0 + 256; omega⟩

/-- And in the lower block exactly when its row is 16 or more. -/
theorem mem_hi (i : S.Idx) : i ∈ hi.set ↔ 16 ≤ (i 0).val := by
  rw [Rect.mem_set_unit]
  constructor
  · intro h
    have e : 16 ≤ (i 0).val := (h 0).1
    exact e
  · intro h a
    match a with
    | ⟨0, h0⟩ =>
      have hlt : (i ⟨0, h0⟩).val < 32 := (i ⟨0, h0⟩).isLt
      have h' : 16 ≤ (i ⟨0, h0⟩).val := h
      exact ⟨h', by show (i ⟨0, h0⟩).val < 16 + 16; omega⟩
    | ⟨1, h1⟩ =>
      have hlt : (i ⟨1, h1⟩).val < 256 := (i ⟨1, h1⟩).isLt
      exact ⟨Nat.zero_le _, by show (i ⟨1, h1⟩).val < 0 + 256; omega⟩

/-- Every index is in one of the two blocks, -/
theorem cover : lo.set ∪ hi.set = (Finset.univ : Finset S.Idx) := by
  ext i
  simp only [Finset.mem_union, mem_lo, mem_hi, Finset.mem_univ, iff_true]
  omega

/-- and none is in both. -/
theorem disj : Disjoint lo.set hi.set :=
  Finset.disjoint_left.mpr fun i ha hb => by
    have h1 := (mem_lo i).mp ha
    have h2 := (mem_hi i).mp hb
    omega

variable {sig : RefSig} {κ : Kind} {sp : Space} {e : EltTy}

/-- Under a view's embedding the two blocks' elements make up the view's element set, -/
theorem setOn_cover (v : View sig κ sp S e) : v.setOn lo.set ∪ v.setOn hi.set = v.set := by
  rw [← View.setOn_univ, ← cover]
  unfold View.setOn
  exact (Finset.map_union _ _).symm

/-- and stay disjoint. -/
theorem setOn_disj (v : View sig κ sp S e) : Disjoint (v.setOn lo.set) (v.setOn hi.set) := by
  unfold View.setOn
  exact (Finset.disjoint_map _).mpr disj

end Cert.Halves
-- ==== Proof.BitsBase.lean ====
/-
  The gather kernel's body, seen from its memory: the index table in scalar memory, the embedding table left in
  HBM, a 32 × 256 scratch and thirty-two DMA semaphores. Each grid point reads thirty-two index words, starts one
  copy per word — row (word) of the table into row j of the scratch, on semaphore j —, waits for all of them, and
  stores the scratch into its output block. This module names those operands, the resources the body holds while
  the copies fly (the semaphores one by one at zero; the table's share cut into one read token per semaphore, since
  all thirty-two copies read it at once; the scratch as its upper and lower sixteen rows), and what the scratch holds
  afterwards as a term over the copies' payloads.
-/
import proofs.«412030_j16183436772039_1_alg».proof.Proof.Gen.Kernel.Launch
import proofs.«412030_j16183436772039_1_alg».proof.Proof.Gen.Kernel.Skeleton
import proofs.«412030_j16183436772039_1_alg».proof.Proof.Halves
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## What the body is handed besides its output window

The index table (in scalar memory, read-only: the region keeps the other half of it), the embedding table left
in HBM, the 32 × 256 scratch the rows are copied into, and thirty-two DMA semaphores, one per copy. -/

abbrev tbM : Memref sig .tc .smem S2048 .i32 := Memref.whole main_v0
abbrev htbM : (tbM).IsWhole := Memref.isWhole_whole _
abbrev hbM : Memref sig .tc .hbm S50000x256 .f32 := Memref.whole main_arg1
abbrev scM : Memref sig .tc .vmem S32x256 .f32 := Memref.whole cc0_scratch0
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f
abbrev HbBuf (c : Dev nD) : Type := Buf (Elt F) (hbM.view.loc (c : Thread nD τ))
abbrev hbPt (c : Dev nD) (f : HbBuf (F := F) c) : sProp 𝕄 := hbM.view.loc (c : Thread nD τ) ↦{fullShare} f

/-- The index word the body reads through a one-word rectangle of the table. -/
abbrev wordAt (c : Dev nD) (xt : TbBuf (F := F) c) (off : Fin 1 → Nat) (h : ∀ a, off a + S1.size a ≤ S2048.size a) : Elt F .i32 :=
  tbM.view.readAt (Elt F) (Rect.unit (s := S2048) off S1.size h).toLoadRect xt (Shape.Idx.first (numel1_S1.symm ▸ Nat.one_pos))

/-- A word below 50000 names a row of the embedding table: the one-row rectangle at it lies inside the table.
    Every side condition the body assumes of an index word is this fact, once or twice. -/
theorem row_inb (v : BitVec 32) (h : v.toNat < 50000) : ∀ a, (![v.toNat, 0] : Fin 2 → Nat) a + S1x256.size a ≤ S50000x256.size a := by
  intro a
  match a with
  | ⟨0, _⟩ => show v.toNat + 1 ≤ 50000; omega
  | ⟨1, _⟩ => show 0 + 256 ≤ 256; omega

/-- The body's own semaphores: cells 2 to 33 of the core's DMA semaphores (cells 0 and 1 are the output window's). -/
abbrev osem : Fin 32 → SemLoc sig := fun j =>
  (![SemLoc.dma 2, SemLoc.dma 3, SemLoc.dma 4, SemLoc.dma 5, SemLoc.dma 6, SemLoc.dma 7, SemLoc.dma 8, SemLoc.dma 9,
     SemLoc.dma 10, SemLoc.dma 11, SemLoc.dma 12, SemLoc.dma 13, SemLoc.dma 14, SemLoc.dma 15, SemLoc.dma 16, SemLoc.dma 17,
     SemLoc.dma 18, SemLoc.dma 19, SemLoc.dma 20, SemLoc.dma 21, SemLoc.dma 22, SemLoc.dma 23, SemLoc.dma 24, SemLoc.dma 25,
     SemLoc.dma 26, SemLoc.dma 27, SemLoc.dma 28, SemLoc.dma 29, SemLoc.dma 30, SemLoc.dma 31, SemLoc.dma 32, SemLoc.dma 33] : Fin 32 → SemLoc sig) j
theorem ownSemFacts : Pipeline.OwnSemFacts spec0 osem := by decide

/-- One of those cells at zero; one read token of the embedding table (a transfer out of the table lends the token its
    cell's number indexes, so that thirty-two may read the table at once); what is left of the table's share. -/
abbrev cell (c : Dev nD) (k : Fin 34) : sProp 𝕄 := semVal ((c : Thread nD τ), SemLoc.dma (sig := sig) k) 0
abbrev tok (c : Dev nD) (fh : HbBuf (F := F) c) (k : Fin 34) : sProp 𝕄 := hbM.view.loc (c : Thread nD τ) ↦{Transfers.shareTok fullShare 34 k} fh
abbrev hbRest (c : Dev nD) (fh : HbBuf (F := F) c) : sProp 𝕄 := hbM.view.loc (c : Thread nD τ) ↦{Transfers.shareDrop fullShare 34} fh

/-- The cells at zero, listed. -/
theorem ownSems_eq (c : Dev nD) :
    (Pipeline.ownSems0 (Ix := Unit) (Name := ℕ) (U := Pipeline.UD sig nD τ) (Lvl := ℕ) (Val := Elt F) (τ := τ) osem c : sProp 𝕄)
      = iprop(cell c 2 ∗ cell c 3 ∗ cell c 4 ∗ cell c 5 ∗ cell c 6 ∗ cell c 7 ∗ cell c 8 ∗ cell c 9 ∗ cell c 10 ∗ cell c 11 ∗ cell c 12 ∗ cell c 13
        ∗ cell c 14 ∗ cell c 15 ∗ cell c 16 ∗ cell c 17 ∗ cell c 18 ∗ cell c 19 ∗ cell c 20 ∗ cell c 21 ∗ cell c 22 ∗ cell c 23 ∗ cell c 24 ∗ cell c 25
        ∗ cell c 26 ∗ cell c 27 ∗ cell c 28 ∗ cell c 29 ∗ cell c 30 ∗ cell c 31 ∗ cell c 32 ∗ cell c 33) := by
  rw [Pipeline.ownSems0_eq_of_list c osem [0, 1, 2, 3, 4, 5, 6, 7, 8, 9, 10, 11, 12, 13, 14, 15, 16, 17, 18, 19, 20, 21, 22, 23, 24, 25, 26, 27, 28, 29, 30, 31]
    (by decide) (by decide)]
  rfl

/-- The table's tokens, listed: the whole share is the remainder and the thirty-four tokens. -/
theorem toks_eq (c : Dev nD) (fh : HbBuf (F := F) c) :
    (bigSep Finset.univ (fun k : Fin 34 => tok c fh k) : sProp 𝕄)
      = iprop(tok c fh 0 ∗ tok c fh 1 ∗ tok c fh 2 ∗ tok c fh 3 ∗ tok c fh 4 ∗ tok c fh 5 ∗ tok c fh 6 ∗ tok c fh 7 ∗ tok c fh 8 ∗ tok c fh 9 ∗ tok c fh 10 ∗ tok c fh 11
        ∗ tok c fh 12 ∗ tok c fh 13 ∗ tok c fh 14 ∗ tok c fh 15 ∗ tok c fh 16 ∗ tok c fh 17 ∗ tok c fh 18 ∗ tok c fh 19 ∗ tok c fh 20 ∗ tok c fh 21 ∗ tok c fh 22 ∗ tok c fh 23
        ∗ tok c fh 24 ∗ tok c fh 25 ∗ tok c fh 26 ∗ tok c fh 27 ∗ tok c fh 28 ∗ tok c fh 29 ∗ tok c fh 30 ∗ tok c fh 31 ∗ tok c fh 32 ∗ tok c fh 33) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33]
    (by decide) (by decide)]
  rfl

/-- The scratch's upper and lower sixteen rows, each held by its own elements. -/
abbrev scLo (c : Dev nD) (f : Buf (Elt F) (scM.view.loc (c : Thread nD τ))) : sProp 𝕄 :=
  scM.view.loc (c : Thread nD τ) ↦[scM.view.setOn Cert.Halves.lo.set]{fullShare} f
abbrev scHi (c : Dev nD) (f : Buf (Elt F) (scM.view.loc (c : Thread nD τ))) : sProp 𝕄 :=
  scM.view.loc (c : Thread nD τ) ↦[scM.view.setOn Cert.Halves.hi.set]{fullShare} f

/-- The scratch whole is its two row blocks. -/
theorem sc_split (c : Dev nD) (f : Buf (Elt F) (scM.view.loc (c : Thread nD τ))) :
    (scM.view.loc (c : Thread nD τ) ↦[scM.view.set]{fullShare} f : sProp 𝕄) ⊢ iprop(scLo c f ∗ scHi c f) := by
  rw [← Cert.Halves.setOn_cover scM.view]
  exact (pointsTo_union (Cert.Halves.setOn_disj scM.view)).1

/-- Two row blocks at any contents join to the scratch whole at the contents that agree with each on its block. -/
theorem sc_join (c : Dev nD) (f g : Buf (Elt F) (scM.view.loc (c : Thread nD τ))) :
    iprop(scLo c f ∗ scHi c g) ⊢ (scM.view.loc (c : Thread nD τ) ↦[scM.view.set]{fullShare} ((scM.view.setOn Cert.Halves.hi.set).piecewise g f) : sProp 𝕄) := by
  rw [← Cert.Halves.setOn_cover scM.view]
  exact pointsTo_join (Cert.Halves.setOn_disj scM.view)

/-! ## What the scratch holds after the thirty-two copies

Copy `k` writes its payload through the view of the scratch's row `k`. The upper sixteen rows are written one over the
other starting from the scratch's old contents, and so are the lower sixteen; the scratch then holds the lower nest on
the lower row block and the upper nest elsewhere. -/

/-- What the scratch may hold, on core `c`. -/
abbrev ScBuf (c : Dev nD) : Type := Buf (Elt F) (scM.view.loc (c : Thread nD τ))

/-- Row `k` of the scratch as a 256-element memref. -/
abbrev rowM (k : Nat) (hk : ∀ a, (![k, 0] : Fin 2 → Nat) a + S1x256.size a ≤ S32x256.size a) : Memref sig .tc .vmem S256 .f32 :=
  (scM.slice (Rect.unit (s := S32x256) ![k, 0] S1x256.size hk) (fun _ => rfl)).squeeze S256 squeezes_S1x256_S256

/-- A payload written whole through row `k`'s view over `base`. -/
abbrev wr (c : Dev nD) (k : Nat) (hk : ∀ a, (![k, 0] : Fin 2 → Nat) a + S1x256.size a ≤ S32x256.size a)
    (base : ScBuf (F := F) c) (w : S256.Idx → Elt F .f32) : ScBuf (F := F) c :=
  View.write (Elt F) (rowM k hk).view base w Finset.univ

/-- Rows 0 to 15 written in order over `fs0`; rows 16 to 31 likewise. -/
def nestLo (c : Dev nD) (fs0 : ScBuf (F := F) c) (p : Fin 32 → S256.Idx → Elt F .f32) : ScBuf (F := F) c :=
  wr c 15 inb_S32x256_S1x256_15_0 (wr c 14 inb_S32x256_S1x256_14_0 (wr c 13 inb_S32x256_S1x256_13_0 (wr c 12 inb_S32x256_S1x256_12_0 (wr c 11 inb_S32x256_S1x256_11_0 (wr c 10 inb_S32x256_S1x256_10_0 (wr c 9 inb_S32x256_S1x256_9_0 (wr c 8 inb_S32x256_S1x256_8_0
    (wr c 7 inb_S32x256_S1x256_7_0 (wr c 6 inb_S32x256_S1x256_6_0 (wr c 5 inb_S32x256_S1x256_5_0 (wr c 4 inb_S32x256_S1x256_4_0 (wr c 3 inb_S32x256_S1x256_3_0 (wr c 2 inb_S32x256_S1x256_2_0 (wr c 1 inb_S32x256_S1x256_1_0 (wr c 0 inb_S32x256_S1x256_0_0 fs0
    (p 0)) (p 1)) (p 2)) (p 3)) (p 4)) (p 5)) (p 6)) (p 7)) (p 8)) (p 9)) (p 10)) (p 11)) (p 12)) (p 13)) (p 14)) (p 15)
def nestHi (c : Dev nD) (fs0 : ScBuf (F := F) c) (p : Fin 32 → S256.Idx → Elt F .f32) : ScBuf (F := F) c :=
  wr c 31 inb_S32x256_S1x256_31_0 (wr c 30 inb_S32x256_S1x256_30_0 (wr c 29 inb_S32x256_S1x256_29_0 (wr c 28 inb_S32x256_S1x256_28_0 (wr c 27 inb_S32x256_S1x256_27_0 (wr c 26 inb_S32x256_S1x256_26_0 (wr c 25 inb_S32x256_S1x256_25_0 (wr c 24 inb_S32x256_S1x256_24_0
    (wr c 23 inb_S32x256_S1x256_23_0 (wr c 22 inb_S32x256_S1x256_22_0 (wr c 21 inb_S32x256_S1x256_21_0 (wr c 20 inb_S32x256_S1x256_20_0 (wr c 19 inb_S32x256_S1x256_19_0 (wr c 18 inb_S32x256_S1x256_18_0 (wr c 17 inb_S32x256_S1x256_17_0 (wr c 16 inb_S32x256_S1x256_16_0 fs0
    (p 16)) (p 17)) (p 18)) (p 19)) (p 20)) (p 21)) (p 22)) (p 23)) (p 24)) (p 25)) (p 26)) (p 27)) (p 28)) (p 29)) (p 30)) (p 31)

/-- The scratch after all thirty-two copies. -/
def nest (c : Dev nD) (fs0 : ScBuf (F := F) c) (p : Fin 32 → S256.Idx → Elt F .f32) : ScBuf (F := F) c :=
  (scM.view.setOn Cert.Halves.hi.set).piecewise (nestHi c fs0 p) (nestLo c fs0 p)

/-- The whole-scratch rectangle the body loads through. -/
abbrev scWhole : Rect S32x256 := Rect.unit (s := S32x256) ![0, 0] ![32, 256] inb_S32x256_S32x256_0_0

/-! ## What each copy carries

Copy `j` reads the row of the embedding table that the `j`-th index word of the grid point names. -/

/-- A row of the table read through the one-row window at offsets `off`. -/
abbrev srcRow (c : Dev nD) (fh : HbBuf (F := F) c) (off : Fin 2 → Nat) (h : ∀ a, off a + S1x256.size a ≤ S50000x256.size a) : S256.Idx → Elt F .f32 :=
  ReadAs.same.apply (View.read (Elt F) ((hbM.slice (Rect.unit (s := S50000x256) off S1x256.size h) (fun _ => rfl)).squeeze S256 squeezes_S1x256_S256).view fh)

end Cert.Kernel.Hand
end
-- ==== Proof.BitsRows.lean ====
/-
  What the scratch holds after the thirty-two row copies, read entry by entry. Copy k writes its 256-element payload
  through the view of the scratch's row k: the one-row rectangle at offsets (k, 0), with its unit axis dropped. That view
  places its column d at the scratch's index (k, d), so a write through it puts the payload's entry d at (k, d) and leaves
  every index whose row is not k as it was. Rows lo, lo+1, …, lo+n−1 written in this order over any contents therefore
  leave, at an index (j, d) with lo ≤ j < lo+n, entry d of payload j — whatever the contents were before: the later rows'
  writes pass (j, d) by, row j's own write sets it, and the earlier ones are overwritten. The scratch after all the copies
  is the nest over rows 16 to 31 on the lower row block and the nest over rows 0 to 15 elsewhere, and (j, d) lies in the
  lower block exactly when 16 ≤ j; either way the entry at (j, d) is payload j's entry d. The body then loads the scratch
  whole (the rectangle at zero offsets of the scratch's own sizes reads the contents) and reshapes [32, 256] to
  [32, 1, 256], which keeps row-major position: index (a, 0, b) reads (a, b).
-/
import proofs.«412030_j16183436772039_1_alg».proof.Proof.BitsBase
import Idealize.ShloMosaic.Lib.ValueIdx
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx

variable {F : FTy → Type} [FloatOps F]

local notation "𝕄" => MT nD τ sig Unit (Elt F) ℕ (Pipeline.UD sig nD τ) ℕ

/-! ## One row's view inside the scratch -/

/-- The one-row rectangle at row `k` lies inside the 32 × 256 scratch. -/
private abbrev RowInb (k : Nat) : Prop := ∀ a, (![k, 0] : Fin 2 → Nat) a + S1x256.size a ≤ S32x256.size a

/-- It does for every row number below 32. -/
private theorem rowInb (k : Nat) (h : k < 32) : RowInb k := by
  intro a
  match a with
  | ⟨0, _⟩ => show k + 1 ≤ 32; omega
  | ⟨1, _⟩ => show 0 + 256 ≤ 256; omega

/-- Row `k`'s view places its column `d` at the scratch's index (k, d). Dropping the unit axis matches column `d` of the
    256-vector with (0, d) of the 1 × 256 row (both have row-major position d), and the rectangle at offsets (k, 0) with unit
    strides sends (0, d) to (k + 0, 0 + d). -/
private theorem rowM_emb (k : Nat) (hk : RowInb k) (j : Fin 32) (hj : j.val = k) (d : Fin 256) :
    (rowM k hk).view.emb (ix1 d) = scM.view.emb (ix2 j d) := by
  have hsq : Shape.reshapeEquiv (squeezes_S1x256_S256.numel_eq) (ix1 d) = (ix2 (0 : Fin 1) d : S1x256.Idx) :=
    Shape.reshapeEquiv_eq_of_rowMajor _ (by
      rw [Shape.rowMajor_val_two, Shape.rowMajor_val_one]
      show 0 * 256 + d.val = d.val
      omega)
  show scM.view.emb ((Rect.unit (s := S32x256) ![k, 0] S1x256.size hk).emb (Shape.reshapeEquiv _ (ix1 d))) = _
  rw [hsq]
  refine congrArg scM.view.emb (funext fun a => Fin.ext ?_)
  match a with
  | ⟨0, _⟩ => show k + 1 * 0 = j.val; omega
  | ⟨1, _⟩ => show 0 + 1 * d.val = d.val; omega

/-- SAME ROW: after a payload is written whole through row `k`'s view, the scratch reads the payload's entry `d` at (k, d):
    (k, d) is the element under the view's index `d`, and a write sets the element under every index it writes. -/
private theorem read_wr_same (c : Dev nD) (k : Nat) (hk : RowInb k) (base : ScBuf (F := F) c) (w : S256.Idx → Elt F .f32)
    (j : Fin 32) (hj : j.val = k) (d : Fin 256) :
    scM.view.read (Elt F) (wr c k hk base w) (ix2 j d) = w (ix1 d) := by
  rw [View.read_apply, ← rowM_emb k hk j hj d]
  unfold wr
  rw [View.write_emb_of_mem _ _ (Finset.mem_univ _), cast_cast, cast_eq]

/-- OTHER ROW: at (j, d) with j ≠ k the write changes nothing. Were (j, d) an element under row `k`'s view, it would be
    (k, d') for some column d' — the scratch's own placement of indices is injective — so j would be k. -/
private theorem read_wr_other (c : Dev nD) (k : Nat) (hk : RowInb k) (base : ScBuf (F := F) c) (w : S256.Idx → Elt F .f32)
    (j : Fin 32) (hj : j.val ≠ k) (d : Fin 256) :
    scM.view.read (Elt F) (wr c k hk base w) (ix2 j d) = scM.view.read (Elt F) base (ix2 j d) := by
  refine View.read_congr_at (ix2 j d) (View.write_of_not_mem _ _ _ ?_)
  intro hm
  obtain ⟨x, -, hx⟩ := Finset.mem_map.mp hm
  have hk32 : k < 32 := by have h0 : k + 1 ≤ 32 := hk 0; omega
  have e1 : (rowM k hk).view.emb x = scM.view.emb (ix2 (⟨k, hk32⟩ : Fin 32) (x 0)) :=
    (congrArg (rowM k hk).view.emb (eq_ix1 (n := 256) x)).trans (rowM_emb k hk ⟨k, hk32⟩ rfl (x 0))
  have h0 : (⟨k, hk32⟩ : Fin 32) = j := congrFun (scM.view.emb.injective (e1.symm.trans hx)) 0
  exact hj (congrArg Fin.val h0).symm

/-! ## A run of consecutive rows written in order -/

/-- Rows lo, lo+1, …, lo+n−1 written in that order over `fs0`, row `k` with payload `p k`. -/
private def rowsFrom (c : Dev nD) (fs0 : ScBuf (F := F) c) (p : Fin 32 → S256.Idx → Elt F .f32) (lo : Nat) :
    (n : Nat) → lo + n ≤ 32 → ScBuf (F := F) c
  | 0, _ => fs0
  | n + 1, h => wr c (lo + n) (rowInb (lo + n) (by omega)) (rowsFrom c fs0 p lo n (by omega)) (p ⟨lo + n, by omega⟩)

/-- At (j, d) with lo ≤ j < lo+n the run leaves payload `j`'s entry `d`. By induction on the number of rows: the last row
    written is lo+n; if it is j, that write sets (j, d) to the payload; if not, it leaves (j, d) alone and j is among the
    n rows written before. -/
private theorem rowsFrom_apply (c : Dev nD) (fs0 : ScBuf (F := F) c) (p : Fin 32 → S256.Idx → Elt F .f32) (lo : Nat) :
    ∀ (n : Nat) (h : lo + n ≤ 32) (j : Fin 32) (d : Fin 256), lo ≤ j.val → j.val < lo + n →
      scM.view.read (Elt F) (rowsFrom c fs0 p lo n h) (ix2 j d) = p j (ix1 d)
  | 0, _, j, d, h1, h2 => by omega
  | n + 1, h, j, d, h1, h2 => by
    by_cases e : j.val = lo + n
    · refine (read_wr_same c (lo + n) _ _ _ j e d).trans ?_
      exact congrArg (fun t => p t (ix1 d)) (Fin.ext e.symm)
    · refine (read_wr_other c (lo + n) _ _ _ j e d).trans ?_
      exact rowsFrom_apply c fs0 p lo n _ j d h1 (by omega)

/-- The two literal nests are such runs: sixteen rows from row 0, and sixteen from row 16. -/
private theorem nestLo_eq (c : Dev nD) (fs0 : ScBuf (F := F) c) (p : Fin 32 → S256.Idx → Elt F .f32) :
    nestLo c fs0 p = rowsFrom c fs0 p 0 16 (by omega) := rfl

private theorem nestHi_eq (c : Dev nD) (fs0 : ScBuf (F := F) c) (p : Fin 32 → S256.Idx → Elt F .f32) :
    nestHi c fs0 p = rowsFrom c fs0 p 16 16 (by omega) := rfl

/-! ## The scratch after the copies, and the block the body stores -/

/-- Entry (j, d) of the scratch after the copies is entry d of copy j's payload: every row is overwritten, whatever the scratch held before. -/
theorem nest_apply (c : Dev nD) (fs0 : ScBuf (F := F) c) (p : Fin 32 → S256.Idx → Elt F .f32) (j : Fin 32) (d : Fin 256) :
    scM.view.read (Elt F) (nest c fs0 p) (ValueIdx.ix2 j d) = p j (ValueIdx.ix1 d) := by
  unfold nest
  by_cases h16 : 16 ≤ j.val
  · -- (j, d) is in the lower row block: the contents there are the nest over rows 16 to 31
    have hm : scM.view.emb (ix2 j d) ∈ scM.view.setOn Cert.Halves.hi.set :=
      scM.view.mem_setOn.mpr ((Cert.Halves.mem_hi (ix2 j d)).mpr h16)
    refine (View.read_congr_at (ix2 j d) (Finset.piecewise_eq_of_mem _ _ _ hm)).trans ?_
    rw [nestHi_eq]
    exact rowsFrom_apply c fs0 p 16 16 _ j d h16 (by have := j.isLt; omega)
  · -- (j, d) is not: the contents there are the nest over rows 0 to 15
    have hm : scM.view.emb (ix2 j d) ∉ scM.view.setOn Cert.Halves.hi.set :=
      fun h => h16 ((Cert.Halves.mem_hi (ix2 j d)).mp (scM.view.mem_setOn.mp h))
    refine (View.read_congr_at (ix2 j d) (Finset.piecewise_eq_of_notMem _ _ _ hm)).trans ?_
    rw [nestLo_eq]
    exact rowsFrom_apply c fs0 p 0 16 _ j d (Nat.zero_le _) (by omega)

/-- The block the body stores: the scratch loaded whole and reshaped to [32, 1, 256] holds payload (y 0) at column (y 2). -/
theorem final_block (c : Dev nD) (fs0 : ScBuf (F := F) c) (p : Fin 32 → S256.Idx → Elt F .f32) :
    k0_pay1 (F := F) (View.readAt (Elt F) scM.view scWhole.toLoadRect (nest c fs0 p)) = fun y => p (y 0) (ValueIdx.ix1 (y 2)) := by
  funext y
  unfold k0_pay1
  -- the reshape keeps row-major position: (y 0, y 1, y 2) with y 1 = 0 has the position of (y 0, y 2)
  refine (shapeCast_apply _ shapeCasts_S32x256_S32x1x256 y (ix2 (y 0) (y 2)) ?_).trans ?_
  · rw [Shape.rowMajor_val_three, Shape.rowMajor_val_two]
    show (y 0).val * 256 + (y 2).val = ((y 0).val * 1 + (y 1).val) * 256 + (y 2).val
    have h1 : (y 1).val < 1 := (y 1).isLt
    omega
  · -- the whole-scratch load at zero offsets reads the contents
    rw [View.readAt_eq_ld, View.ld_unit_zero (funext fun a => by match a with | ⟨0, _⟩ => rfl | ⟨1, _⟩ => rfl)]
    exact nest_apply c fs0 p (y 0) (y 2)

end Cert.Kernel.Hand
end
-- ==== Proof.BitsRun.lean ====
/-
  The gather kernel's body run at one grid point. The point reads thirty-two index words from the table; each word,
  being below 50000, names a row of the embedding table; copy j moves that row into row j of the scratch on semaphore
  j; after all thirty-two waits the scratch holds the thirty-two rows whatever it held before, and the body stores it,
  reshaped to [32, 1, 256], into its output block. So the block's row j is the table's row named by the point's j-th
  index word — `blockOf` —, and the body hands back everything it was given.
-/
import proofs.«412030_j16183436772039_1_alg».proof.Proof.Gen.Kernel.Launch
import proofs.«412030_j16183436772039_1_alg».proof.Proof.Gen.Kernel.Skeleton
import proofs.«412030_j16183436772039_1_alg».proof.Proof.Halves
import proofs.«412030_j16183436772039_1_alg».proof.Proof.BitsBase
import proofs.«412030_j16183436772039_1_alg».proof.Proof.BitsRows
import Idealize.ShloMosaic.Lib.ValueIdx
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## The copies' payloads and the block the body leaves -/

/-- Copy `j`'s payload at grid point `i`: the row of the embedding table that the `j`-th index word read at the point
    names. (The words are below 50000 by `hall`, which is what places each one-row window inside the table.) -/
def pay (c : Dev nD) (i : grid0.Coords) (xt : TbBuf (F := F) c) (fh : HbBuf (F := F) c)
    (hall : ∀ (off : Fin 1 → Nat) (h : ∀ a, off a + S1.size a ≤ S2048.size a), (wordAt c xt off h).toNat < 50000) :
    Fin 32 → S256.Idx → Elt F .f32 :=
  ![
    srcRow c fh (k0_off2 (wordAt c xt (k0_off1 i) (k0_off1_inb i))) (row_inb _ (hall (k0_off1 i) (k0_off1_inb i))),
    srcRow c fh (k0_off4 (wordAt c xt (k0_off3 i) (k0_off3_inb i))) (row_inb _ (hall (k0_off3 i) (k0_off3_inb i))),
    srcRow c fh (k0_off6 (wordAt c xt (k0_off5 i) (k0_off5_inb i))) (row_inb _ (hall (k0_off5 i) (k0_off5_inb i))),
    srcRow c fh (k0_off8 (wordAt c xt (k0_off7 i) (k0_off7_inb i))) (row_inb _ (hall (k0_off7 i) (k0_off7_inb i))),
    srcRow c fh (k0_off10 (wordAt c xt (k0_off9 i) (k0_off9_inb i))) (row_inb _ (hall (k0_off9 i) (k0_off9_inb i))),
    srcRow c fh (k0_off12 (wordAt c xt (k0_off11 i) (k0_off11_inb i))) (row_inb _ (hall (k0_off11 i) (k0_off11_inb i))),
    srcRow c fh (k0_off14 (wordAt c xt (k0_off13 i) (k0_off13_inb i))) (row_inb _ (hall (k0_off13 i) (k0_off13_inb i))),
    srcRow c fh (k0_off16 (wordAt c xt (k0_off15 i) (k0_off15_inb i))) (row_inb _ (hall (k0_off15 i) (k0_off15_inb i))),
    srcRow c fh (k0_off18 (wordAt c xt (k0_off17 i) (k0_off17_inb i))) (row_inb _ (hall (k0_off17 i) (k0_off17_inb i))),
    srcRow c fh (k0_off20 (wordAt c xt (k0_off19 i) (k0_off19_inb i))) (row_inb _ (hall (k0_off19 i) (k0_off19_inb i))),
    srcRow c fh (k0_off22 (wordAt c xt (k0_off21 i) (k0_off21_inb i))) (row_inb _ (hall (k0_off21 i) (k0_off21_inb i))),
    srcRow c fh (k0_off24 (wordAt c xt (k0_off23 i) (k0_off23_inb i))) (row_inb _ (hall (k0_off23 i) (k0_off23_inb i))),
    srcRow c fh (k0_off26 (wordAt c xt (k0_off25 i) (k0_off25_inb i))) (row_inb _ (hall (k0_off25 i) (k0_off25_inb i))),
    srcRow c fh (k0_off28 (wordAt c xt (k0_off27 i) (k0_off27_inb i))) (row_inb _ (hall (k0_off27 i) (k0_off27_inb i))),
    srcRow c fh (k0_off30 (wordAt c xt (k0_off29 i) (k0_off29_inb i))) (row_inb _ (hall (k0_off29 i) (k0_off29_inb i))),
    srcRow c fh (k0_off32 (wordAt c xt (k0_off31 i) (k0_off31_inb i))) (row_inb _ (hall (k0_off31 i) (k0_off31_inb i))),
    srcRow c fh (k0_off34 (wordAt c xt (k0_off33 i) (k0_off33_inb i))) (row_inb _ (hall (k0_off33 i) (k0_off33_inb i))),
    srcRow c fh (k0_off36 (wordAt c xt (k0_off35 i) (k0_off35_inb i))) (row_inb _ (hall (k0_off35 i) (k0_off35_inb i))),
    srcRow c fh (k0_off38 (wordAt c xt (k0_off37 i) (k0_off37_inb i))) (row_inb _ (hall (k0_off37 i) (k0_off37_inb i))),
    srcRow c fh (k0_off40 (wordAt c xt (k0_off39 i) (k0_off39_inb i))) (row_inb _ (hall (k0_off39 i) (k0_off39_inb i))),
    srcRow c fh (k0_off42 (wordAt c xt (k0_off41 i) (k0_off41_inb i))) (row_inb _ (hall (k0_off41 i) (k0_off41_inb i))),
    srcRow c fh (k0_off44 (wordAt c xt (k0_off43 i) (k0_off43_inb i))) (row_inb _ (hall (k0_off43 i) (k0_off43_inb i))),
    srcRow c fh (k0_off46 (wordAt c xt (k0_off45 i) (k0_off45_inb i))) (row_inb _ (hall (k0_off45 i) (k0_off45_inb i))),
    srcRow c fh (k0_off48 (wordAt c xt (k0_off47 i) (k0_off47_inb i))) (row_inb _ (hall (k0_off47 i) (k0_off47_inb i))),
    srcRow c fh (k0_off50 (wordAt c xt (k0_off49 i) (k0_off49_inb i))) (row_inb _ (hall (k0_off49 i) (k0_off49_inb i))),
    srcRow c fh (k0_off52 (wordAt c xt (k0_off51 i) (k0_off51_inb i))) (row_inb _ (hall (k0_off51 i) (k0_off51_inb i))),
    srcRow c fh (k0_off54 (wordAt c xt (k0_off53 i) (k0_off53_inb i))) (row_inb _ (hall (k0_off53 i) (k0_off53_inb i))),
    srcRow c fh (k0_off56 (wordAt c xt (k0_off55 i) (k0_off55_inb i))) (row_inb _ (hall (k0_off55 i) (k0_off55_inb i))),
    srcRow c fh (k0_off58 (wordAt c xt (k0_off57 i) (k0_off57_inb i))) (row_inb _ (hall (k0_off57 i) (k0_off57_inb i))),
    srcRow c fh (k0_off60 (wordAt c xt (k0_off59 i) (k0_off59_inb i))) (row_inb _ (hall (k0_off59 i) (k0_off59_inb i))),
    srcRow c fh (k0_off62 (wordAt c xt (k0_off61 i) (k0_off61_inb i))) (row_inb _ (hall (k0_off61 i) (k0_off61_inb i))),
    srcRow c fh (k0_off64 (wordAt c xt (k0_off63 i) (k0_off63_inb i))) (row_inb _ (hall (k0_off63 i) (k0_off63_inb i)))]

/-- What the output block holds after the body: row `y 0` is copy `y 0`'s payload. -/
def blockOf (c : Dev nD) (i : grid0.Coords) (xt : TbBuf (F := F) c) (fh : HbBuf (F := F) c)
    (hall : ∀ (off : Fin 1 → Nat) (h : ∀ a, off a + S1.size a ≤ S2048.size a), (wordAt c xt off h).toNat < 50000) :
    Vec F S32x1x256 .f32 :=
  fun y => pay c i xt fh hall (y 0) (ValueIdx.ix1 (y 2))

/-- The whole-block rectangle of the output window covers every index. -/
theorem out_cover (y : S32x1x256.Idx) : y ∈ (Rect.unit (s := S32x1x256) ![0, 0, 0] ![32, 1, 256] inb_S32x1x256_S32x1x256_0_0_0).set :=
  (View.mem_set_unit_zero (S := S32x1x256) (by funext a; match a with | ⟨0, _⟩ => rfl | ⟨1, _⟩ => rfl | ⟨2, _⟩ => rfl) inb_S32x1x256_S32x1x256_0_0_0 y)

/-! ## The body's run

From the output window's staging buffer and the scratch at any contents, the index table's half at `xt`, the embedding
table whole at `fh`, the thirty-two semaphores at zero and the core owing nothing, the body runs to its end and hands
everything back, the output buffer at `blockOf`: each index word read is below 50000 (`hall`), so every assumed side
condition holds; copy `j` takes read token `2 + j` of the table and row `j` of the scratch's block; its wait gives both
back; the two row blocks joined are the scratch whole, which the final load reads and the store writes out. -/

set_option sl_exec.dmaWindow true in
set_option sl_exec.dmaWindowSet true in
set_option maxHeartbeats 40000000 in
theorem kernelRun (c : Dev nD) (i : grid0.Coords) (arg3 : Memref sig .tc .vmem S32x1x256 .f32) (harg3 : arg3.IsWhole)
    (xt : TbBuf (F := F) c) (fh : HbBuf (F := F) c)
    (hall : ∀ (off : Fin 1 → Nat) (h : ∀ a, off a + S1.size a ≤ S2048.size a), (wordAt c xt off h).toNat < 50000)
    (W : Waits sig Unit) (K : PUnit → sProp 𝕄) :
    iprop((∃ d, owns (c : Thread nD τ) arg3 fullShare d) ∗ (∃ d, owns (c : Thread nD τ) scM fullShare d) ∗ tbPt c xt ∗ hbPt c fh
        ∗ Pipeline.ownSems0 (Ix := Unit) (Name := ℕ) (U := Pipeline.UD sig nD τ) (Lvl := ℕ) (Val := Elt F) (τ := τ) osem c
        ∗ owes (c : Thread nD τ) 0 W
        ∗ (iprop(owns (c : Thread nD τ) arg3 fullShare (blockOf c i xt fh hall) ∗ (∃ d, owns (c : Thread nD τ) scM fullShare d) ∗ tbPt c xt ∗ hbPt c fh
            ∗ Pipeline.ownSems0 (Ix := Unit) (Name := ℕ) (U := Pipeline.UD sig nD τ) (Lvl := ℕ) (Val := Elt F) (τ := τ) osem c
            ∗ (∃ W', owes (c : Thread nD τ) 0 W')) -∗ K ⟨⟩))
      ⊢ wp frame (wpE (defs₀ (F := F)) Variants.none c none) Set.univ (cc0__gather_kernel i tbM htbM hbM (Memref.isWhole_whole _) arg3 harg3 scM (Memref.isWhole_whole _) cc0_scratch1) K := by
  simp only [cc0__gather_kernel_eq_skeleton]; unfold cc0__gather_kernel_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton]
  unfold owns
  rw [ownSems_eq]
  iintro ⟨⟨%d1, %f1, -, H1⟩, ⟨%ds0, %fs0, -, HS⟩, HT, Hh,
    ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, HW, Hk⟩
  -- the table's share as one read token per semaphore, and the scratch as its two row blocks
  ihave Hh' := (Transfers.pointsTo_toks_split (Ix := Unit) (Name := ℕ) (U := Pipeline.UD sig nD τ) (Lvl := ℕ) fullShare 34) $$ Hh
  icases Hh' with ⟨Hh, Ht⟩
  ihave Ht' := (Entails.of_eq (toks_eq c fh)) $$ Ht
  icases Ht' with ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33⟩
  ihave HS' := (sc_split c fs0) $$ HS
  icases HS' with ⟨HSa, HSb⟩
  -- the thirty-two reads, checks and copies, then the thirty-two waits
  sl_exec (disch := first | exact And.intro (row_inb _ (hall _ _)) (row_inb _ (hall _ _)) | exact row_inb _ (hall _ _))
  -- the scratch whole again, for the final load and the store
  ihave HSj := (sc_join c _ _) $$ [HSa HSb]
  · isplitl [HSa]; · iexact HSa
    iexact HSb
  sl_exec
  sl_step
  iapply Hk
  isplitl [H1]
  · iexists _; isplitr; swap; · iexact H1
    ipureintro
    rw [View.read_writes_eq_canon _ _ _ (fun y => ⟨_, List.mem_singleton.mpr rfl, out_cover y⟩),
      View.canon_unit_zero (S := S32x1x256) (by funext a; match a with | ⟨0, _⟩ => rfl | ⟨1, _⟩ => rfl | ⟨2, _⟩ => rfl)]
    sl_unfold_words
    exact final_block c fs0 (pay c i xt fh hall)
  isplitl [HSj]
  · iexists _, _; isplitr; swap; · iexact HSj
    ipureintro; rfl
  isplitl [HT]; · iexact HT
  isplitl [Hh Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33]
  · iapply (Transfers.pointsTo_toks_join (Ix := Unit) (Name := ℕ) (U := Pipeline.UD sig nD τ) (Lvl := ℕ) fullShare 34)
    isplitl [Hh]; · iexact Hh
    iapply (Entails.of_eq (toks_eq c fh).symm)
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    iexact Ht33
  isplitr [HW]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    iexact Hq31
  iexists _; iexact HW

end Cert.Kernel.Hand
end
-- ==== Proof.BitsFrame.lean ====
/-
  The gather kernel's program as a whole: @main reshapes the [8, 256] index array into the 2048-word table the
  region prefetches, runs the region over its 64 grid points (each point the body run of the previous module, writing
  one [32, 1, 256] block of the [2048, 1, 256] result), and reshapes the result twice, to [2048, 256] and to
  [8, 256, 256]. Under the one hypothesis that every index word names a row of the embedding table, every weakly fair
  execution terminates without a fault; the region's result holds the blocks the body leaves, every other buffer what
  the reshapes make of the entry contents, and the two arguments end as launched.
-/
import proofs.«412030_j16183436772039_1_alg».proof.Proof.Gen.Kernel.Launch
import proofs.«412030_j16183436772039_1_alg».proof.Proof.Gen.Kernel.Skeleton
import proofs.«412030_j16183436772039_1_alg».proof.Proof.Halves
import proofs.«412030_j16183436772039_1_alg».proof.Proof.BitsBase
import proofs.«412030_j16183436772039_1_alg».proof.Proof.BitsRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region

@main reshapes the index array into the 2048-word table, enters the region, and reshapes the region's
[2048, 1, 256] result twice. -/

/-- Core `c`'s buffer contents when the region is entered: after the reshape that makes the index table. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, then the two reshapes: it reduces to the region continued by the later lines. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The index table -/

/-- The table's contents at region entry (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so any contents are admissible. -/
abbrev adm : (pcfg0 (F := F)).Adm := ⟨tbl m, trivial⟩
abbrev cfgM : Pipeline.Cfg sig Λ₀ := cfg0 (adm m)

/-- The table's half the region hands the body. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The invariant between grid points

The scratch at some contents, the generator register, the thirty-two semaphores at zero and the embedding table
whole at its entry contents (nothing is in flight between points, and the table is only read), beside the index
table's half. -/

/-- The one unscoped buffer the body moves itself: the embedding table. -/
def H : Finset (Ref sig .tc) := {main_arg1}
theorem H_sub : H ⊆ Pipeline.restRefsP sig pre0 spec0 := by decide

theorem hbmPts_eq (c : Dev nD) :
    (bigSep H (fun b => ((c : Thread nD τ).loc b) ↦{fullShare} V m c b) : sProp 𝕄) = hbPt c (V m c main_arg1) := by
  rw [BI.bigSep_eq_bigSepL_of_eq [main_arg1] (by decide) (by decide)]; rfl

theorem PhiD_eq (c : Dev nD) :
    (Pipeline.ΦD osem spec0 H (V m) c : sProp 𝕄)
      = iprop(iprop((∃ d, owns (c : Thread nD τ) scM fullShare d)) ∗ (∃ r, prngReg c r)
          ∗ Pipeline.ownSems0 (Ix := Unit) (Name := ℕ) (U := Pipeline.UD sig nD τ) (Lvl := ℕ) (Val := Elt F) (τ := τ) osem c
          ∗ hbPt c (V m c main_arg1)) := by
  rw [Pipeline.ΦD_eq, scopedRest0_eq, hbmPts_eq]; simp only [scM, owns_whole]; try rfl

/-! ## The proof data -/

/-- Every index word of the table at region entry names a row of the embedding table. The frame holds under this;
    the certificate's precondition gives it. -/
def InRange : Prop :=
  ∀ (c : Dev nD) (off : Fin 1 → Nat) (h : ∀ a, off a + S1.size a ≤ S2048.size a), (wordAt c (tbl m 0) off h).toNat < 50000

/-- The arrays as the region finds them; after the body at point `t` the output's staging buffer holds the thirty-two
    table rows the point's index words name; the invariant above; nothing owed; full shares. -/
def dats (hR : InRange m) (_ : Fin 1) (c : Dev nD) : Dat τ (Elt F) Unit ℕ (Pipeline.UD sig nD τ) ℕ (cfgM m) c where
  A w := V m c (Pipeline.arrRef spec0 w)
  after w t := match w with
    | ⟨0, _⟩ => blockOf c (grid0.coords t) (tbl m 0) (V m c main_arg1) (hR c)
  Φ _ := iprop(Pipeline.ΦD osem spec0 H (V m) c ∗ Pipeline.ΦT pre0 (tbl m) c)
  q _ := fullShare
  owed _ := 0

theorem A_eq (hR : InRange m) (c : Dev nD) (w : Fin (cfgM m).W) : (dats m hR 0 c).A w = V m c (Pipeline.arrRef spec0 w) := by
  dsimp only [dats]
theorem after0 (hR : InRange m) (c : Dev nD) (t : Fin (cfgM m).N) :
    (dats m hR 0 c).after 0 t = blockOf c (grid0.coords t) (tbl m 0) (V m c main_arg1) (hR c) := by dsimp only [dats]; try rfl

/-! ## The body obligation -/

/-- The output window's current staging memref at point `t`, and the body as the pipeline calls it there. -/
abbrev ms (t : Fin (cfgM m).N) : Memref sig .tc .vmem S32x1x256 .f32 := spec0_0.stage ((cfgM m).slots t 0)
abbrev bodyAt (t : Fin (cfgM m).N) : Prog (TpuEff nD τ sig (Elt F) Λ₀ .tc) PUnit :=
  cc0__gather_kernel (grid0.coords t) (Memref.whole main_v0) (Memref.isWhole_whole _) (Memref.whole main_arg1) (Memref.isWhole_whole _)
    (spec0_0.stage ((cfgM m).slots t 0)) (hstage0_0 (((cfgM m).slots t 0).cast nbuf0_0)) (Memref.whole cc0_scratch0) (Memref.isWhole_whole _) cc0_scratch1

def bodyPre (hR : InRange m) (c : Dev nD) (t : Fin (cfgM m).N) : sProp 𝕄 :=
  iprop((dats m hR 0 c).Φ t.castSucc ∗ (dats m hR 0 c).owesAt () t.castSucc
    ∗ (∃ d, owns (c : Thread nD τ) (ms m t) fullShare ((dats m hR 0 c).before 0 t d)))
def bodyPost (hR : InRange m) (c : Dev nD) (t : Fin (cfgM m).N) : sProp 𝕄 :=
  iprop((dats m hR 0 c).Φ t.succ ∗ (dats m hR 0 c).owesAt () t.succ
    ∗ owns (c : Thread nD τ) (ms m t) fullShare ((dats m hR 0 c).after 0 t))

/-- The body at any point: the invariant hands it the scratch, the semaphores, the embedding table and the index table's
    half, and takes them back as they were; the output's buffer goes in at anything and comes back at the point's block. -/
theorem sound_body (hR : InRange m) (c : Dev nD) (t : Fin (cfgM m).N) :
    bodyPre m hR c t ⊢ wp frame (wpE (defs₀ (F := F)) Variants.none c none) Set.univ (bodyAt m t) (fun _ => bodyPost m hR c t) := by
  unfold bodyPre bodyPost bodyAt
  rw [show (dats m hR 0 c).Φ t.succ = (dats m hR 0 c).Φ t.castSucc from rfl, after0]
  rw [show (dats m hR 0 c).Φ t.castSucc = iprop(Pipeline.ΦD osem spec0 H (V m) c ∗ Pipeline.ΦT pre0 (tbl m) c) from rfl, PhiD_eq, PhiT_eq]
  unfold Dat.owesAt Pipeline.owesWithin
  rw [show (dats m hR 0 c).owed t.castSucc = 0 from rfl, show (dats m hR 0 c).owed t.succ = 0 from rfl]
  iintro ⟨⟨⟨HS, Hg, Hq, Hh⟩, HT⟩, ⟨%W, -, HW⟩, ⟨%d0, H0⟩⟩
  iapply (kernelRun c (grid0.coords t) _ _ (tbl m 0) (V m c main_arg1) (hR c) W _)
  isplitl [H0]; · iexists _; iexact H0
  isplitl [HS]; · iexact HS
  isplitl [HT]; · iexact HT
  isplitl [Hh]; · iexact Hh
  isplitl [Hq]; · iexact Hq
  isplitl [HW]; · iexact HW
  iintro ⟨H0, HS, HT, Hh, Hq, ⟨%W', HW'⟩⟩
  isplitl [HS Hg Hq Hh HT]
  · isplitr [HT]
    · isplitl [HS]; · iexact HS
      isplitl [Hg]; · iexact Hg
      isplitl [Hq]; · iexact Hq
      iexact Hh
    · iexact HT
  isplitl [HW']
  · iexists W'; isplitr; · ipureintro; exact fun _ _ => Or.inl trivial
    iexact HW'
  iexact H0

theorem body_obligation (hR : InRange m) (c : Dev nD) : BodyObligation (dats (F := F) m hR 0 c) (defs₀ (F := F)) Variants.none () Set.univ := fun t => by
  rw [bigSep_W0, bigSep_W0]
  exact sound_body m hR c t

/-! ## The lines after the region -/

/-- The two reshapes touch the region's result and their own results: no table, not the embedding table. -/
theorem sfx_sub : ∀ ops ∈ ([hostOps1] : List (List (HloOp τ sig (Elt F)))), ∀ op ∈ ops,
    op.bufs ⊆ Pipeline.tailRefsBut sig pre0 spec0 H := by
  intro ops hops op hop
  simp only [List.mem_cons, List.mem_nil_iff, or_false] at hops
  rcases hops with rfl
  refine Pipeline.sub_tailRefsBut pre0 spec0 H op ((List.forall_iff_forall_mem.mp hostOps1_sub) op hop) ?_ ?_
  · simp only [hostOps1, List.mem_cons, List.mem_nil_iff, or_false] at hop
    rcases hop with rfl | rfl <;> intro k <;> fin_cases k <;>
      simp only [StableHlo.reshape_bufs, Finset.mem_insert, Finset.mem_singleton, not_or] <;>
      exact ⟨StableHlo.devRef_ne_of_ne (by decide), StableHlo.devRef_ne_of_ne (by decide)⟩
  · simp only [hostOps1, List.mem_cons, List.mem_nil_iff, or_false] at hop
    rcases hop with rfl | rfl <;> intro b hb <;>
      (simp only [H, Finset.mem_singleton] at hb; subst hb
       simp only [StableHlo.reshape_bufs, Finset.mem_insert, Finset.mem_singleton, not_or]
       exact ⟨StableHlo.devRef_ne_of_ne (by decide), StableHlo.devRef_ne_of_ne (by decide)⟩)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes only its own result, which is not the region's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-! ## The run -/

set_option backward.isDefEq.respectTransparency.types false in
/-- Under `InRange`, every weakly fair execution of @main terminates; the region's result array holds what the proof
    data computes block by block, and every other unscoped buffer what the two reshapes leave from the entry contents. -/
theorem run_main (hR : InRange m) : θ_run defs (onTc (τ := τ) (main (F := F))) (s₀ m ρ)
    (Pipeline.FramePost (Pipeline.pin pcfgs fun _ => adm m) (dats m hR) 0 (Pipeline.afterTail pcfgs (fun _ => adm m) (dats m hR) 0 (V0 m) [hostOps1])) :=
  Pipeline.θ_run_frameP_dma_around pcfgs (fun _ => adm m) (dats m hR) (0 : Fin 1) launch0 osem defs₀ Variants.none ownSemFacts H H_sub m ρ main
    (hbody := fun c => (body_obligation m hR c).loose) (hshare := fun c => (dats m hR 0 c).share_full fun _ => rfl)
    (howed := fun _ _ => rfl) (V₀ := V0 m) (opss := [hostOps1]) (hsub := sfx_sub) (hfresh := sfx_fresh) (hkeep := sfx_keeps)
    (hmain := hmain m Variants.none) (hA := A_eq m hR) (hpf := fun c k => V_pre m c k)
    (hin := fun _ => .rfl) (hout := fun c => (show iprop(Pipeline.ΦD osem spec0 H (V m) c ∗ Pipeline.ΦT pre0 (tbl m) c) ⊢ Pipeline.ΦD osem spec0 H (V m) c from by
      iintro ⟨HD, -⟩; iexact HD))

/-! ## The frame: the arguments end as launched

No line of @main writes an argument array, and no window of the region stages one, so the run's post read at the two
arguments is their launch contents. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

theorem W_main_arg0 (hR : InRange m) (c : Dev nD) :
    Pipeline.afterTail pcfgs (fun _ => adm m) (dats m hR) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (hR : InRange m) (c : Dev nD) :
    Pipeline.afterTail pcfgs (fun _ => adm m) (dats m hR) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The frame claim's post, under `InRange`. -/
theorem frame (hR : InRange m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (show ∀ w : Fin 1, Pipeline.arrRef spec0 w ≠ main_arg0 from by decide))).trans (W_main_arg0 m hR c),
     ((h c).2 main_arg1 (Pipeline.mem_restRefs_of main_arg1 (by decide) (show ∀ w : Fin 1, Pipeline.arrRef spec0 w ≠ main_arg1 from by decide))).trans (W_main_arg1 m hR c)⟩) (run_main m ρ hR)

end Cert.Kernel.Hand
end
-- ==== Proof.BitsPre.lean ====
/-
  The hypothesis the kernel's frame runs under, from a bound on the index array. The region prefetches a table of
  2048 index words; @main makes that table, before the region is entered, by reshaping the [8, 256] index array, and a
  reshape only renumbers: the table's word at position q is the index array's word at the index with the same
  row-major position. The body reads the table one word at a time, through a one-word rectangle of the whole table,
  and what it reads is the table's contents at the index that rectangle names. So every word the body can read is
  some word of the index array, and a bound that holds for every word of the index array holds for it.
-/
import proofs.«412030_j16183436772039_1_alg».proof.Proof.BitsFrame
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The index table at region entry is the index array reshaped to 2048 words: the one operation @main runs before
    the region writes the table's buffer with exactly that, from the launch contents of the index array. -/
private theorem tbl_eq : (tbl m 0 : S2048.Idx → Elt F .i32)
    = shapeCast S2048 (m (((0 : Dev nD) : Thread nD τ).loc main_arg0)) shapeCasts_S8x256_S2048 := by
  show StableHlo.after hostOps0 (fun b => m ((0 : Dev nD), b)) (Proc.devRef .tc main_v0) = _
  after_results
  rfl

/-- Every index word below 50000 puts every word of the table below 50000. -/
theorem inRange_of_idx (hidx : ∀ (c : Dev nD) (p : S8x256.Idx), (m ((c : Thread nD τ).loc main_arg0) p).toNat < 50000) : InRange m := by
  intro c off h
  -- the word read through the one-word rectangle is the table's contents at the index the rectangle names
  show ((tbl m 0 : S2048.Idx → Elt F .i32) _).toNat < 50000
  -- which is the index array's contents at the index of the same row-major position
  rw [tbl_eq]
  exact hidx 0 _

end Cert.Kernel.Hand
end
-- ==== Proof.KBase.lean ====
/-
  The gather kernel's body, seen from its memory: the index table in scalar memory, the embedding table left in
  HBM, a 32 × 256 scratch and thirty-two DMA semaphores. Each grid point reads thirty-two index words, starts one
  copy per word — row (word) of the table into row j of the scratch, on semaphore j —, waits for all of them, and
  stores the scratch into its output block. This module names those operands, the resources the body holds while
  the copies fly (the semaphores one by one at zero; the table's share cut into one read token per semaphore, since
  all thirty-two copies read it at once; the scratch as its upper and lower sixteen rows), and what the scratch holds
  afterwards as a term over the copies' payloads.
-/
import proofs.«412030_j16183436772039_1_alg».proof.Proof.Gen.KernelIdeal.Launch
import proofs.«412030_j16183436772039_1_alg».proof.Proof.Gen.KernelIdeal.Skeleton
import proofs.«412030_j16183436772039_1_alg».proof.Proof.Halves
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## What the body is handed besides its output window

The index table (in scalar memory, read-only: the region keeps the other half of it), the embedding table left
in HBM, the 32 × 256 scratch the rows are copied into, and thirty-two DMA semaphores, one per copy. -/

abbrev tbM : Memref sig .tc .smem S2048 .i32 := Memref.whole main_v0
abbrev htbM : (tbM).IsWhole := Memref.isWhole_whole _
abbrev hbM : Memref sig .tc .hbm S50000x256 .f32 := Memref.whole main_arg1
abbrev scM : Memref sig .tc .vmem S32x256 .f32 := Memref.whole cc0_scratch0
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f
abbrev HbBuf (c : Dev nD) : Type := Buf (Elt F) (hbM.view.loc (c : Thread nD τ))
abbrev hbPt (c : Dev nD) (f : HbBuf (F := F) c) : sProp 𝕄 := hbM.view.loc (c : Thread nD τ) ↦{fullShare} f

/-- The index word the body reads through a one-word rectangle of the table. -/
abbrev wordAt (c : Dev nD) (xt : TbBuf (F := F) c) (off : Fin 1 → Nat) (h : ∀ a, off a + S1.size a ≤ S2048.size a) : Elt F .i32 :=
  tbM.view.readAt (Elt F) (Rect.unit (s := S2048) off S1.size h).toLoadRect xt (Shape.Idx.first (numel1_S1.symm ▸ Nat.one_pos))

/-- A word below 50000 names a row of the embedding table: the one-row rectangle at it lies inside the table.
    Every side condition the body assumes of an index word is this fact, once or twice. -/
theorem row_inb (v : BitVec 32) (h : v.toNat < 50000) : ∀ a, (![v.toNat, 0] : Fin 2 → Nat) a + S1x256.size a ≤ S50000x256.size a := by
  intro a
  match a with
  | ⟨0, _⟩ => show v.toNat + 1 ≤ 50000; omega
  | ⟨1, _⟩ => show 0 + 256 ≤ 256; omega

/-- The body's own semaphores: cells 2 to 33 of the core's DMA semaphores (cells 0 and 1 are the output window's). -/
abbrev osem : Fin 32 → SemLoc sig := fun j =>
  (![SemLoc.dma 2, SemLoc.dma 3, SemLoc.dma 4, SemLoc.dma 5, SemLoc.dma 6, SemLoc.dma 7, SemLoc.dma 8, SemLoc.dma 9,
     SemLoc.dma 10, SemLoc.dma 11, SemLoc.dma 12, SemLoc.dma 13, SemLoc.dma 14, SemLoc.dma 15, SemLoc.dma 16, SemLoc.dma 17,
     SemLoc.dma 18, SemLoc.dma 19, SemLoc.dma 20, SemLoc.dma 21, SemLoc.dma 22, SemLoc.dma 23, SemLoc.dma 24, SemLoc.dma 25,
     SemLoc.dma 26, SemLoc.dma 27, SemLoc.dma 28, SemLoc.dma 29, SemLoc.dma 30, SemLoc.dma 31, SemLoc.dma 32, SemLoc.dma 33] : Fin 32 → SemLoc sig) j
theorem ownSemFacts : Pipeline.OwnSemFacts spec0 osem := by decide

/-- One of those cells at zero; one read token of the embedding table (a transfer out of the table lends the token its
    cell's number indexes, so that thirty-two may read the table at once); what is left of the table's share. -/
abbrev cell (c : Dev nD) (k : Fin 34) : sProp 𝕄 := semVal ((c : Thread nD τ), SemLoc.dma (sig := sig) k) 0
abbrev tok (c : Dev nD) (fh : HbBuf (F := F) c) (k : Fin 34) : sProp 𝕄 := hbM.view.loc (c : Thread nD τ) ↦{Transfers.shareTok fullShare 34 k} fh
abbrev hbRest (c : Dev nD) (fh : HbBuf (F := F) c) : sProp 𝕄 := hbM.view.loc (c : Thread nD τ) ↦{Transfers.shareDrop fullShare 34} fh

/-- The cells at zero, listed. -/
theorem ownSems_eq (c : Dev nD) :
    (Pipeline.ownSems0 (Ix := Unit) (Name := ℕ) (U := Pipeline.UD sig nD τ) (Lvl := ℕ) (Val := Elt F) (τ := τ) osem c : sProp 𝕄)
      = iprop(cell c 2 ∗ cell c 3 ∗ cell c 4 ∗ cell c 5 ∗ cell c 6 ∗ cell c 7 ∗ cell c 8 ∗ cell c 9 ∗ cell c 10 ∗ cell c 11 ∗ cell c 12 ∗ cell c 13
        ∗ cell c 14 ∗ cell c 15 ∗ cell c 16 ∗ cell c 17 ∗ cell c 18 ∗ cell c 19 ∗ cell c 20 ∗ cell c 21 ∗ cell c 22 ∗ cell c 23 ∗ cell c 24 ∗ cell c 25
        ∗ cell c 26 ∗ cell c 27 ∗ cell c 28 ∗ cell c 29 ∗ cell c 30 ∗ cell c 31 ∗ cell c 32 ∗ cell c 33) := by
  rw [Pipeline.ownSems0_eq_of_list c osem [0, 1, 2, 3, 4, 5, 6, 7, 8, 9, 10, 11, 12, 13, 14, 15, 16, 17, 18, 19, 20, 21, 22, 23, 24, 25, 26, 27, 28, 29, 30, 31]
    (by decide) (by decide)]
  rfl

/-- The table's tokens, listed: the whole share is the remainder and the thirty-four tokens. -/
theorem toks_eq (c : Dev nD) (fh : HbBuf (F := F) c) :
    (bigSep Finset.univ (fun k : Fin 34 => tok c fh k) : sProp 𝕄)
      = iprop(tok c fh 0 ∗ tok c fh 1 ∗ tok c fh 2 ∗ tok c fh 3 ∗ tok c fh 4 ∗ tok c fh 5 ∗ tok c fh 6 ∗ tok c fh 7 ∗ tok c fh 8 ∗ tok c fh 9 ∗ tok c fh 10 ∗ tok c fh 11
        ∗ tok c fh 12 ∗ tok c fh 13 ∗ tok c fh 14 ∗ tok c fh 15 ∗ tok c fh 16 ∗ tok c fh 17 ∗ tok c fh 18 ∗ tok c fh 19 ∗ tok c fh 20 ∗ tok c fh 21 ∗ tok c fh 22 ∗ tok c fh 23
        ∗ tok c fh 24 ∗ tok c fh 25 ∗ tok c fh 26 ∗ tok c fh 27 ∗ tok c fh 28 ∗ tok c fh 29 ∗ tok c fh 30 ∗ tok c fh 31 ∗ tok c fh 32 ∗ tok c fh 33) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33]
    (by decide) (by decide)]
  rfl

/-- The scratch's upper and lower sixteen rows, each held by its own elements. -/
abbrev scLo (c : Dev nD) (f : Buf (Elt F) (scM.view.loc (c : Thread nD τ))) : sProp 𝕄 :=
  scM.view.loc (c : Thread nD τ) ↦[scM.view.setOn Cert.Halves.lo.set]{fullShare} f
abbrev scHi (c : Dev nD) (f : Buf (Elt F) (scM.view.loc (c : Thread nD τ))) : sProp 𝕄 :=
  scM.view.loc (c : Thread nD τ) ↦[scM.view.setOn Cert.Halves.hi.set]{fullShare} f

/-- The scratch whole is its two row blocks. -/
theorem sc_split (c : Dev nD) (f : Buf (Elt F) (scM.view.loc (c : Thread nD τ))) :
    (scM.view.loc (c : Thread nD τ) ↦[scM.view.set]{fullShare} f : sProp 𝕄) ⊢ iprop(scLo c f ∗ scHi c f) := by
  rw [← Cert.Halves.setOn_cover scM.view]
  exact (pointsTo_union (Cert.Halves.setOn_disj scM.view)).1

/-- Two row blocks at any contents join to the scratch whole at the contents that agree with each on its block. -/
theorem sc_join (c : Dev nD) (f g : Buf (Elt F) (scM.view.loc (c : Thread nD τ))) :
    iprop(scLo c f ∗ scHi c g) ⊢ (scM.view.loc (c : Thread nD τ) ↦[scM.view.set]{fullShare} ((scM.view.setOn Cert.Halves.hi.set).piecewise g f) : sProp 𝕄) := by
  rw [← Cert.Halves.setOn_cover scM.view]
  exact pointsTo_join (Cert.Halves.setOn_disj scM.view)

/-! ## What the scratch holds after the thirty-two copies

Copy `k` writes its payload through the view of the scratch's row `k`. The upper sixteen rows are written one over the
other starting from the scratch's old contents, and so are the lower sixteen; the scratch then holds the lower nest on
the lower row block and the upper nest elsewhere. -/

/-- What the scratch may hold, on core `c`. -/
abbrev ScBuf (c : Dev nD) : Type := Buf (Elt F) (scM.view.loc (c : Thread nD τ))

/-- Row `k` of the scratch as a 256-element memref. -/
abbrev rowM (k : Nat) (hk : ∀ a, (![k, 0] : Fin 2 → Nat) a + S1x256.size a ≤ S32x256.size a) : Memref sig .tc .vmem S256 .f32 :=
  (scM.slice (Rect.unit (s := S32x256) ![k, 0] S1x256.size hk) (fun _ => rfl)).squeeze S256 squeezes_S1x256_S256

/-- A payload written whole through row `k`'s view over `base`. -/
abbrev wr (c : Dev nD) (k : Nat) (hk : ∀ a, (![k, 0] : Fin 2 → Nat) a + S1x256.size a ≤ S32x256.size a)
    (base : ScBuf (F := F) c) (w : S256.Idx → Elt F .f32) : ScBuf (F := F) c :=
  View.write (Elt F) (rowM k hk).view base w Finset.univ

/-- Rows 0 to 15 written in order over `fs0`; rows 16 to 31 likewise. -/
def nestLo (c : Dev nD) (fs0 : ScBuf (F := F) c) (p : Fin 32 → S256.Idx → Elt F .f32) : ScBuf (F := F) c :=
  wr c 15 inb_S32x256_S1x256_15_0 (wr c 14 inb_S32x256_S1x256_14_0 (wr c 13 inb_S32x256_S1x256_13_0 (wr c 12 inb_S32x256_S1x256_12_0 (wr c 11 inb_S32x256_S1x256_11_0 (wr c 10 inb_S32x256_S1x256_10_0 (wr c 9 inb_S32x256_S1x256_9_0 (wr c 8 inb_S32x256_S1x256_8_0
    (wr c 7 inb_S32x256_S1x256_7_0 (wr c 6 inb_S32x256_S1x256_6_0 (wr c 5 inb_S32x256_S1x256_5_0 (wr c 4 inb_S32x256_S1x256_4_0 (wr c 3 inb_S32x256_S1x256_3_0 (wr c 2 inb_S32x256_S1x256_2_0 (wr c 1 inb_S32x256_S1x256_1_0 (wr c 0 inb_S32x256_S1x256_0_0 fs0
    (p 0)) (p 1)) (p 2)) (p 3)) (p 4)) (p 5)) (p 6)) (p 7)) (p 8)) (p 9)) (p 10)) (p 11)) (p 12)) (p 13)) (p 14)) (p 15)
def nestHi (c : Dev nD) (fs0 : ScBuf (F := F) c) (p : Fin 32 → S256.Idx → Elt F .f32) : ScBuf (F := F) c :=
  wr c 31 inb_S32x256_S1x256_31_0 (wr c 30 inb_S32x256_S1x256_30_0 (wr c 29 inb_S32x256_S1x256_29_0 (wr c 28 inb_S32x256_S1x256_28_0 (wr c 27 inb_S32x256_S1x256_27_0 (wr c 26 inb_S32x256_S1x256_26_0 (wr c 25 inb_S32x256_S1x256_25_0 (wr c 24 inb_S32x256_S1x256_24_0
    (wr c 23 inb_S32x256_S1x256_23_0 (wr c 22 inb_S32x256_S1x256_22_0 (wr c 21 inb_S32x256_S1x256_21_0 (wr c 20 inb_S32x256_S1x256_20_0 (wr c 19 inb_S32x256_S1x256_19_0 (wr c 18 inb_S32x256_S1x256_18_0 (wr c 17 inb_S32x256_S1x256_17_0 (wr c 16 inb_S32x256_S1x256_16_0 fs0
    (p 16)) (p 17)) (p 18)) (p 19)) (p 20)) (p 21)) (p 22)) (p 23)) (p 24)) (p 25)) (p 26)) (p 27)) (p 28)) (p 29)) (p 30)) (p 31)

/-- The scratch after all thirty-two copies. -/
def nest (c : Dev nD) (fs0 : ScBuf (F := F) c) (p : Fin 32 → S256.Idx → Elt F .f32) : ScBuf (F := F) c :=
  (scM.view.setOn Cert.Halves.hi.set).piecewise (nestHi c fs0 p) (nestLo c fs0 p)

/-- The whole-scratch rectangle the body loads through. -/
abbrev scWhole : Rect S32x256 := Rect.unit (s := S32x256) ![0, 0] ![32, 256] inb_S32x256_S32x256_0_0

/-! ## What each copy carries

Copy `j` reads the row of the embedding table that the `j`-th index word of the grid point names. -/

/-- A row of the table read through the one-row window at offsets `off`. -/
abbrev srcRow (c : Dev nD) (fh : HbBuf (F := F) c) (off : Fin 2 → Nat) (h : ∀ a, off a + S1x256.size a ≤ S50000x256.size a) : S256.Idx → Elt F .f32 :=
  ReadAs.same.apply (View.read (Elt F) ((hbM.slice (Rect.unit (s := S50000x256) off S1x256.size h) (fun _ => rfl)).squeeze S256 squeezes_S1x256_S256).view fh)

end Cert.KernelIdeal.Hand
end
-- ==== Proof.KRows.lean ====
/-
  What the scratch holds after the thirty-two row copies, read entry by entry. Copy k writes its 256-element payload
  through the view of the scratch's row k: the one-row rectangle at offsets (k, 0), with its unit axis dropped. That view
  places its column d at the scratch's index (k, d), so a write through it puts the payload's entry d at (k, d) and leaves
  every index whose row is not k as it was. Rows lo, lo+1, …, lo+n−1 written in this order over any contents therefore
  leave, at an index (j, d) with lo ≤ j < lo+n, entry d of payload j — whatever the contents were before: the later rows'
  writes pass (j, d) by, row j's own write sets it, and the earlier ones are overwritten. The scratch after all the copies
  is the nest over rows 16 to 31 on the lower row block and the nest over rows 0 to 15 elsewhere, and (j, d) lies in the
  lower block exactly when 16 ≤ j; either way the entry at (j, d) is payload j's entry d. The body then loads the scratch
  whole (the rectangle at zero offsets of the scratch's own sizes reads the contents) and reshapes [32, 256] to
  [32, 1, 256], which keeps row-major position: index (a, 0, b) reads (a, b).
-/
import proofs.«412030_j16183436772039_1_alg».proof.Proof.KBase
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (Pipeline.UD sig nD τ) ℕ

/-! ## One row's view inside the scratch -/

/-- The one-row rectangle at row `k` lies inside the 32 × 256 scratch. -/
private abbrev RowInb (k : Nat) : Prop := ∀ a, (![k, 0] : Fin 2 → Nat) a + S1x256.size a ≤ S32x256.size a

/-- It does for every row number below 32. -/
private theorem rowInb (k : Nat) (h : k < 32) : RowInb k := by
  intro a
  match a with
  | ⟨0, _⟩ => show k + 1 ≤ 32; omega
  | ⟨1, _⟩ => show 0 + 256 ≤ 256; omega

/-- Row `k`'s view places its column `d` at the scratch's index (k, d). Dropping the unit axis matches column `d` of the
    256-vector with (0, d) of the 1 × 256 row (both have row-major position d), and the rectangle at offsets (k, 0) with unit
    strides sends (0, d) to (k + 0, 0 + d). -/
private theorem rowM_emb (k : Nat) (hk : RowInb k) (j : Fin 32) (hj : j.val = k) (d : Fin 256) :
    (rowM k hk).view.emb (ix1 d) = scM.view.emb (ix2 j d) := by
  have hsq : Shape.reshapeEquiv (squeezes_S1x256_S256.numel_eq) (ix1 d) = (ix2 (0 : Fin 1) d : S1x256.Idx) :=
    Shape.reshapeEquiv_eq_of_rowMajor _ (by
      rw [Shape.rowMajor_val_two, Shape.rowMajor_val_one]
      show 0 * 256 + d.val = d.val
      omega)
  show scM.view.emb ((Rect.unit (s := S32x256) ![k, 0] S1x256.size hk).emb (Shape.reshapeEquiv _ (ix1 d))) = _
  rw [hsq]
  refine congrArg scM.view.emb (funext fun a => Fin.ext ?_)
  match a with
  | ⟨0, _⟩ => show k + 1 * 0 = j.val; omega
  | ⟨1, _⟩ => show 0 + 1 * d.val = d.val; omega

/-- SAME ROW: after a payload is written whole through row `k`'s view, the scratch reads the payload's entry `d` at (k, d):
    (k, d) is the element under the view's index `d`, and a write sets the element under every index it writes. -/
private theorem read_wr_same (c : Dev nD) (k : Nat) (hk : RowInb k) (base : ScBuf (F := F) c) (w : S256.Idx → Elt F .f32)
    (j : Fin 32) (hj : j.val = k) (d : Fin 256) :
    scM.view.read (Elt F) (wr c k hk base w) (ix2 j d) = w (ix1 d) := by
  rw [View.read_apply, ← rowM_emb k hk j hj d]
  unfold wr
  rw [View.write_emb_of_mem _ _ (Finset.mem_univ _), cast_cast, cast_eq]

/-- OTHER ROW: at (j, d) with j ≠ k the write changes nothing. Were (j, d) an element under row `k`'s view, it would be
    (k, d') for some column d' — the scratch's own placement of indices is injective — so j would be k. -/
private theorem read_wr_other (c : Dev nD) (k : Nat) (hk : RowInb k) (base : ScBuf (F := F) c) (w : S256.Idx → Elt F .f32)
    (j : Fin 32) (hj : j.val ≠ k) (d : Fin 256) :
    scM.view.read (Elt F) (wr c k hk base w) (ix2 j d) = scM.view.read (Elt F) base (ix2 j d) := by
  refine View.read_congr_at (ix2 j d) (View.write_of_not_mem _ _ _ ?_)
  intro hm
  obtain ⟨x, -, hx⟩ := Finset.mem_map.mp hm
  have hk32 : k < 32 := by have h0 : k + 1 ≤ 32 := hk 0; omega
  have e1 : (rowM k hk).view.emb x = scM.view.emb (ix2 (⟨k, hk32⟩ : Fin 32) (x 0)) :=
    (congrArg (rowM k hk).view.emb (eq_ix1 (n := 256) x)).trans (rowM_emb k hk ⟨k, hk32⟩ rfl (x 0))
  have h0 : (⟨k, hk32⟩ : Fin 32) = j := congrFun (scM.view.emb.injective (e1.symm.trans hx)) 0
  exact hj (congrArg Fin.val h0).symm

/-! ## A run of consecutive rows written in order -/

/-- Rows lo, lo+1, …, lo+n−1 written in that order over `fs0`, row `k` with payload `p k`. -/
private def rowsFrom (c : Dev nD) (fs0 : ScBuf (F := F) c) (p : Fin 32 → S256.Idx → Elt F .f32) (lo : Nat) :
    (n : Nat) → lo + n ≤ 32 → ScBuf (F := F) c
  | 0, _ => fs0
  | n + 1, h => wr c (lo + n) (rowInb (lo + n) (by omega)) (rowsFrom c fs0 p lo n (by omega)) (p ⟨lo + n, by omega⟩)

/-- At (j, d) with lo ≤ j < lo+n the run leaves payload `j`'s entry `d`. By induction on the number of rows: the last row
    written is lo+n; if it is j, that write sets (j, d) to the payload; if not, it leaves (j, d) alone and j is among the
    n rows written before. -/
private theorem rowsFrom_apply (c : Dev nD) (fs0 : ScBuf (F := F) c) (p : Fin 32 → S256.Idx → Elt F .f32) (lo : Nat) :
    ∀ (n : Nat) (h : lo + n ≤ 32) (j : Fin 32) (d : Fin 256), lo ≤ j.val → j.val < lo + n →
      scM.view.read (Elt F) (rowsFrom c fs0 p lo n h) (ix2 j d) = p j (ix1 d)
  | 0, _, j, d, h1, h2 => by omega
  | n + 1, h, j, d, h1, h2 => by
    by_cases e : j.val = lo + n
    · refine (read_wr_same c (lo + n) _ _ _ j e d).trans ?_
      exact congrArg (fun t => p t (ix1 d)) (Fin.ext e.symm)
    · refine (read_wr_other c (lo + n) _ _ _ j e d).trans ?_
      exact rowsFrom_apply c fs0 p lo n _ j d h1 (by omega)

/-- The two literal nests are such runs: sixteen rows from row 0, and sixteen from row 16. -/
private theorem nestLo_eq (c : Dev nD) (fs0 : ScBuf (F := F) c) (p : Fin 32 → S256.Idx → Elt F .f32) :
    nestLo c fs0 p = rowsFrom c fs0 p 0 16 (by omega) := rfl

private theorem nestHi_eq (c : Dev nD) (fs0 : ScBuf (F := F) c) (p : Fin 32 → S256.Idx → Elt F .f32) :
    nestHi c fs0 p = rowsFrom c fs0 p 16 16 (by omega) := rfl

/-! ## The scratch after the copies, and the block the body stores -/

/-- Entry (j, d) of the scratch after the copies is entry d of copy j's payload: every row is overwritten, whatever the scratch held before. -/
theorem nest_apply (c : Dev nD) (fs0 : ScBuf (F := F) c) (p : Fin 32 → S256.Idx → Elt F .f32) (j : Fin 32) (d : Fin 256) :
    scM.view.read (Elt F) (nest c fs0 p) (ValueIdx.ix2 j d) = p j (ValueIdx.ix1 d) := by
  unfold nest
  by_cases h16 : 16 ≤ j.val
  · -- (j, d) is in the lower row block: the contents there are the nest over rows 16 to 31
    have hm : scM.view.emb (ix2 j d) ∈ scM.view.setOn Cert.Halves.hi.set :=
      scM.view.mem_setOn.mpr ((Cert.Halves.mem_hi (ix2 j d)).mpr h16)
    refine (View.read_congr_at (ix2 j d) (Finset.piecewise_eq_of_mem _ _ _ hm)).trans ?_
    rw [nestHi_eq]
    exact rowsFrom_apply c fs0 p 16 16 _ j d h16 (by have := j.isLt; omega)
  · -- (j, d) is not: the contents there are the nest over rows 0 to 15
    have hm : scM.view.emb (ix2 j d) ∉ scM.view.setOn Cert.Halves.hi.set :=
      fun h => h16 ((Cert.Halves.mem_hi (ix2 j d)).mp (scM.view.mem_setOn.mp h))
    refine (View.read_congr_at (ix2 j d) (Finset.piecewise_eq_of_notMem _ _ _ hm)).trans ?_
    rw [nestLo_eq]
    exact rowsFrom_apply c fs0 p 0 16 _ j d (Nat.zero_le _) (by omega)

/-- The block the body stores: the scratch loaded whole and reshaped to [32, 1, 256] holds payload (y 0) at column (y 2). -/
theorem final_block (c : Dev nD) (fs0 : ScBuf (F := F) c) (p : Fin 32 → S256.Idx → Elt F .f32) :
    k0_pay1 (F := F) (View.readAt (Elt F) scM.view scWhole.toLoadRect (nest c fs0 p)) = fun y => p (y 0) (ValueIdx.ix1 (y 2)) := by
  funext y
  unfold k0_pay1
  -- the reshape keeps row-major position: (y 0, y 1, y 2) with y 1 = 0 has the position of (y 0, y 2)
  refine (shapeCast_apply _ shapeCasts_S32x256_S32x1x256 y (ix2 (y 0) (y 2)) ?_).trans ?_
  · rw [Shape.rowMajor_val_three, Shape.rowMajor_val_two]
    show (y 0).val * 256 + (y 2).val = ((y 0).val * 1 + (y 1).val) * 256 + (y 2).val
    have h1 : (y 1).val < 1 := (y 1).isLt
    omega
  · -- the whole-scratch load at zero offsets reads the contents
    rw [View.readAt_eq_ld, View.ld_unit_zero (funext fun a => by match a with | ⟨0, _⟩ => rfl | ⟨1, _⟩ => rfl)]
    exact nest_apply c fs0 p (y 0) (y 2)

end Cert.KernelIdeal.Hand
end
-- ==== Proof.KRun.lean ====
/-
  The gather kernel's body run at one grid point. The point reads thirty-two index words from the table; each word,
  being below 50000, names a row of the embedding table; copy j moves that row into row j of the scratch on semaphore
  j; after all thirty-two waits the scratch holds the thirty-two rows whatever it held before, and the body stores it,
  reshaped to [32, 1, 256], into its output block. So the block's row j is the table's row named by the point's j-th
  index word — `blockOf` —, and the body hands back everything it was given.
-/
import proofs.«412030_j16183436772039_1_alg».proof.Proof.Gen.KernelIdeal.Launch
import proofs.«412030_j16183436772039_1_alg».proof.Proof.Gen.KernelIdeal.Skeleton
import proofs.«412030_j16183436772039_1_alg».proof.Proof.Halves
import proofs.«412030_j16183436772039_1_alg».proof.Proof.KBase
import proofs.«412030_j16183436772039_1_alg».proof.Proof.KRows
import Idealize.ShloMosaic.Lib.ValueIdx
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The copies' payloads and the block the body leaves -/

/-- Copy `j`'s payload at grid point `i`: the row of the embedding table that the `j`-th index word read at the point
    names. (The words are below 50000 by `hall`, which is what places each one-row window inside the table.) -/
def pay (c : Dev nD) (i : grid0.Coords) (xt : TbBuf (F := F) c) (fh : HbBuf (F := F) c)
    (hall : ∀ (off : Fin 1 → Nat) (h : ∀ a, off a + S1.size a ≤ S2048.size a), (wordAt c xt off h).toNat < 50000) :
    Fin 32 → S256.Idx → Elt F .f32 :=
  ![
    srcRow c fh (k0_off2 (wordAt c xt (k0_off1 i) (k0_off1_inb i))) (row_inb _ (hall (k0_off1 i) (k0_off1_inb i))),
    srcRow c fh (k0_off4 (wordAt c xt (k0_off3 i) (k0_off3_inb i))) (row_inb _ (hall (k0_off3 i) (k0_off3_inb i))),
    srcRow c fh (k0_off6 (wordAt c xt (k0_off5 i) (k0_off5_inb i))) (row_inb _ (hall (k0_off5 i) (k0_off5_inb i))),
    srcRow c fh (k0_off8 (wordAt c xt (k0_off7 i) (k0_off7_inb i))) (row_inb _ (hall (k0_off7 i) (k0_off7_inb i))),
    srcRow c fh (k0_off10 (wordAt c xt (k0_off9 i) (k0_off9_inb i))) (row_inb _ (hall (k0_off9 i) (k0_off9_inb i))),
    srcRow c fh (k0_off12 (wordAt c xt (k0_off11 i) (k0_off11_inb i))) (row_inb _ (hall (k0_off11 i) (k0_off11_inb i))),
    srcRow c fh (k0_off14 (wordAt c xt (k0_off13 i) (k0_off13_inb i))) (row_inb _ (hall (k0_off13 i) (k0_off13_inb i))),
    srcRow c fh (k0_off16 (wordAt c xt (k0_off15 i) (k0_off15_inb i))) (row_inb _ (hall (k0_off15 i) (k0_off15_inb i))),
    srcRow c fh (k0_off18 (wordAt c xt (k0_off17 i) (k0_off17_inb i))) (row_inb _ (hall (k0_off17 i) (k0_off17_inb i))),
    srcRow c fh (k0_off20 (wordAt c xt (k0_off19 i) (k0_off19_inb i))) (row_inb _ (hall (k0_off19 i) (k0_off19_inb i))),
    srcRow c fh (k0_off22 (wordAt c xt (k0_off21 i) (k0_off21_inb i))) (row_inb _ (hall (k0_off21 i) (k0_off21_inb i))),
    srcRow c fh (k0_off24 (wordAt c xt (k0_off23 i) (k0_off23_inb i))) (row_inb _ (hall (k0_off23 i) (k0_off23_inb i))),
    srcRow c fh (k0_off26 (wordAt c xt (k0_off25 i) (k0_off25_inb i))) (row_inb _ (hall (k0_off25 i) (k0_off25_inb i))),
    srcRow c fh (k0_off28 (wordAt c xt (k0_off27 i) (k0_off27_inb i))) (row_inb _ (hall (k0_off27 i) (k0_off27_inb i))),
    srcRow c fh (k0_off30 (wordAt c xt (k0_off29 i) (k0_off29_inb i))) (row_inb _ (hall (k0_off29 i) (k0_off29_inb i))),
    srcRow c fh (k0_off32 (wordAt c xt (k0_off31 i) (k0_off31_inb i))) (row_inb _ (hall (k0_off31 i) (k0_off31_inb i))),
    srcRow c fh (k0_off34 (wordAt c xt (k0_off33 i) (k0_off33_inb i))) (row_inb _ (hall (k0_off33 i) (k0_off33_inb i))),
    srcRow c fh (k0_off36 (wordAt c xt (k0_off35 i) (k0_off35_inb i))) (row_inb _ (hall (k0_off35 i) (k0_off35_inb i))),
    srcRow c fh (k0_off38 (wordAt c xt (k0_off37 i) (k0_off37_inb i))) (row_inb _ (hall (k0_off37 i) (k0_off37_inb i))),
    srcRow c fh (k0_off40 (wordAt c xt (k0_off39 i) (k0_off39_inb i))) (row_inb _ (hall (k0_off39 i) (k0_off39_inb i))),
    srcRow c fh (k0_off42 (wordAt c xt (k0_off41 i) (k0_off41_inb i))) (row_inb _ (hall (k0_off41 i) (k0_off41_inb i))),
    srcRow c fh (k0_off44 (wordAt c xt (k0_off43 i) (k0_off43_inb i))) (row_inb _ (hall (k0_off43 i) (k0_off43_inb i))),
    srcRow c fh (k0_off46 (wordAt c xt (k0_off45 i) (k0_off45_inb i))) (row_inb _ (hall (k0_off45 i) (k0_off45_inb i))),
    srcRow c fh (k0_off48 (wordAt c xt (k0_off47 i) (k0_off47_inb i))) (row_inb _ (hall (k0_off47 i) (k0_off47_inb i))),
    srcRow c fh (k0_off50 (wordAt c xt (k0_off49 i) (k0_off49_inb i))) (row_inb _ (hall (k0_off49 i) (k0_off49_inb i))),
    srcRow c fh (k0_off52 (wordAt c xt (k0_off51 i) (k0_off51_inb i))) (row_inb _ (hall (k0_off51 i) (k0_off51_inb i))),
    srcRow c fh (k0_off54 (wordAt c xt (k0_off53 i) (k0_off53_inb i))) (row_inb _ (hall (k0_off53 i) (k0_off53_inb i))),
    srcRow c fh (k0_off56 (wordAt c xt (k0_off55 i) (k0_off55_inb i))) (row_inb _ (hall (k0_off55 i) (k0_off55_inb i))),
    srcRow c fh (k0_off58 (wordAt c xt (k0_off57 i) (k0_off57_inb i))) (row_inb _ (hall (k0_off57 i) (k0_off57_inb i))),
    srcRow c fh (k0_off60 (wordAt c xt (k0_off59 i) (k0_off59_inb i))) (row_inb _ (hall (k0_off59 i) (k0_off59_inb i))),
    srcRow c fh (k0_off62 (wordAt c xt (k0_off61 i) (k0_off61_inb i))) (row_inb _ (hall (k0_off61 i) (k0_off61_inb i))),
    srcRow c fh (k0_off64 (wordAt c xt (k0_off63 i) (k0_off63_inb i))) (row_inb _ (hall (k0_off63 i) (k0_off63_inb i)))]

/-- What the output block holds after the body: row `y 0` is copy `y 0`'s payload. -/
def blockOf (c : Dev nD) (i : grid0.Coords) (xt : TbBuf (F := F) c) (fh : HbBuf (F := F) c)
    (hall : ∀ (off : Fin 1 → Nat) (h : ∀ a, off a + S1.size a ≤ S2048.size a), (wordAt c xt off h).toNat < 50000) :
    Vec F S32x1x256 .f32 :=
  fun y => pay c i xt fh hall (y 0) (ValueIdx.ix1 (y 2))

/-- The whole-block rectangle of the output window covers every index. -/
theorem out_cover (y : S32x1x256.Idx) : y ∈ (Rect.unit (s := S32x1x256) ![0, 0, 0] ![32, 1, 256] inb_S32x1x256_S32x1x256_0_0_0).set :=
  (View.mem_set_unit_zero (S := S32x1x256) (by funext a; match a with | ⟨0, _⟩ => rfl | ⟨1, _⟩ => rfl | ⟨2, _⟩ => rfl) inb_S32x1x256_S32x1x256_0_0_0 y)

/-! ## The body's run

From the output window's staging buffer and the scratch at any contents, the index table's half at `xt`, the embedding
table whole at `fh`, the thirty-two semaphores at zero and the core owing nothing, the body runs to its end and hands
everything back, the output buffer at `blockOf`: each index word read is below 50000 (`hall`), so every assumed side
condition holds; copy `j` takes read token `2 + j` of the table and row `j` of the scratch's block; its wait gives both
back; the two row blocks joined are the scratch whole, which the final load reads and the store writes out. -/

set_option sl_exec.dmaWindow true in
set_option sl_exec.dmaWindowSet true in
set_option maxHeartbeats 40000000 in
theorem kernelRun (c : Dev nD) (i : grid0.Coords) (arg3 : Memref sig .tc .vmem S32x1x256 .f32) (harg3 : arg3.IsWhole)
    (xt : TbBuf (F := F) c) (fh : HbBuf (F := F) c)
    (hall : ∀ (off : Fin 1 → Nat) (h : ∀ a, off a + S1.size a ≤ S2048.size a), (wordAt c xt off h).toNat < 50000)
    (W : Waits sig Unit) (K : PUnit → sProp 𝕄) :
    iprop((∃ d, owns (c : Thread nD τ) arg3 fullShare d) ∗ (∃ d, owns (c : Thread nD τ) scM fullShare d) ∗ tbPt c xt ∗ hbPt c fh
        ∗ Pipeline.ownSems0 (Ix := Unit) (Name := ℕ) (U := Pipeline.UD sig nD τ) (Lvl := ℕ) (Val := Elt F) (τ := τ) osem c
        ∗ owes (c : Thread nD τ) 0 W
        ∗ (iprop(owns (c : Thread nD τ) arg3 fullShare (blockOf c i xt fh hall) ∗ (∃ d, owns (c : Thread nD τ) scM fullShare d) ∗ tbPt c xt ∗ hbPt c fh
            ∗ Pipeline.ownSems0 (Ix := Unit) (Name := ℕ) (U := Pipeline.UD sig nD τ) (Lvl := ℕ) (Val := Elt F) (τ := τ) osem c
            ∗ (∃ W', owes (c : Thread nD τ) 0 W')) -∗ K ⟨⟩))
      ⊢ wp frame (wpE (defs₀ (F := F)) Variants.none c none) Set.univ (cc0__gather_kernel i tbM htbM hbM (Memref.isWhole_whole _) arg3 harg3 scM (Memref.isWhole_whole _) cc0_scratch1) K := by
  simp only [cc0__gather_kernel_eq_skeleton]; unfold cc0__gather_kernel_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton]
  unfold owns
  rw [ownSems_eq]
  iintro ⟨⟨%d1, %f1, -, H1⟩, ⟨%ds0, %fs0, -, HS⟩, HT, Hh,
    ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, HW, Hk⟩
  -- the table's share as one read token per semaphore, and the scratch as its two row blocks
  ihave Hh' := (Transfers.pointsTo_toks_split (Ix := Unit) (Name := ℕ) (U := Pipeline.UD sig nD τ) (Lvl := ℕ) fullShare 34) $$ Hh
  icases Hh' with ⟨Hh, Ht⟩
  ihave Ht' := (Entails.of_eq (toks_eq c fh)) $$ Ht
  icases Ht' with ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33⟩
  ihave HS' := (sc_split c fs0) $$ HS
  icases HS' with ⟨HSa, HSb⟩
  -- the thirty-two reads, checks and copies, then the thirty-two waits
  sl_exec (disch := first | exact And.intro (row_inb _ (hall _ _)) (row_inb _ (hall _ _)) | exact row_inb _ (hall _ _))
  -- the scratch whole again, for the final load and the store
  ihave HSj := (sc_join c _ _) $$ [HSa HSb]
  · isplitl [HSa]; · iexact HSa
    iexact HSb
  sl_exec
  sl_step
  iapply Hk
  isplitl [H1]
  · iexists _; isplitr; swap; · iexact H1
    ipureintro
    rw [View.read_writes_eq_canon _ _ _ (fun y => ⟨_, List.mem_singleton.mpr rfl, out_cover y⟩),
      View.canon_unit_zero (S := S32x1x256) (by funext a; match a with | ⟨0, _⟩ => rfl | ⟨1, _⟩ => rfl | ⟨2, _⟩ => rfl)]
    sl_unfold_words
    exact final_block c fs0 (pay c i xt fh hall)
  isplitl [HSj]
  · iexists _, _; isplitr; swap; · iexact HSj
    ipureintro; rfl
  isplitl [HT]; · iexact HT
  isplitl [Hh Ht0 Ht1 Ht2 Ht3 Ht4 Ht5 Ht6 Ht7 Ht8 Ht9 Ht10 Ht11 Ht12 Ht13 Ht14 Ht15 Ht16 Ht17 Ht18 Ht19 Ht20 Ht21 Ht22 Ht23 Ht24 Ht25 Ht26 Ht27 Ht28 Ht29 Ht30 Ht31 Ht32 Ht33]
  · iapply (Transfers.pointsTo_toks_join (Ix := Unit) (Name := ℕ) (U := Pipeline.UD sig nD τ) (Lvl := ℕ) fullShare 34)
    isplitl [Hh]; · iexact Hh
    iapply (Entails.of_eq (toks_eq c fh).symm)
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht17]; · iexact Ht17
    isplitl [Ht18]; · iexact Ht18
    isplitl [Ht19]; · iexact Ht19
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    isplitl [Ht26]; · iexact Ht26
    isplitl [Ht27]; · iexact Ht27
    isplitl [Ht28]; · iexact Ht28
    isplitl [Ht29]; · iexact Ht29
    isplitl [Ht30]; · iexact Ht30
    isplitl [Ht31]; · iexact Ht31
    isplitl [Ht32]; · iexact Ht32
    iexact Ht33
  isplitr [HW]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    iexact Hq31
  iexists _; iexact HW

end Cert.KernelIdeal.Hand
end
-- ==== Proof.KFrame.lean ====
/-
  The gather kernel's program as a whole: @main reshapes the [8, 256] index array into the 2048-word table the
  region prefetches, runs the region over its 64 grid points (each point the body run of the previous module, writing
  one [32, 1, 256] block of the [2048, 1, 256] result), and reshapes the result twice, to [2048, 256] and to
  [8, 256, 256]. Under the one hypothesis that every index word names a row of the embedding table, every weakly fair
  execution terminates without a fault; the region's result holds the blocks the body leaves, every other buffer what
  the reshapes make of the entry contents, and the two arguments end as launched.
-/
import proofs.«412030_j16183436772039_1_alg».proof.Proof.Gen.KernelIdeal.Launch
import proofs.«412030_j16183436772039_1_alg».proof.Proof.Gen.KernelIdeal.Skeleton
import proofs.«412030_j16183436772039_1_alg».proof.Proof.Halves
import proofs.«412030_j16183436772039_1_alg».proof.Proof.KBase
import proofs.«412030_j16183436772039_1_alg».proof.Proof.KRun
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region

@main reshapes the index array into the 2048-word table, enters the region, and reshapes the region's
[2048, 1, 256] result twice. -/

/-- Core `c`'s buffer contents when the region is entered: after the reshape that makes the index table. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, then the two reshapes: it reduces to the region continued by the later lines. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The index table -/

/-- The table's contents at region entry (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table, so any contents are admissible. -/
abbrev adm : (pcfg0 (F := F)).Adm := ⟨tbl m, trivial⟩
abbrev cfgM : Pipeline.Cfg sig Λ₀ := cfg0 (adm m)

/-- The table's half the region hands the body. -/
theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The invariant between grid points

The scratch at some contents, the generator register, the thirty-two semaphores at zero and the embedding table
whole at its entry contents (nothing is in flight between points, and the table is only read), beside the index
table's half. -/

/-- The one unscoped buffer the body moves itself: the embedding table. -/
def H : Finset (Ref sig .tc) := {main_arg1}
theorem H_sub : H ⊆ Pipeline.restRefsP sig pre0 spec0 := by decide

theorem hbmPts_eq (c : Dev nD) :
    (bigSep H (fun b => ((c : Thread nD τ).loc b) ↦{fullShare} V m c b) : sProp 𝕄) = hbPt c (V m c main_arg1) := by
  rw [BI.bigSep_eq_bigSepL_of_eq [main_arg1] (by decide) (by decide)]; rfl

theorem PhiD_eq (c : Dev nD) :
    (Pipeline.ΦD osem spec0 H (V m) c : sProp 𝕄)
      = iprop(iprop((∃ d, owns (c : Thread nD τ) scM fullShare d)) ∗ (∃ r, prngReg c r)
          ∗ Pipeline.ownSems0 (Ix := Unit) (Name := ℕ) (U := Pipeline.UD sig nD τ) (Lvl := ℕ) (Val := Elt F) (τ := τ) osem c
          ∗ hbPt c (V m c main_arg1)) := by
  rw [Pipeline.ΦD_eq, scopedRest0_eq, hbmPts_eq]; simp only [scM, owns_whole]; try rfl

/-! ## The proof data -/

/-- Every index word of the table at region entry names a row of the embedding table. The frame holds under this;
    the certificate's precondition gives it. -/
def InRange : Prop :=
  ∀ (c : Dev nD) (off : Fin 1 → Nat) (h : ∀ a, off a + S1.size a ≤ S2048.size a), (wordAt c (tbl m 0) off h).toNat < 50000

/-- The arrays as the region finds them; after the body at point `t` the output's staging buffer holds the thirty-two
    table rows the point's index words name; the invariant above; nothing owed; full shares. -/
def dats (hR : InRange m) (_ : Fin 1) (c : Dev nD) : Dat τ (Elt F) Unit ℕ (Pipeline.UD sig nD τ) ℕ (cfgM m) c where
  A w := V m c (Pipeline.arrRef spec0 w)
  after w t := match w with
    | ⟨0, _⟩ => blockOf c (grid0.coords t) (tbl m 0) (V m c main_arg1) (hR c)
  Φ _ := iprop(Pipeline.ΦD osem spec0 H (V m) c ∗ Pipeline.ΦT pre0 (tbl m) c)
  q _ := fullShare
  owed _ := 0

theorem A_eq (hR : InRange m) (c : Dev nD) (w : Fin (cfgM m).W) : (dats m hR 0 c).A w = V m c (Pipeline.arrRef spec0 w) := by
  dsimp only [dats]
theorem after0 (hR : InRange m) (c : Dev nD) (t : Fin (cfgM m).N) :
    (dats m hR 0 c).after 0 t = blockOf c (grid0.coords t) (tbl m 0) (V m c main_arg1) (hR c) := by dsimp only [dats]; try rfl

/-! ## The body obligation -/

/-- The output window's current staging memref at point `t`, and the body as the pipeline calls it there. -/
abbrev ms (t : Fin (cfgM m).N) : Memref sig .tc .vmem S32x1x256 .f32 := spec0_0.stage ((cfgM m).slots t 0)
abbrev bodyAt (t : Fin (cfgM m).N) : Prog (TpuEff nD τ sig (Elt F) Λ₀ .tc) PUnit :=
  cc0__gather_kernel (grid0.coords t) (Memref.whole main_v0) (Memref.isWhole_whole _) (Memref.whole main_arg1) (Memref.isWhole_whole _)
    (spec0_0.stage ((cfgM m).slots t 0)) (hstage0_0 (((cfgM m).slots t 0).cast nbuf0_0)) (Memref.whole cc0_scratch0) (Memref.isWhole_whole _) cc0_scratch1

def bodyPre (hR : InRange m) (c : Dev nD) (t : Fin (cfgM m).N) : sProp 𝕄 :=
  iprop((dats m hR 0 c).Φ t.castSucc ∗ (dats m hR 0 c).owesAt () t.castSucc
    ∗ (∃ d, owns (c : Thread nD τ) (ms m t) fullShare ((dats m hR 0 c).before 0 t d)))
def bodyPost (hR : InRange m) (c : Dev nD) (t : Fin (cfgM m).N) : sProp 𝕄 :=
  iprop((dats m hR 0 c).Φ t.succ ∗ (dats m hR 0 c).owesAt () t.succ
    ∗ owns (c : Thread nD τ) (ms m t) fullShare ((dats m hR 0 c).after 0 t))

/-- The body at any point: the invariant hands it the scratch, the semaphores, the embedding table and the index table's
    half, and takes them back as they were; the output's buffer goes in at anything and comes back at the point's block. -/
theorem sound_body (hR : InRange m) (c : Dev nD) (t : Fin (cfgM m).N) :
    bodyPre m hR c t ⊢ wp frame (wpE (defs₀ (F := F)) Variants.none c none) Set.univ (bodyAt m t) (fun _ => bodyPost m hR c t) := by
  unfold bodyPre bodyPost bodyAt
  rw [show (dats m hR 0 c).Φ t.succ = (dats m hR 0 c).Φ t.castSucc from rfl, after0]
  rw [show (dats m hR 0 c).Φ t.castSucc = iprop(Pipeline.ΦD osem spec0 H (V m) c ∗ Pipeline.ΦT pre0 (tbl m) c) from rfl, PhiD_eq, PhiT_eq]
  unfold Dat.owesAt Pipeline.owesWithin
  rw [show (dats m hR 0 c).owed t.castSucc = 0 from rfl, show (dats m hR 0 c).owed t.succ = 0 from rfl]
  iintro ⟨⟨⟨HS, Hg, Hq, Hh⟩, HT⟩, ⟨%W, -, HW⟩, ⟨%d0, H0⟩⟩
  iapply (kernelRun c (grid0.coords t) _ _ (tbl m 0) (V m c main_arg1) (hR c) W _)
  isplitl [H0]; · iexists _; iexact H0
  isplitl [HS]; · iexact HS
  isplitl [HT]; · iexact HT
  isplitl [Hh]; · iexact Hh
  isplitl [Hq]; · iexact Hq
  isplitl [HW]; · iexact HW
  iintro ⟨H0, HS, HT, Hh, Hq, ⟨%W', HW'⟩⟩
  isplitl [HS Hg Hq Hh HT]
  · isplitr [HT]
    · isplitl [HS]; · iexact HS
      isplitl [Hg]; · iexact Hg
      isplitl [Hq]; · iexact Hq
      iexact Hh
    · iexact HT
  isplitl [HW']
  · iexists W'; isplitr; · ipureintro; exact fun _ _ => Or.inl trivial
    iexact HW'
  iexact H0

theorem body_obligation (hR : InRange m) (c : Dev nD) : BodyObligation (dats (F := F) m hR 0 c) (defs₀ (F := F)) Variants.none () Set.univ := fun t => by
  rw [bigSep_W0, bigSep_W0]
  exact sound_body m hR c t

/-! ## The lines after the region -/

/-- The two reshapes touch the region's result and their own results: no table, not the embedding table. -/
theorem sfx_sub : ∀ ops ∈ ([hostOps1] : List (List (HloOp τ sig (Elt F)))), ∀ op ∈ ops,
    op.bufs ⊆ Pipeline.tailRefsBut sig pre0 spec0 H := by
  intro ops hops op hop
  simp only [List.mem_cons, List.mem_nil_iff, or_false] at hops
  rcases hops with rfl
  refine Pipeline.sub_tailRefsBut pre0 spec0 H op ((List.forall_iff_forall_mem.mp hostOps1_sub) op hop) ?_ ?_
  · simp only [hostOps1, List.mem_cons, List.mem_nil_iff, or_false] at hop
    rcases hop with rfl | rfl <;> intro k <;> fin_cases k <;>
      simp only [StableHlo.reshape_bufs, Finset.mem_insert, Finset.mem_singleton, not_or] <;>
      exact ⟨StableHlo.devRef_ne_of_ne (by decide), StableHlo.devRef_ne_of_ne (by decide)⟩
  · simp only [hostOps1, List.mem_cons, List.mem_nil_iff, or_false] at hop
    rcases hop with rfl | rfl <;> intro b hb <;>
      (simp only [H, Finset.mem_singleton] at hb; subst hb
       simp only [StableHlo.reshape_bufs, Finset.mem_insert, Finset.mem_singleton, not_or]
       exact ⟨StableHlo.devRef_ne_of_ne (by decide), StableHlo.devRef_ne_of_ne (by decide)⟩)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes only its own result, which is not the region's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-! ## The run -/

set_option backward.isDefEq.respectTransparency.types false in
/-- Under `InRange`, every weakly fair execution of @main terminates; the region's result array holds what the proof
    data computes block by block, and every other unscoped buffer what the two reshapes leave from the entry contents. -/
theorem run_main (hR : InRange m) : θ_run defs (onTc (τ := τ) (main (F := F))) (s₀ m ρ)
    (Pipeline.FramePost (Pipeline.pin pcfgs fun _ => adm m) (dats m hR) 0 (Pipeline.afterTail pcfgs (fun _ => adm m) (dats m hR) 0 (V0 m) [hostOps1])) :=
  Pipeline.θ_run_frameP_dma_around pcfgs (fun _ => adm m) (dats m hR) (0 : Fin 1) launch0 osem defs₀ Variants.none ownSemFacts H H_sub m ρ main
    (hbody := fun c => (body_obligation m hR c).loose) (hshare := fun c => (dats m hR 0 c).share_full fun _ => rfl)
    (howed := fun _ _ => rfl) (V₀ := V0 m) (opss := [hostOps1]) (hsub := sfx_sub) (hfresh := sfx_fresh) (hkeep := sfx_keeps)
    (hmain := hmain m Variants.none) (hA := A_eq m hR) (hpf := fun c k => V_pre m c k)
    (hin := fun _ => .rfl) (hout := fun c => (show iprop(Pipeline.ΦD osem spec0 H (V m) c ∗ Pipeline.ΦT pre0 (tbl m) c) ⊢ Pipeline.ΦD osem spec0 H (V m) c from by
      iintro ⟨HD, -⟩; iexact HD))

/-! ## The frame: the arguments end as launched

No line of @main writes an argument array, and no window of the region stages one, so the run's post read at the two
arguments is their launch contents. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

theorem W_main_arg0 (hR : InRange m) (c : Dev nD) :
    Pipeline.afterTail pcfgs (fun _ => adm m) (dats m hR) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (hR : InRange m) (c : Dev nD) :
    Pipeline.afterTail pcfgs (fun _ => adm m) (dats m hR) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The frame claim's post, under `InRange`. -/
theorem frame (hR : InRange m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (show ∀ w : Fin 1, Pipeline.arrRef spec0 w ≠ main_arg0 from by decide))).trans (W_main_arg0 m hR c),
     ((h c).2 main_arg1 (Pipeline.mem_restRefs_of main_arg1 (by decide) (show ∀ w : Fin 1, Pipeline.arrRef spec0 w ≠ main_arg1 from by decide))).trans (W_main_arg1 m hR c)⟩) (run_main m ρ hR)

end Cert.KernelIdeal.Hand
end
-- ==== Proof.KPre.lean ====
/-
  The hypothesis the kernel's frame runs under, from a bound on the index array. The region prefetches a table of
  2048 index words; @main makes that table, before the region is entered, by reshaping the [8, 256] index array, and a
  reshape only renumbers: the table's word at position q is the index array's word at the index with the same
  row-major position. The body reads the table one word at a time, through a one-word rectangle of the whole table,
  and what it reads is the table's contents at the index that rectangle names. So every word the body can read is
  some word of the index array, and a bound that holds for every word of the index array holds for it.
-/
import proofs.«412030_j16183436772039_1_alg».proof.Proof.KFrame
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The index table at region entry is the index array reshaped to 2048 words: the one operation @main runs before
    the region writes the table's buffer with exactly that, from the launch contents of the index array. -/
private theorem tbl_eq : (tbl m 0 : S2048.Idx → Elt F .i32)
    = shapeCast S2048 (m (((0 : Dev nD) : Thread nD τ).loc main_arg0)) shapeCasts_S8x256_S2048 := by
  show StableHlo.after hostOps0 (fun b => m ((0 : Dev nD), b)) (Proc.devRef .tc main_v0) = _
  after_results
  rfl

/-- Every index word below 50000 puts every word of the table below 50000. -/
theorem inRange_of_idx (hidx : ∀ (c : Dev nD) (p : S8x256.Idx), (m ((c : Thread nD τ).loc main_arg0) p).toNat < 50000) : InRange m := by
  intro c off h
  -- the word read through the one-word rectangle is the table's contents at the index the rectangle names
  show ((tbl m 0 : S2048.Idx → Elt F .i32) _).toNat < 50000
  -- which is the index array's contents at the index of the same row-major position
  rw [tbl_eq]
  exact hidx 0 _

end Cert.KernelIdeal.Hand
end
-- ==== Proof.KValue.lean ====
/-
  The gather kernel's value: what the result buffer holds after the run, as a function of the two arguments.

  One copy: the one-row window of the embedding table at offsets (v, 0), its unit axis dropped, read at column d is the
  table at (v, d); the one-word window of the index table at offset n reads the table's word n; and at grid point i
  the k-th word offset the body computes, 32 · i + k in 32-bit arithmetic, is that number (i < 64, k < 32: nothing
  wraps). So copy j's payload at point i, column d, is the embedding table at (w, d) with w the index table's word
  32 i + j — each word being below 50000, that is row `rowOf w`.

  The region: the block the body leaves at point t, read at (y0, y1, y2), is therefore G1 at (32 t + y0, y1, y2), where
  G1 (r, ·, d) is the embedding table at (rowOf (word r), d). The output window's block index at point t is (t, 0, 0)
  with block sizes (32, 1, 256), so an element of point t's block sits in the [2048, 1, 256] array exactly there: every
  point writes back its block of the one function G1, the 64 blocks tile the 2048 rows (row r lies in the block of point
  r / 32), and the array ends at G1.

  @main around the region: the index table is the [8, 256] index array reshaped to 2048 words, so word 256 b + s is
  entry (b, s); the result is the region's array reshaped to [2048, 256] and then to [8, 256, 256], and a reshape keeps
  row-major position, so entry (b, s, d) of the result is entry (256 b + s, 0, d) of the array: the embedding table at
  (rowOf (idx (b, s)), d), which is the row gather of the shared specification.
-/
import proofs.«412030_j16183436772039_1_alg».proof.Proof.KFrame
import proofs.«412030_j16183436772039_1_alg».proof.Proof.Spec
import Idealize.ShloMosaic.Lib.ValueIdx
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## One copy's payload at a column -/

/-- A row of the table read through the one-row window at offsets `off`, at column `d`: the table at
    `(off 0, off 1 + d)`. Dropping the unit axis matches column `d` with `(0, d)` of the 1 × 256 row (the same
    row-major position), and the unit-stride rectangle at `off` sends `(0, d)` to `(off 0 + 0, off 1 + d)`. -/
theorem srcRow_apply (c : Dev nD) (fh : HbBuf (F := F) c) (off : Fin 2 → Nat) (h : ∀ a, off a + S1x256.size a ≤ S50000x256.size a)
    (d : Fin 256) (k : S50000x256.Idx) (hk0 : (k 0).val = off 0) (hk1 : (k 1).val = off 1 + d.val) :
    srcRow c fh off h (ix1 d) = (fh : S50000x256.Idx → Elt F .f32) k := by
  have hsq : Shape.reshapeEquiv (squeezes_S1x256_S256.numel_eq) (ix1 d) = (ix2 (0 : Fin 1) d : S1x256.Idx) :=
    Shape.reshapeEquiv_eq_of_rowMajor _ (by
      rw [Shape.rowMajor_val_two, Shape.rowMajor_val_one]
      show 0 * 256 + d.val = d.val
      omega)
  show View.read (Elt F) ((hbM.slice (Rect.unit (s := S50000x256) off S1x256.size h) (fun _ => rfl)).squeeze S256 squeezes_S1x256_S256).view fh (ix1 d) = _
  rw [View.read_apply, cast_eq]
  show fh (hbM.view.emb ((Rect.unit (s := S50000x256) off S1x256.size h).emb (Shape.reshapeEquiv _ (ix1 d)))) = _
  rw [hsq]
  refine congrArg fh (funext fun a => Fin.ext ?_)
  match a with
  | ⟨0, _⟩ => show off 0 + 1 * 0 = (k 0).val; omega
  | ⟨1, _⟩ => show off 1 + 1 * d.val = (k 1).val; omega

/-- The index word read through the one-word rectangle at offset `off` is the table's word `off 0`. -/
theorem wordAt_apply (c : Dev nD) (xt : TbBuf (F := F) c) (off : Fin 1 → Nat) (h : ∀ a, off a + S1.size a ≤ S2048.size a)
    (n : S2048.Idx) (hn : (n 0).val = off 0) : wordAt c xt off h = (xt : S2048.Idx → BitVec 32) n := by
  show tbM.view.readAt (Elt F) (Rect.unit (s := S2048) off S1.size h).toLoadRect xt _ = _
  rw [View.readAt_apply, View.read_apply, cast_eq]
  refine congrArg xt (funext fun a => Fin.ext ?_)
  match a with
  | ⟨0, _⟩ => show off 0 + 1 * 0 = (n 0).val; omega

/-- The word offsets in closed form: at grid point `n` (below 64) the `k`-th word read (below 32) is word `32 n + k` of
    the table; the 32-bit product and sum do not wrap. -/
theorem word_off (n k : Nat) (hn : n < 64) (hk : k < 32) :
    (Scalar.indexCast (Scalar.addi (Scalar.muli (BitVec.ofNat 32 n) 32#32) (BitVec.ofNat 32 k))).toNat = 32 * n + k := by
  show ((BitVec.ofNat 32 n * 32#32 + BitVec.ofNat 32 k : BitVec 32)).toNat = _
  rw [BitVec.toNat_add, BitVec.toNat_mul, BitVec.toNat_ofNat, BitVec.toNat_ofNat, BitVec.toNat_ofNat]
  omega

/-- Copy `j`'s payload when its word is read at offset `off1`, which is word `n` of the table: row `xt n` of the
    embedding table. -/
theorem entry_apply (c : Dev nD) (xt : TbBuf (F := F) c) (fh : HbBuf (F := F) c) (off1 : Fin 1 → Nat)
    (h1 : ∀ a, off1 a + S1.size a ≤ S2048.size a) (n : Fin 2048) (hn : off1 0 = n.val)
    (hrow : ∀ a, (![(wordAt c xt off1 h1).toNat, 0] : Fin 2 → Nat) a + S1x256.size a ≤ S50000x256.size a) (d : Fin 256) :
    srcRow c fh ![(wordAt c xt off1 h1).toNat, 0] hrow (ix1 d)
      = (fh : S50000x256.Idx → Elt F .f32) (ix2 (Cert.Spec.rowOf ((xt : S2048.Idx → BitVec 32) (ix1 n))) d) := by
  have hw : wordAt c xt off1 h1 = (xt : S2048.Idx → BitVec 32) (ix1 n) := wordAt_apply c xt off1 h1 (ix1 n) hn.symm
  have hlt : ((xt : S2048.Idx → BitVec 32) (ix1 n)).toNat < 50000 := by
    have := hrow 0
    rw [hw] at this
    have h2 : ((xt : S2048.Idx → BitVec 32) (ix1 n)).toNat + 1 ≤ 50000 := this
    omega
  refine srcRow_apply c fh _ hrow d _ ?_ ?_
  · show (Cert.Spec.rowOf _).val = (wordAt c xt off1 h1).toNat
    rw [Cert.Spec.rowOf_val _ hlt, hw]
  · show d.val = 0 + d.val
    omega

/-- Copy `j`'s payload at grid point `i`, column `d`: row `xt (32 i + j)` of the embedding table at column `d`. The
    thirty-two copies differ only in the literal added to `32 i`, so the same argument serves each. -/
theorem pay_apply (c : Dev nD) (i : grid0.Coords) (xt : TbBuf (F := F) c) (fh : HbBuf (F := F) c)
    (hall : ∀ (off : Fin 1 → Nat) (h : ∀ a, off a + S1.size a ≤ S2048.size a), (wordAt c xt off h).toNat < 50000)
    (j : Fin 32) (d : Fin 256) (n : Fin 2048) (hn : n.val = 32 * (i 0).val + j.val) :
    pay c i xt fh hall j (ix1 d)
      = (fh : S50000x256.Idx → Elt F .f32) (ix2 (Cert.Spec.rowOf ((xt : S2048.Idx → BitVec 32) (ix1 n))) d) := by
  have hi : (i 0).val < 64 := (i 0).isLt
  match j, hn with
  | ⟨0, _⟩, hn => exact entry_apply c xt fh (k0_off1 i) (k0_off1_inb i) n ((word_off (i 0).val 0 hi (by decide)).trans hn.symm) (row_inb _ (hall _ _)) d
  | ⟨1, _⟩, hn => exact entry_apply c xt fh (k0_off3 i) (k0_off3_inb i) n ((word_off (i 0).val 1 hi (by decide)).trans hn.symm) (row_inb _ (hall _ _)) d
  | ⟨2, _⟩, hn => exact entry_apply c xt fh (k0_off5 i) (k0_off5_inb i) n ((word_off (i 0).val 2 hi (by decide)).trans hn.symm) (row_inb _ (hall _ _)) d
  | ⟨3, _⟩, hn => exact entry_apply c xt fh (k0_off7 i) (k0_off7_inb i) n ((word_off (i 0).val 3 hi (by decide)).trans hn.symm) (row_inb _ (hall _ _)) d
  | ⟨4, _⟩, hn => exact entry_apply c xt fh (k0_off9 i) (k0_off9_inb i) n ((word_off (i 0).val 4 hi (by decide)).trans hn.symm) (row_inb _ (hall _ _)) d
  | ⟨5, _⟩, hn => exact entry_apply c xt fh (k0_off11 i) (k0_off11_inb i) n ((word_off (i 0).val 5 hi (by decide)).trans hn.symm) (row_inb _ (hall _ _)) d
  | ⟨6, _⟩, hn => exact entry_apply c xt fh (k0_off13 i) (k0_off13_inb i) n ((word_off (i 0).val 6 hi (by decide)).trans hn.symm) (row_inb _ (hall _ _)) d
  | ⟨7, _⟩, hn => exact entry_apply c xt fh (k0_off15 i) (k0_off15_inb i) n ((word_off (i 0).val 7 hi (by decide)).trans hn.symm) (row_inb _ (hall _ _)) d
  | ⟨8, _⟩, hn => exact entry_apply c xt fh (k0_off17 i) (k0_off17_inb i) n ((word_off (i 0).val 8 hi (by decide)).trans hn.symm) (row_inb _ (hall _ _)) d
  | ⟨9, _⟩, hn => exact entry_apply c xt fh (k0_off19 i) (k0_off19_inb i) n ((word_off (i 0).val 9 hi (by decide)).trans hn.symm) (row_inb _ (hall _ _)) d
  | ⟨10, _⟩, hn => exact entry_apply c xt fh (k0_off21 i) (k0_off21_inb i) n ((word_off (i 0).val 10 hi (by decide)).trans hn.symm) (row_inb _ (hall _ _)) d
  | ⟨11, _⟩, hn => exact entry_apply c xt fh (k0_off23 i) (k0_off23_inb i) n ((word_off (i 0).val 11 hi (by decide)).trans hn.symm) (row_inb _ (hall _ _)) d
  | ⟨12, _⟩, hn => exact entry_apply c xt fh (k0_off25 i) (k0_off25_inb i) n ((word_off (i 0).val 12 hi (by decide)).trans hn.symm) (row_inb _ (hall _ _)) d
  | ⟨13, _⟩, hn => exact entry_apply c xt fh (k0_off27 i) (k0_off27_inb i) n ((word_off (i 0).val 13 hi (by decide)).trans hn.symm) (row_inb _ (hall _ _)) d
  | ⟨14, _⟩, hn => exact entry_apply c xt fh (k0_off29 i) (k0_off29_inb i) n ((word_off (i 0).val 14 hi (by decide)).trans hn.symm) (row_inb _ (hall _ _)) d
  | ⟨15, _⟩, hn => exact entry_apply c xt fh (k0_off31 i) (k0_off31_inb i) n ((word_off (i 0).val 15 hi (by decide)).trans hn.symm) (row_inb _ (hall _ _)) d
  | ⟨16, _⟩, hn => exact entry_apply c xt fh (k0_off33 i) (k0_off33_inb i) n ((word_off (i 0).val 16 hi (by decide)).trans hn.symm) (row_inb _ (hall _ _)) d
  | ⟨17, _⟩, hn => exact entry_apply c xt fh (k0_off35 i) (k0_off35_inb i) n ((word_off (i 0).val 17 hi (by decide)).trans hn.symm) (row_inb _ (hall _ _)) d
  | ⟨18, _⟩, hn => exact entry_apply c xt fh (k0_off37 i) (k0_off37_inb i) n ((word_off (i 0).val 18 hi (by decide)).trans hn.symm) (row_inb _ (hall _ _)) d
  | ⟨19, _⟩, hn => exact entry_apply c xt fh (k0_off39 i) (k0_off39_inb i) n ((word_off (i 0).val 19 hi (by decide)).trans hn.symm) (row_inb _ (hall _ _)) d
  | ⟨20, _⟩, hn => exact entry_apply c xt fh (k0_off41 i) (k0_off41_inb i) n ((word_off (i 0).val 20 hi (by decide)).trans hn.symm) (row_inb _ (hall _ _)) d
  | ⟨21, _⟩, hn => exact entry_apply c xt fh (k0_off43 i) (k0_off43_inb i) n ((word_off (i 0).val 21 hi (by decide)).trans hn.symm) (row_inb _ (hall _ _)) d
  | ⟨22, _⟩, hn => exact entry_apply c xt fh (k0_off45 i) (k0_off45_inb i) n ((word_off (i 0).val 22 hi (by decide)).trans hn.symm) (row_inb _ (hall _ _)) d
  | ⟨23, _⟩, hn => exact entry_apply c xt fh (k0_off47 i) (k0_off47_inb i) n ((word_off (i 0).val 23 hi (by decide)).trans hn.symm) (row_inb _ (hall _ _)) d
  | ⟨24, _⟩, hn => exact entry_apply c xt fh (k0_off49 i) (k0_off49_inb i) n ((word_off (i 0).val 24 hi (by decide)).trans hn.symm) (row_inb _ (hall _ _)) d
  | ⟨25, _⟩, hn => exact entry_apply c xt fh (k0_off51 i) (k0_off51_inb i) n ((word_off (i 0).val 25 hi (by decide)).trans hn.symm) (row_inb _ (hall _ _)) d
  | ⟨26, _⟩, hn => exact entry_apply c xt fh (k0_off53 i) (k0_off53_inb i) n ((word_off (i 0).val 26 hi (by decide)).trans hn.symm) (row_inb _ (hall _ _)) d
  | ⟨27, _⟩, hn => exact entry_apply c xt fh (k0_off55 i) (k0_off55_inb i) n ((word_off (i 0).val 27 hi (by decide)).trans hn.symm) (row_inb _ (hall _ _)) d
  | ⟨28, _⟩, hn => exact entry_apply c xt fh (k0_off57 i) (k0_off57_inb i) n ((word_off (i 0).val 28 hi (by decide)).trans hn.symm) (row_inb _ (hall _ _)) d
  | ⟨29, _⟩, hn => exact entry_apply c xt fh (k0_off59 i) (k0_off59_inb i) n ((word_off (i 0).val 29 hi (by decide)).trans hn.symm) (row_inb _ (hall _ _)) d
  | ⟨30, _⟩, hn => exact entry_apply c xt fh (k0_off61 i) (k0_off61_inb i) n ((word_off (i 0).val 30 hi (by decide)).trans hn.symm) (row_inb _ (hall _ _)) d
  | ⟨31, _⟩, hn => exact entry_apply c xt fh (k0_off63 i) (k0_off63_inb i) n ((word_off (i 0).val 31 hi (by decide)).trans hn.symm) (row_inb _ (hall _ _)) d
  | ⟨k + 32, hk⟩, _ => exact absurd hk (by omega)

/-! ## The region's result as one function of the table and the embedding table -/

/-- Row `r` of the [2048, 1, 256] result is the row of the embedding table that word `r` of the index table names. -/
def G1 (c : Dev nD) (xt : TbBuf (F := F) c) (fh : HbBuf (F := F) c) : S2048x1x256.Idx → Elt F .f32 :=
  fun i => (fh : S50000x256.Idx → Elt F .f32) (ix2 (Cert.Spec.rowOf ((xt : S2048.Idx → BitVec 32) (ix1 (i 0)))) (i 2))

/-- The block the body leaves at grid point `i`, read at `y`, is `G1` at any index of row `32 i + y 0` and column `y 2`. -/
theorem block_apply (c : Dev nD) (i : grid0.Coords) (xt : TbBuf (F := F) c) (fh : HbBuf (F := F) c)
    (hall : ∀ (off : Fin 1 → Nat) (h : ∀ a, off a + S1.size a ≤ S2048.size a), (wordAt c xt off h).toNat < 50000)
    (y : S32x1x256.Idx) (k : S2048x1x256.Idx) (h0 : (k 0).val = 32 * (i 0).val + (y 0).val) (h2 : (k 2).val = (y 2).val) :
    blockOf c i xt fh hall y = G1 c xt fh k := by
  unfold blockOf G1
  rw [pay_apply c i xt fh hall (y 0) (y 2) (k 0) h0]
  exact congrArg (fun e => (fh : S50000x256.Idx → Elt F .f32) (ix2 (Cert.Spec.rowOf ((xt : S2048.Idx → BitVec 32) (ix1 (k 0)))) e)) (Fin.ext h2.symm)

/-! ## The index map and the grid -/

/-- A point's one coordinate is its number. -/
theorem coords_val (t : Fin grid0.N) : (grid0.coords t 0).val = t.val := by
  have ht : t.val < 64 := lt_of_lt_of_eq t.isLt N_0
  show t.val / grid0.stride 0 % 64 = t.val
  rw [show grid0.stride 0 = 1 from by decide]
  omega

/-- The output window's block index at coordinate `i` is `(i, 0, 0)`. -/
theorem transform_val (i : grid0.Coords) : cc0_transform_1 i = ![(i 0).val, 0, 0] := by
  have hi : (i 0).val < 64 := (i 0).isLt
  unfold cc0_transform_1
  show ![(BitVec.ofNat 32 (i 0).val).toNat, (0#32 : BitVec 32).toNat, (0#32 : BitVec 32).toNat] = _
  rw [BitVec.toNat_ofNat, Nat.mod_eq_of_lt (by omega)]
  rfl

theorem index_val (t : Fin (cfgM m).N) : ((cfgM m).win 0).index t = ![t.val, 0, 0] := by
  show cc0_transform_1 (grid0.coords t) = _
  rw [transform_val, coords_val]

/-- An element of point `t`'s block sits in the array at `(32 t + y 0, y 1, y 2)`. -/
theorem blk_emb_val (t : Fin (cfgM m).N) (y : (((cfgM m).win 0).xblock (grid0.coords t)).Idx) (a : Fin 3) :
    ((((cfgM m).win 0).blk t).view.emb y a : Nat) = (![t.val, 0, 0] : Fin 3 → Nat) a * S32x1x256.size a + (y a).val := by
  refine (Pipeline.Window.rect_emb_val ((cfgM m).win 0) t y a).trans ?_
  rw [index_val]
  rfl

/-- What point `t` writes back is block `t` of `G1`. -/
theorem flushed_eq (hR : InRange m) (c : Dev nD) (t : Fin (cfgM m).N) :
    (dats m hR 0 c).flushed 0 t = (((cfgM m).win 0).blk t).view.read (Elt F) (G1 c (tbl m 0) (V m c main_arg1)) := by
  show ((cfgM m).win 0).cut (grid0.coords t) ((dats m hR 0 c).after 0 t) = _
  rw [after0]
  funext y
  show blockOf c (grid0.coords t) (tbl m 0) (V m c main_arg1) (hR c) (((cfgM m).win 0).xinj (grid0.coords t) y)
      = G1 c (tbl m 0) (V m c main_arg1) ((((cfgM m).win 0).blk t).view.emb y)
  refine block_apply c _ _ _ (hR c) _ _ ?_ ?_
  · refine (blk_emb_val m t y (0 : Fin 3)).trans ?_
    rw [coords_val]
    show t.val * 32 + (y (0 : Fin 3)).val = 32 * t.val + (y (0 : Fin 3)).val
    omega
  · refine (blk_emb_val m t y (2 : Fin 3)).trans ?_
    show 0 * 256 + (y (2 : Fin 3)).val = (y (2 : Fin 3)).val
    omega

/-- Every point writes its block back: it is the last point, or the next point's block index differs. -/
theorem flush_all (t : Fin (cfgM m).N) : ((cfgM m).win 0).flush t = true := by
  unfold Pipeline.Window.flush
  rw [show ((cfgM m).win 0).isOut = true from rfl, Bool.true_and, Bool.or_eq_true, decide_eq_true_eq, decide_eq_true_eq]
  by_cases h : t.val + 1 = (cfgM m).grid.N
  · exact Or.inl h
  · have ht : t.val + 1 < (cfgM m).grid.N := by have : t.val < (cfgM m).grid.N := t.isLt; omega
    refine Or.inr ⟨ht, fun e => ?_⟩
    have e0 := congrFun e (0 : Fin 3)
    rw [index_val, index_val] at e0
    have e1 : t.val + 1 = t.val := e0
    omega

/-- The blocks tile the array: row `r` is in the block of point `r / 32`. -/
theorem cover (i : S2048x1x256.Idx) :
    ∃ t : Fin (cfgM m).N, ((cfgM m).win 0).flush t = true ∧ i ∈ (((cfgM m).win 0).blk t).view.set := by
  have h0 : (i 0).val < 2048 := (i 0).isLt
  have h1 : (i 1).val < 1 := (i 1).isLt
  have h2 : (i 2).val < 256 := (i 2).isLt
  have hN : (cfgM m).N = 64 := N_0
  let t : Fin (cfgM m).N := ⟨(i 0).val / 32, by rw [hN]; omega⟩
  refine ⟨t, flush_all m t, ?_⟩
  show i ∈ ((View.whole main_v1).slice (((cfgM m).win 0).rect t)).set
  refine (View.set_slice_whole main_v1 (((cfgM m).win 0).rect t)).symm ▸ ?_
  refine Rect.mem_set_unit.mpr fun a => ?_
  rw [index_val]
  match a with
  | ⟨0, _⟩ => show (i 0).val / 32 * 32 ≤ (i 0).val ∧ (i 0).val < (i 0).val / 32 * 32 + 32; omega
  | ⟨1, _⟩ => show 0 * 1 ≤ (i 1).val ∧ (i 1).val < 0 * 1 + 1; omega
  | ⟨2, _⟩ => show 0 * 256 ≤ (i 2).val ∧ (i 2).val < 0 * 256 + 256; omega

/-- So the region's result ends holding `G1` of the index table and the embedding table as the region found them. -/
theorem final (hR : InRange m) (c : Dev nD) :
    (dats m hR 0 c).arrAt 0 (cfgM m).N = G1 c (tbl m 0) (V m c main_arg1) :=
  (dats m hR 0 c).arrAt_eq_of_cover 0 (G1 c (tbl m 0) (V m c main_arg1)) (fun t _ => flushed_eq m hR c t) (cover m)

/-! ## The index table is the index array reshaped -/

/-- Word `256 b + s` of the table is entry `(b, s)` of the index array: the reshape keeps row-major position. -/
theorem tbl_apply (c : Dev nD) (n : Fin 2048) (b : Fin 8) (s : Fin 256) (h : n.val = 256 * b.val + s.val) :
    (tbl m 0 : S2048.Idx → BitVec 32) (ix1 n) = (m ((c : Thread nD τ).loc main_arg0) : S8x256.Idx → BitVec 32) (ix2 b s) := by
  obtain rfl : c = 0 := Subsingleton.elim _ _
  have e : (tbl m 0 : S2048.Idx → BitVec 32) = shapeCast S2048 (m (((0 : Dev nD) : Thread nD τ).loc main_arg0) : S8x256.Idx → BitVec 32) shapeCasts_S8x256_S2048 := by
    show StableHlo.after hostOps0 (fun b => m ((0 : Dev nD), b)) (Proc.devRef .tc main_v0) = _
    after_results
    rfl
  rw [e]
  refine shapeCast_apply _ _ _ _ ?_
  show (S8x256.rowMajor (ix2 b s)).val = (S2048.rowMajor (ix1 n)).val
  rw [Shape.rowMajor_val_two, Shape.rowMajor_val_one]
  show b.val * 256 + s.val = n.val
  omega

/-! ## The result buffer -/

/-- The result buffer after the two reshapes is the row gather of the arguments. -/
theorem result_eq (hidx : ∀ (c : Dev nD) (p : S8x256.Idx), (m ((c : Thread nD τ).loc main_arg0) p).toNat < 50000) (hR : InRange m) (c : Dev nD) :
    Pipeline.afterTail pcfgs (fun _ => adm m) (dats m hR) 0 (V0 m) [hostOps1] c main_v3
      = Cert.Spec.gathered (m ((c : Thread nD τ).loc main_arg0)) (m ((c : Thread nD τ).loc main_arg1)) := by
  unfold Pipeline.afterTail
  show StableHlo.after hostOps1 _ (Proc.devRef .tc main_v3) = _
  after_results
  rw [Pipeline.withArrays_arr spec0 (launch0 (F := F)).win.arr_inj c _ _ 0]
  funext j
  obtain ⟨b, s, d, rfl⟩ : ∃ b s d, j = ix3 b s d := ⟨j 0, j 1, j 2, eq_ix3 j⟩
  have hb : b.val < 8 := b.isLt
  have hs : s.val < 256 := s.isLt
  -- row 256 b + s of the [2048, …] arrays
  let r : Fin 2048 := ⟨256 * b.val + s.val, by omega⟩
  show shapeCast S8x256x256
      (shapeCast S2048x256 ((dats m hR 0 c).arrAt 0 (cfgM m).N : S2048x1x256.Idx → Elt F .f32) shapeCasts_S2048x1x256_S2048x256)
      shapeCasts_S2048x256_S8x256x256 (ix3 b s d) = _
  refine (shapeCast_apply _ _ (ix3 b s d) (ix2 r d) ?_).trans ?_
  · rw [Shape.rowMajor_val_two, Shape.rowMajor_val_three]
    show (256 * b.val + s.val) * 256 + d.val = (b.val * 256 + s.val) * 256 + d.val
    omega
  refine (shapeCast_apply _ _ (ix2 r d) (ix3 r (0 : Fin 1) d) ?_).trans ?_
  · rw [Shape.rowMajor_val_three, Shape.rowMajor_val_two]
    show ((256 * b.val + s.val) * 1 + 0) * 256 + d.val = (256 * b.val + s.val) * 256 + d.val
    omega
  rw [final m hR c]
  show (V m c main_arg1 : S50000x256.Idx → Elt F .f32) (ix2 (Cert.Spec.rowOf ((tbl m 0 : S2048.Idx → BitVec 32) (ix1 r))) d) = _
  rw [tbl_apply m c r b s rfl, V_main_arg1, Cert.Spec.gathered_apply]

end Cert.KernelIdeal.Hand
end
-- ==== Proof.KOut.lean ====
/-
  The idealized kernel's value run: under the bound on the indices the program runs, its result buffer ends at the row
  gather of its two arguments, and the arguments end as launched. The run is the frame module's; the result is read off
  it through the two reshapes (Proof/KValue); the bound gives the run's hypothesis (Proof/KPre).
-/
import proofs.«412030_j16183436772039_1_alg».proof.Proof.Gen.KernelIdeal.Launch
import proofs.«412030_j16183436772039_1_alg».proof.Proof.Gen.KernelIdeal.Skeleton
import proofs.«412030_j16183436772039_1_alg».proof.Proof.Halves
import proofs.«412030_j16183436772039_1_alg».proof.Proof.KBase
import proofs.«412030_j16183436772039_1_alg».proof.Proof.KRun
import proofs.«412030_j16183436772039_1_alg».proof.Proof.KFrame
import proofs.«412030_j16183436772039_1_alg».proof.Proof.KPre
import proofs.«412030_j16183436772039_1_alg».proof.Proof.KValue
import proofs.«412030_j16183436772039_1_alg».proof.Proof.Spec
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The value run: the result is the row gather, the arguments unchanged. -/
theorem value_run (hidx : ∀ (c : Dev nD) (p : S8x256.Idx), (m ((c : Thread nD τ).loc main_arg0) p).toNat < 50000) :
    θ_run defs (onTc (τ := τ) (main (F := F))) ⟨m, fun _ => 0, ρ⟩ (fun r => ∀ c : Dev nD,
      r.2.mem ((c.tc : Thread nD τ).loc main_v3) = Cert.Spec.gathered (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (show ∀ w : Fin 1, Pipeline.arrRef spec0 w ≠ main_v3 from by decide))).trans
        (result_eq m hidx (inRange_of_idx m hidx) c),
     ((h c).2 main_arg0 (Pipeline.mem_restRefs_of main_arg0 (by decide) (show ∀ w : Fin 1, Pipeline.arrRef spec0 w ≠ main_arg0 from by decide))).trans (W_main_arg0 m (inRange_of_idx m hidx) c),
     ((h c).2 main_arg1 (Pipeline.mem_restRefs_of main_arg1 (by decide) (show ∀ w : Fin 1, Pipeline.arrRef spec0 w ≠ main_arg1 from by decide))).trans (W_main_arg1 m (inRange_of_idx m hidx) c)⟩)
    (run_main m ρ (inRange_of_idx m hidx))

end Cert.KernelIdeal.Hand
end
-- ==== Proof.lean ====
/-
  An embedding lookup against its reference: the kernel copies, for each of the 2048 indices, the row of the table the
  index names into its result, thirty-two rows per grid point by DMA; the reference takes the rows with a gather. Both
  compute `Cert.Spec.gathered` — entry (b, s, d) of the result is entry (idx (b, s), d) of the table — wherever every
  index names a row of the table, which the precondition states (0 ≤ idx < 50000, decoded in `Cert.PreDecode`). No float
  arithmetic occurs, so the equality is of the same table entries on both sides, at any instance of the floats.

  The kernel's three conjuncts come from one run of its program (Proof/KRun, Proof/KFrame; the word-level program is the
  same text under another name, Proof/BitsRun, Proof/BitsFrame): the frame reads the arguments off that run, the value
  (Proof/KValue) reads the result. The reference's frame and value are its run (Proof/RefRun). The ideal pass rewrote
  nothing, so `preserves` has nothing to state.
-/
import proofs.«412030_j16183436772039_1_alg».proof.Defs
import proofs.«412030_j16183436772039_1_alg».proof.Proof.Gen.Kernel
import proofs.«412030_j16183436772039_1_alg».proof.Proof.Gen.KernelIdeal
import proofs.«412030_j16183436772039_1_alg».proof.Proof.Gen.ReferenceIdeal
import proofs.«412030_j16183436772039_1_alg».proof.Proof.Gen.Pre_finite_inputs
import proofs.«412030_j16183436772039_1_alg».proof.Proof.PreDecode
import proofs.«412030_j16183436772039_1_alg».proof.Proof.RefRun
import proofs.«412030_j16183436772039_1_alg».proof.Proof.BitsFrame
import proofs.«412030_j16183436772039_1_alg».proof.Proof.BitsPre
import proofs.«412030_j16183436772039_1_alg».proof.Proof.KFrame
import proofs.«412030_j16183436772039_1_alg».proof.Proof.KPre
import proofs.«412030_j16183436772039_1_alg».proof.Proof.KValue
import proofs.«412030_j16183436772039_1_alg».proof.Proof.KOut
import Idealize.ShloMosaic.Adequacy
import Idealize.ShloMosaic.Init

noncomputable section

namespace Cert.Proof

open Idealize.ShloMosaic Idealize.SL.Sem

/-- The word-level kernel runs and leaves its arguments: its index words are in range by the precondition. -/
theorem frame_k : Cert.frame_Kernel := fun m ρ hpre =>
  Cert.Kernel.Hand.frame m ρ (Cert.Kernel.Hand.inRange_of_idx m fun c p => Cert.PreDecode.idx_lt _ _ (hpre c) p)

/-- The same of the idealized kernel. -/
theorem frame_ki : Cert.frame_KernelIdeal := fun m ρ hpre =>
  Cert.KernelIdeal.Hand.frame m ρ (Cert.KernelIdeal.Hand.inRange_of_idx m fun c p => Cert.PreDecode.idx_lt _ _ (hpre c) p)

/-- The reference runs and leaves its arguments: its run, the result dropped. -/
theorem frame_ri : Cert.frame_ReferenceIdeal := fun m ρ hpre =>
  (θ_run Cert.ReferenceIdeal.defs _ _).mono (fun _ h c => (h c).2)
    (Cert.ReferenceIdeal.Hand.run m ρ fun c p => Cert.PreDecode.idx_lt _ _ (hpre c) p)

/-- From memories that agree on the arguments both programs end with the row gather of those arguments. -/
theorem algebraic : Cert.algebraic_KernelIdeal_ReferenceIdeal := by
  intro m ρ m' ρ' hpre hagree
  have hidx : ∀ (c : Dev Cert.KernelIdeal.nD) (p : Cert.KernelIdeal.S8x256.Idx),
      (m ((c.tc : Thread Cert.KernelIdeal.nD Cert.KernelIdeal.τ).loc Cert.KernelIdeal.main_arg0) p).toNat < 50000 :=
    fun c p => Cert.PreDecode.idx_lt _ _ (hpre c) p
  refine ⟨fun c => Cert.Spec.gathered (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.value_run m ρ hidx, ?_⟩
  refine (θ_run Cert.ReferenceIdeal.defs _ _).mono (fun _ h c => ⟨(h c).1.trans ?_, (h c).2⟩)
    (Cert.ReferenceIdeal.Hand.run m' ρ' fun c p => by rw [(hagree c).1]; exact hidx c p)
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
